-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256x768 : Shape := ⟨3, ![512, 256, 768]⟩
abbrev S512x32 : Shape := ⟨2, ![512, 32]⟩
abbrev S768x2304 : Shape := ⟨2, ![768, 2304]⟩
abbrev S768 : Shape := ⟨1, ![768]⟩
abbrev S768x1536 : Shape := ⟨2, ![768, 1536]⟩
abbrev S_ : Shape := ⟨0, ![]⟩
abbrev S512 : Shape := ⟨1, ![512]⟩

class Facts : Prop where
  bcast_S_S512x256x768 : S_.BroadcastsInDim S512x256x768 (![] : Fin 0 → Fin S512x256x768.rank)
  reducesTo_S512x256x768_S_d0_1_2 : S512x256x768.ReducesTo [0, 1, 2] S_
  h_S_ : 0 < S_.numel
  bcast_S_S768x2304 : S_.BroadcastsInDim S768x2304 (![] : Fin 0 → Fin S768x2304.rank)
  reducesTo_S768x2304_S_d0_1 : S768x2304.ReducesTo [0, 1] S_
  bcast_S_S768 : S_.BroadcastsInDim S768 (![] : Fin 0 → Fin S768.rank)
  reducesTo_S768_S_d0 : S768.ReducesTo [0] S_
  bcast_S_S768x1536 : S_.BroadcastsInDim S768x1536 (![] : Fin 0 → Fin S768x1536.rank)
  reducesTo_S768x1536_S_d0_1 : S768x1536.ReducesTo [0, 1] S_
  bcast_S_S512x32 : S_.BroadcastsInDim S512x32 (![] : Fin 0 → Fin S512x32.rank)
  reducesTo_S512x32_S_d0_1 : S512x32.ReducesTo [0, 1] S_
  natLt_1_32 : 1 < 32
  reducesTo_S512x32_S512_d1 : S512x32.ReducesTo [1] S512
  bcast_S_S512 : S_.BroadcastsInDim S512 (![] : Fin 0 → Fin S512.rank)
  reducesTo_S512_S_d0 : S512.ReducesTo [0] S_

variable [Facts]

def fn_part2 {F : FTy → Type} [FloatOps F] (main_arg3 : IVec S512x32 32) (main_v33 : IVec S_ 1) : IVec S_ 1 :=
  let main_c_12 : IVec S_ 32 := constantI S_ 32 4294967295#32
  let main_v34 : IVec S512x32 32 := broadcastInDim S512x32 ![] bcast_S_S512x32 main_c_12
  let main_v35 : IVec S512x32 1 := cmpi .sge main_arg3 main_v34
  let main_c_13 : IVec S_ 1 := constantI S_ 1 1#1
  let main_v36 : IVec S_ 1 := (fun x v => Host.reduce IntOp.andi x v reducesTo_S512x32_S_d0_1 h_S_) main_v35 main_c_13
  let main_v37 : IVec S_ 1 := andi main_v33 main_v36
  let main_c_14 : IVec S_ 32 := constantI S_ 32 256#32
  let main_v38 : IVec S512x32 32 := broadcastInDim S512x32 ![] bcast_S_S512x32 main_c_14
  let main_v39 : IVec S512x32 1 := cmpi .slt main_arg3 main_v38
  let main_c_15 : IVec S_ 1 := constantI S_ 1 1#1
  let main_v40 : IVec S_ 1 := (fun x v => Host.reduce IntOp.andi x v reducesTo_S512x32_S_d0_1 h_S_) main_v39 main_c_15
  let main_v41 : IVec S_ 1 := andi main_v37 main_v40
  let main_c_16 : IVec S_ 32 := constantI S_ 32 4294967295#32
  let main_v42 : IVec S512x32 32 := broadcastInDim S512x32 ![] bcast_S_S512x32 main_c_16
  let main_v43 : IVec S512x32 1 := cmpi .ne main_arg3 main_v42
  let main_v44 : IVec S512x32 32 := (extui 32 · natLt_1_32) main_v43
  let main_c_17 : IVec S_ 32 := constantI S_ 32 0#32
  let main_v45 : IVec S512 32 := (fun x v => Host.reduce IntOp.addi x v reducesTo_S512x32_S512_d1 h_S_) main_v44 main_c_17
  let main_c_18 : IVec S_ 32 := constantI S_ 32 1#32
  let main_v46 : IVec S512 32 := broadcastInDim S512 ![] bcast_S_S512 main_c_18
  let main_v47 : IVec S512 1 := cmpi .sge main_v45 main_v46
  let main_c_19 : IVec S_ 1 := constantI S_ 1 1#1
  let main_v48 : IVec S_ 1 := (fun x v => Host.reduce IntOp.andi x v reducesTo_S512_S_d0 h_S_) main_v47 main_c_19
  let main_v49 : IVec S_ 1 := andi main_v41 main_v48
  main_v49

def fn_part1 {F : FTy → Type} [FloatOps F] (main_arg3 : IVec S512x32 32) (main_arg5 : FVec F S768 .f32) (main_arg6 : FVec F S768x1536 .f32) (main_arg7 : FVec F S768 .f32) (main_v13 : IVec S_ 1) (main_v16 : IVec S768x2304 1) : IVec S_ 1 :=
  let main_c_5 : IVec S_ 1 := constantI S_ 1 1#1
  let main_v17 : IVec S_ 1 := (fun x v => Host.reduce IntOp.andi x v reducesTo_S768x2304_S_d0_1 h_S_) main_v16 main_c_5
  let main_v18 : IVec S_ 1 := andi main_v13 main_v17
  let main_v19 : FVec F S768 .f32 := Host.absf main_arg5
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x1536 .f32 := Host.absf main_arg6
  let main_cst_8 : FVec F S_ .f32 := constant S_ .f32 0x7F800000#32
  let main_v25 : FVec F S768x1536 .f32 := broadcastInDim S768x1536 ![] bcast_S_S768x1536 main_cst_8
  let main_v26 : IVec S768x1536 1 := cmpf .olt main_v24 main_v25
  let main_c_9 : IVec S_ 1 := constantI S_ 1 1#1
  let main_v27 : IVec S_ 1 := (fun x v => Host.reduce IntOp.andi x v reducesTo_S768x1536_S_d0_1 h_S_) main_v26 main_c_9
  let main_v28 : IVec S_ 1 := andi main_v23 main_v27
  let main_v29 : FVec F S768 .f32 := Host.absf main_arg7
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg3 main_v33

def fn {F : FTy → Type} [FloatOps F] (main_arg0 : FVec F S512x256x768 .f32) (main_arg1 : FVec F S512x256x768 .f32) (main_arg2 : FVec F S512x256x768 .f32) (main_arg3 : IVec S512x32 32) (main_arg4 : FVec F S768x2304 .f32) (main_arg5 : FVec F S768 .f32) (main_arg6 : FVec F S768x1536 .f32) (main_arg7 : FVec F S768 .f32) : IVec S_ 1 :=
  let main_v0 : FVec F S512x256x768 .f32 := Host.absf main_arg0
  let main_cst : FVec F S_ .f32 := constant S_ .f32 0x7F800000#32
  let main_v1 : FVec F S512x256x768 .f32 := broadcastInDim S512x256x768 ![] bcast_S_S512x256x768 main_cst
  let main_v2 : IVec S512x256x768 1 := cmpf .olt main_v0 main_v1
  let main_c : IVec S_ 1 := constantI S_ 1 1#1
  let main_v3 : IVec S_ 1 := (fun x v => Host.reduce IntOp.andi x v reducesTo_S512x256x768_S_d0_1_2 h_S_) main_v2 main_c
  let main_v4 : FVec F S512x256x768 .f32 := Host.absf main_arg1
  let main_cst_0 : FVec F S_ .f32 := constant S_ .f32 0x7F800000#32
  let main_v5 : FVec F S512x256x768 .f32 := broadcastInDim S512x256x768 ![] bcast_S_S512x256x768 main_cst_0
  let main_v6 : IVec S512x256x768 1 := cmpf .olt main_v4 main_v5
  let main_c_1 : IVec S_ 1 := constantI S_ 1 1#1
  let main_v7 : IVec S_ 1 := (fun x v => Host.reduce IntOp.andi x v reducesTo_S512x256x768_S_d0_1_2 h_S_) main_v6 main_c_1
  let main_v8 : IVec S_ 1 := andi main_v3 main_v7
  let main_v9 : FVec F S512x256x768 .f32 := Host.absf main_arg2
  let main_cst_2 : FVec F S_ .f32 := constant S_ .f32 0x7F800000#32
  let main_v10 : FVec F S512x256x768 .f32 := broadcastInDim S512x256x768 ![] bcast_S_S512x256x768 main_cst_2
  let main_v11 : IVec S512x256x768 1 := cmpf .olt main_v9 main_v10
  let main_c_3 : IVec S_ 1 := constantI S_ 1 1#1
  let main_v12 : IVec S_ 1 := (fun x v => Host.reduce IntOp.andi x v reducesTo_S512x256x768_S_d0_1_2 h_S_) main_v11 main_c_3
  let main_v13 : IVec S_ 1 := andi main_v8 main_v12
  let main_v14 : FVec F S768x2304 .f32 := Host.absf main_arg4
  let main_cst_4 : FVec F S_ .f32 := constant S_ .f32 0x7F800000#32
  let main_v15 : FVec F S768x2304 .f32 := broadcastInDim S768x2304 ![] bcast_S_S768x2304 main_cst_4
  let main_v16 : IVec S768x2304 1 := cmpf .olt main_v14 main_v15
  fn_part1 (F := F) main_arg3 main_arg5 main_arg6 main_arg7 main_v13 main_v16
-- ==== Kernel.lean ====
abbrev S512x256x768 : Shape := ⟨3, ![512, 256, 768]⟩
abbrev S512x32 : Shape := ⟨2, ![512, 32]⟩
abbrev S768x2304 : Shape := ⟨2, ![768, 2304]⟩
abbrev S768 : Shape := ⟨1, ![768]⟩
abbrev S768x1536 : Shape := ⟨2, ![768, 1536]⟩
abbrev S_ : Shape := ⟨0, ![]⟩
abbrev S256 : Shape := ⟨1, ![256]⟩
abbrev S512x32x1 : Shape := ⟨3, ![512, 32, 1]⟩
abbrev S1x1x256 : Shape := ⟨3, ![1, 1, 256]⟩
abbrev S512x32x256 : Shape := ⟨3, ![512, 32, 256]⟩
abbrev S512x256 : Shape := ⟨2, ![512, 256]⟩
abbrev S512 : Shape := ⟨1, ![512]⟩
abbrev S512x1 : Shape := ⟨2, ![512, 1]⟩
abbrev S512x768 : Shape := ⟨2, ![512, 768]⟩
abbrev S8x256x768 : Shape := ⟨3, ![8, 256, 768]⟩
abbrev S8x256 : Shape := ⟨2, ![8, 256]⟩
abbrev S8x768 : Shape := ⟨2, ![8, 768]⟩
abbrev S8x256x1 : Shape := ⟨3, ![8, 256, 1]⟩
abbrev S8x1x768 : Shape := ⟨3, ![8, 1, 768]⟩
abbrev S512x1x768 : Shape := ⟨3, ![512, 1, 768]⟩
abbrev S2304x768 : Shape := ⟨2, ![2304, 768]⟩
abbrev S768x768 : Shape := ⟨2, ![768, 768]⟩
abbrev S1536x768 : Shape := ⟨2, ![1536, 768]⟩
abbrev S256x768 : Shape := ⟨2, ![256, 768]⟩
abbrev S1x768 : Shape := ⟨2, ![1, 768]⟩
abbrev S256x1 : Shape := ⟨2, ![256, 1]⟩

abbrev nBuf : Space → Nat
  | .hbm => 50
  | .vmem => 35
  | .smem => 0
  | _ => 0

abbrev bufTy : (tb : Table) → Fin (tcTables nBuf tb) → BufTy
  | .hbm, ⟨0, _⟩ => ⟨S512x256x768, .f32⟩
  | .hbm, ⟨1, _⟩ => ⟨S512x256x768, .f32⟩
  | .hbm, ⟨2, _⟩ => ⟨S512x256x768, .f32⟩
  | .hbm, ⟨3, _⟩ => ⟨S512x32, .i32⟩
  | .hbm, ⟨4, _⟩ => ⟨S768x2304, .f32⟩
  | .hbm, ⟨5, _⟩ => ⟨S768, .f32⟩
  | .hbm, ⟨6, _⟩ => ⟨S768x1536, .f32⟩
  | .hbm, ⟨7, _⟩ => ⟨S768, .f32⟩
  | .hbm, ⟨8, _⟩ => ⟨S_, .i32⟩
  | .hbm, ⟨9, _⟩ => ⟨S512x32, .i32⟩
  | .hbm, ⟨10, _⟩ => ⟨S512x32, .i1⟩
  | .hbm, ⟨11, _⟩ => ⟨S256, .i32⟩
  | .hbm, ⟨12, _⟩ => ⟨S512x32x1, .i32⟩
  | .hbm, ⟨13, _⟩ => ⟨S1x1x256, .i32⟩
  | .hbm, ⟨14, _⟩ => ⟨S512x32x256, .i32⟩
  | .hbm, ⟨15, _⟩ => ⟨S512x32x256, .i32⟩
  | .hbm, ⟨16, _⟩ => ⟨S512x32x256, .i1⟩
  | .hbm, ⟨17, _⟩ => ⟨S512x32, .f32⟩
  | .hbm, ⟨18, _⟩ => ⟨S512x32x1, .f32⟩
  | .hbm, ⟨19, _⟩ => ⟨S512x32x256, .f32⟩
  | .hbm, ⟨20, _⟩ => ⟨S512x32x256, .f32⟩
  | .hbm, ⟨21, _⟩ => ⟨S512x32x256, .f32⟩
  | .hbm, ⟨22, _⟩ => ⟨S_, .f32⟩
  | .hbm, ⟨23, _⟩ => ⟨S512x256, .f32⟩
  | .hbm, ⟨24, _⟩ => ⟨S512x32, .f32⟩
  | .hbm, ⟨25, _⟩ => ⟨S_, .f32⟩
  | .hbm, ⟨26, _⟩ => ⟨S512, .f32⟩
  | .hbm, ⟨27, _⟩ => ⟨S512x1, .f32⟩
  | .hbm, ⟨28, _⟩ => ⟨S512x256, .f32⟩
  | .hbm, ⟨29, _⟩ => ⟨S512x256, .f32⟩
  | .hbm, ⟨30, _⟩ => ⟨S512x768, .f32⟩
  | .hbm, ⟨31, _⟩ => ⟨S512x768, .f32⟩
  | .hbm, ⟨32, _⟩ => ⟨S512x768, .f32⟩
  | .hbm, ⟨33, _⟩ => ⟨S512x768, .f32⟩
  | .hbm, ⟨34, _⟩ => ⟨S512x1x768, .f32⟩
  | .hbm, ⟨35, _⟩ => ⟨S512x768, .f32⟩
  | .hbm, ⟨36, _⟩ => ⟨S2304x768, .f32⟩
  | .hbm, ⟨37, _⟩ => ⟨S768x768, .f32⟩
  | .hbm, ⟨38, _⟩ => ⟨S768x768, .bf16⟩
  | .hbm, ⟨39, _⟩ => ⟨S768x768, .f32⟩
  | .hbm, ⟨40, _⟩ => ⟨S768x768, .bf16⟩
  | .hbm, ⟨41, _⟩ => ⟨S768x768, .f32⟩
  | .hbm, ⟨42, _⟩ => ⟨S768x768, .bf16⟩
  | .hbm, ⟨43, _⟩ => ⟨S1536x768, .f32⟩
  | .hbm, ⟨44, _⟩ => ⟨S768x768, .f32⟩
  | .hbm, ⟨45, _⟩ => ⟨S768x768, .bf16⟩
  | .hbm, ⟨46, _⟩ => ⟨S768x768, .f32⟩
  | .hbm, ⟨47, _⟩ => ⟨S768x768, .bf16⟩
  | .hbm, ⟨48, _⟩ => ⟨S512x768, .f32⟩
  | .hbm, ⟨49, _⟩ => ⟨S512x768, .f32⟩
  | .local _ .vmem, ⟨0, _⟩ => ⟨S8x256x768, .f32⟩
  | .local _ .vmem, ⟨1, _⟩ => ⟨S8x256x768, .f32⟩
  | .local _ .vmem, ⟨2, _⟩ => ⟨S8x256x768, .f32⟩
  | .local _ .vmem, ⟨3, _⟩ => ⟨S8x256x768, .f32⟩
  | .local _ .vmem, ⟨4, _⟩ => ⟨S8x256, .f32⟩
  | .local _ .vmem, ⟨5, _⟩ => ⟨S8x256, .f32⟩
  | .local _ .vmem, ⟨6, _⟩ => ⟨S8x768, .f32⟩
  | .local _ .vmem, ⟨7, _⟩ => ⟨S8x768, .f32⟩
  | .local _ .vmem, ⟨8, _⟩ => ⟨S8x768, .f32⟩
  | .local _ .vmem, ⟨9, _⟩ => ⟨S8x768, .f32⟩
  | .local _ .vmem, ⟨10, _⟩ => ⟨S8x768, .f32⟩
  | .local _ .vmem, ⟨11, _⟩ => ⟨S8x768, .f32⟩
  | .local _ .vmem, ⟨12, _⟩ => ⟨S8x768, .f32⟩
  | .local _ .vmem, ⟨13, _⟩ => ⟨S8x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S256x768, .f32⟩
  | .local _ .vmem, ⟨18, _⟩ => ⟨S256x768, .f32⟩
  | .local _ .vmem, ⟨19, _⟩ => ⟨S256x768, .f32⟩
  | .local _ .vmem, ⟨20, _⟩ => ⟨S768x768, .bf16⟩
  | .local _ .vmem, ⟨21, _⟩ => ⟨S768x768, .bf16⟩
  | .local _ .vmem, ⟨22, _⟩ => ⟨S768x768, .bf16⟩
  | .local _ .vmem, ⟨23, _⟩ => ⟨S768, .f32⟩
  | .local _ .vmem, ⟨24, _⟩ => ⟨S256x768, .f32⟩
  | .local _ .vmem, ⟨25, _⟩ => ⟨S256x768, .f32⟩
  | .local _ .vmem, ⟨26, _⟩ => ⟨S256x768, .f32⟩
  | .local _ .vmem, ⟨27, _⟩ => ⟨S256x768, .f32⟩
  | .local _ .vmem, ⟨28, _⟩ => ⟨S768x768, .bf16⟩
  | .local _ .vmem, ⟨29, _⟩ => ⟨S768x768, .bf16⟩
  | .local _ .vmem, ⟨30, _⟩ => ⟨S768, .f32⟩
  | .local _ .vmem, ⟨31, _⟩ => ⟨S256x768, .f32⟩
  | .local _ .vmem, ⟨32, _⟩ => ⟨S256x768, .f32⟩
  | .local _ .vmem, ⟨33, _⟩ => ⟨S256x768, .f32⟩
  | .local _ .vmem, ⟨34, _⟩ => ⟨S256x768, .f32⟩
  | _, _ => ⟨S512x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34_0 : Ref sig .tc := ⟨.hbm, 48, rfl⟩
abbrev main_v34_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg12_0 : Ref sig .tc := ⟨.vmem, 31, rfl⟩
abbrev cc1_stg12_1 : Ref sig .tc := ⟨.vmem, 32, rfl⟩
abbrev cc1_stg13_0 : Ref sig .tc := ⟨.vmem, 33, rfl⟩
abbrev cc1_stg13_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem10_0 : DmaSem sig := 29
abbrev cc1_sem11_0 : DmaSem sig := 30
abbrev cc1_sem12_0 : DmaSem sig := 31
abbrev cc1_sem12_1 : DmaSem sig := 32
abbrev cc1_sem13_0 : DmaSem sig := 33
abbrev cc1_sem13_1 : DmaSem sig := 34

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S768x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S768x768 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S768x768 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x768 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S768x768 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S768x768 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S768 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S256x768 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x768 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  bcast_S_S512x32 : S_.BroadcastsInDim S512x32 (![] : Fin 0 → Fin S512x32.rank)
  bcast_S512x32_S512x32x1_0_1 : S512x32.BroadcastsInDim S512x32x1 (![0, 1] : Fin 2 → Fin S512x32x1.rank)
  bcast_S256_S1x1x256_2 : S256.BroadcastsInDim S1x1x256 (![2] : Fin 1 → Fin S1x1x256.rank)
  bcast_S512x32x1_S512x32x256_0_1_2 : S512x32x1.BroadcastsInDim S512x32x256 (![0, 1, 2] : Fin 3 → Fin S512x32x256.rank)
  bcast_S1x1x256_S512x32x256_0_1_2 : S1x1x256.BroadcastsInDim S512x32x256 (![0, 1, 2] : Fin 3 → Fin S512x32x256.rank)
  reducesTo_S512x32x256_S512x256_d1 : S512x32x256.ReducesTo [1] S512x256
  h_S_ : 0 < S_.numel
  reducesTo_S512x32_S512_d1 : S512x32.ReducesTo [1] S512
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S8x256_S8x256x1 : S8x256.ShapeCasts S8x256x1
  inb_S8x256x768_S8x256x768_0_0_0 : ∀ a, (![0, 0, 0] : Fin 3 → Nat) a + S8x256x768.size a ≤ S8x256x768.size a
  h_S8x256x768 : 0 < S8x256x768.numel
  broadcasts_S8x256x1_S8x256x768 : S8x256x1.Broadcasts S8x256x768
  reduces_S8x256x768_S8x768 : S8x256x768.Reduces [1] S8x768
  inb_S8x768_S8x768_0_0 : ∀ a, (![0, 0] : Fin 2 → Nat) a + S8x768.size a ≤ S8x768.size a
  h_S8x768 : 0 < S8x768.numel
  slices_S8x256x768_o0_0_0_S8x1x768 : S8x256x768.Slices ![0, 0, 0] S8x1x768
  shapeCasts_S8x1x768_S8x768 : S8x1x768.ShapeCasts S8x768
  slices_S512x256x768_S512x1x768_0_0_0 : S512x256x768.Slices ![0, 0, 0] S512x1x768
  shapeCasts_S512x1x768_S512x768 : S512x1x768.ShapeCasts S512x768
  transposes_S768x2304_S2304x768_1_0 : S768x2304.Transposes [1, 0] S2304x768
  slices_S2304x768_S768x768_0_0 : S2304x768.Slices ![0, 0] S768x768
  bitsLt_bf16_f32 : FTy.bits .bf16 < FTy.bits .f32
  slices_S2304x768_S768x768_768_0 : S2304x768.Slices ![768, 0] S768x768
  slices_S2304x768_S768x768_1536_0 : S2304x768.Slices ![1536, 0] S768x768
  transposes_S768x1536_S1536x768_1_0 : S768x1536.Transposes [1, 0] S1536x768
  slices_S1536x768_S768x768_0_0 : S1536x768.Slices ![0, 0] S768x768
  slices_S1536x768_S768x768_768_0 : S1536x768.Slices ![768, 0] S768x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  broadcasts_S1x768_S256x768 : S1x768.Broadcasts S256x768
  reduces_S256x768_S256 : S256x768.Reduces [1] S256
  shapeCasts_S256_S256x1 : S256.ShapeCasts S256x1
  broadcasts_S256x1_S256x768 : S256x1.Broadcasts S256x768
  dot_S256x768_S768x768_S256x768_1_0_0_1_n_n_wf : DotDims.WF S256x768 S768x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x768.size a ≤ S512x256x768.size a
  hwx0_0 : ∀ i : grid0.Coords, EltTy.bits .f32 = 32 ∨ (Rect.block (s := S512x256x768) S8x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x768.size a ≤ S512x256x768.size a
  hwx0_1 : ∀ i : grid0.Coords, EltTy.bits .f32 = 32 ∨ (Rect.block (s := S512x256x768) S8x256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S512x256.size a
  hwx0_2 : ∀ i : grid0.Coords, EltTy.bits .f32 = 32 ∨ (Rect.block (s := S512x256) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x768.size a ≤ S512x768.size a
  hwx0_3 : ∀ i : grid0.Coords, EltTy.bits .f32 = 32 ∨ (Rect.block (s := S512x768) S8x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x768.size a ≤ S512x768.size a
  hwx0_4 : ∀ i : grid0.Coords, EltTy.bits .f32 = 32 ∨ (Rect.block (s := S512x768) S8x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x768.size a ≤ S512x768.size a
  hwx0_5 : ∀ i : grid0.Coords, EltTy.bits .f32 = 32 ∨ (Rect.block (s := S512x768) S8x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x768.size a ≤ S512x768.size a
  hwx0_6 : ∀ i : grid0.Coords, EltTy.bits .f32 = 32 ∨ (Rect.block (s := S512x768) S8x768.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x768.size a ≤ S512x768.size a
  hwx1_0 : ∀ i : grid1.Coords, EltTy.bits .f32 = 32 ∨ (Rect.block (s := S512x768) S256x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x768.size a ≤ S512x768.size a
  hwx1_1 : ∀ i : grid1.Coords, EltTy.bits .f32 = 32 ∨ (Rect.block (s := S512x768) S256x768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x768.size a ≤ S512x768.size a
  hwx1_2 : ∀ i : grid1.Coords, EltTy.bits .f32 = 32 ∨ (Rect.block (s := S512x768) S256x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x768.size a ≤ S768x768.size a
  hwx1_3 : ∀ i : grid1.Coords, EltTy.bits .bf16 = 32 ∨ (Rect.block (s := S768x768) S768x768.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S768x768.size a ≤ S768x768.size a
  hwx1_4 : ∀ i : grid1.Coords, EltTy.bits .bf16 = 32 ∨ (Rect.block (s := S768x768) S768x768.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S768x768.size a ≤ S768x768.size a
  hwx1_5 : ∀ i : grid1.Coords, EltTy.bits .bf16 = 32 ∨ (Rect.block (s := S768x768) S768x768.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S768.size a ≤ S768.size a
  hwx1_6 : ∀ i : grid1.Coords, EltTy.bits .f32 = 32 ∨ (Rect.block (s := S768) S768.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x768.size a ≤ S512x768.size a
  hwx1_7 : ∀ i : grid1.Coords, EltTy.bits .f32 = 32 ∨ (Rect.block (s := S512x768) S256x768.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x768.size a ≤ S512x768.size a
  hwx1_8 : ∀ i : grid1.Coords, EltTy.bits .f32 = 32 ∨ (Rect.block (s := S512x768) S256x768.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S768x768.size a ≤ S768x768.size a
  hwx1_9 : ∀ i : grid1.Coords, EltTy.bits .bf16 = 32 ∨ (Rect.block (s := S768x768) S768x768.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S768x768.size a ≤ S768x768.size a
  hwx1_10 : ∀ i : grid1.Coords, EltTy.bits .bf16 = 32 ∨ (Rect.block (s := S768x768) S768x768.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S768.size a ≤ S768.size a
  hwx1_11 : ∀ i : grid1.Coords, EltTy.bits .f32 = 32 ∨ (Rect.block (s := S768) S768.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S256x768.size a ≤ S512x768.size a
  hwx1_12 : ∀ i : grid1.Coords, EltTy.bits .f32 = 32 ∨ (Rect.block (s := S512x768) S256x768.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S256x768.size a ≤ S512x768.size a
  hwx1_13 : ∀ i : grid1.Coords, EltTy.bits .f32 = 32 ∨ (Rect.block (s := S512x768) S256x768.size (cc1_transform_13 i) (hinb1_13 i)).WholeWords (EltTy.packing .f32)

variable [Facts₀]

def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf

abbrev win0_0 : Pipeline.Window sig grid0 :=
  Pipeline.Window.ofSpec (Memref.whole main_arg1) S8x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x256x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19_0) S8x768.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_1) S8x768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_2) S8x768.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19_3) S8x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19_0) S256x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19_1) S256x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S256x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S768x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S768x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S768x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S768.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19_2) S256x768.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v19_3) S256x768.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v31) S768x768.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v33) S768x768.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg7) S768.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v34_0) S256x768.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v34_1) S256x768.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S512x256x768 : Shape := ⟨3, ![512, 256, 768]⟩
abbrev S512x32 : Shape := ⟨2, ![512, 32]⟩
abbrev S768x2304 : Shape := ⟨2, ![768, 2304]⟩
abbrev S768 : Shape := ⟨1, ![768]⟩
abbrev S768x1536 : Shape := ⟨2, ![768, 1536]⟩
abbrev S512x1x768 : Shape := ⟨3, ![512, 1, 768]⟩
abbrev S512x768 : Shape := ⟨2, ![512, 768]⟩
abbrev S_ : Shape := ⟨0, ![]⟩
abbrev S512x32x1 : Shape := ⟨3, ![512, 32, 1]⟩
abbrev S1 : Shape := ⟨1, ![1]⟩
abbrev S1x1x1 : Shape := ⟨3, ![1, 1, 1]⟩
abbrev S512x32x768 : Shape := ⟨3, ![512, 32, 768]⟩
abbrev S512x1 : Shape := ⟨2, ![512, 1]⟩
abbrev S512x2304 : Shape := ⟨2, ![512, 2304]⟩
abbrev S2304x768 : Shape := ⟨2, ![2304, 768]⟩
abbrev S1x768 : Shape := ⟨2, ![1, 768]⟩
abbrev S512 : Shape := ⟨1, ![512]⟩
abbrev S512x1536 : Shape := ⟨2, ![512, 1536]⟩
abbrev S1536x768 : Shape := ⟨2, ![1536, 768]⟩

abbrev nBuf : Space → Nat
  | .hbm => 126
  | .vmem => 0
  | .smem => 0
  | _ => 0

abbrev bufTy : (tb : Table) → Fin (tcTables nBuf tb) → BufTy
  | .hbm, ⟨0, _⟩ => ⟨S512x256x768, .f32⟩
  | .hbm, ⟨1, _⟩ => ⟨S512x256x768, .f32⟩
  | .hbm, ⟨2, _⟩ => ⟨S512x256x768, .f32⟩
  | .hbm, ⟨3, _⟩ => ⟨S512x32, .i32⟩
  | .hbm, ⟨4, _⟩ => ⟨S768x2304, .f32⟩
  | .hbm, ⟨5, _⟩ => ⟨S768, .f32⟩
  | .hbm, ⟨6, _⟩ => ⟨S768x1536, .f32⟩
  | .hbm, ⟨7, _⟩ => ⟨S768, .f32⟩
  | .hbm, ⟨8, _⟩ => ⟨S512x1x768, .f32⟩
  | .hbm, ⟨9, _⟩ => ⟨S512x768, .f32⟩
  | .hbm, ⟨10, _⟩ => ⟨S_, .i32⟩
  | .hbm, ⟨11, _⟩ => ⟨S512x32, .i32⟩
  | .hbm, ⟨12, _⟩ => ⟨S512x32, .i1⟩
  | .hbm, ⟨13, _⟩ => ⟨S_, .i32⟩
  | .hbm, ⟨14, _⟩ => ⟨S_, .i32⟩
  | .hbm, ⟨15, _⟩ => ⟨S512x32, .i32⟩
  | .hbm, ⟨16, _⟩ => ⟨S512x32, .i32⟩
  | .hbm, ⟨17, _⟩ => ⟨S512x32x1, .i32⟩
  | .hbm, ⟨18, _⟩ => ⟨S_, .i32⟩
  | .hbm, ⟨19, _⟩ => ⟨S512x32x1, .i32⟩
  | .hbm, ⟨20, _⟩ => ⟨S512x32x1, .i1⟩
  | .hbm, ⟨21, _⟩ => ⟨S_, .i32⟩
  | .hbm, ⟨22, _⟩ => ⟨S512x32x1, .i32⟩
  | .hbm, ⟨23, _⟩ => ⟨S512x32x1, .i32⟩
  | .hbm, ⟨24, _⟩ => ⟨S512x32x1, .i32⟩
  | .hbm, ⟨25, _⟩ => ⟨S1, .i32⟩
  | .hbm, ⟨26, _⟩ => ⟨S_, .i32⟩
  | .hbm, ⟨27, _⟩ => ⟨S512x32x1, .i32⟩
  | .hbm, ⟨28, _⟩ => ⟨S512x32x1, .i1⟩
  | .hbm, ⟨29, _⟩ => ⟨S1x1x1, .i32⟩
  | .hbm, ⟨30, _⟩ => ⟨S512x32x1, .i32⟩
  | .hbm, ⟨31, _⟩ => ⟨S512x32x1, .i1⟩
  | .hbm, ⟨32, _⟩ => ⟨S512x32x1, .i1⟩
  | .hbm, ⟨33, _⟩ => ⟨S_, .i1⟩
  | .hbm, ⟨34, _⟩ => ⟨S512x32, .i1⟩
  | .hbm, ⟨35, _⟩ => ⟨S512x32x768, .f32⟩
  | .hbm, ⟨36, _⟩ => ⟨S512x32x768, .i1⟩
  | .hbm, ⟨37, _⟩ => ⟨S_, .f32⟩
  | .hbm, ⟨38, _⟩ => ⟨S512x32x768, .f32⟩
  | .hbm, ⟨39, _⟩ => ⟨S512x32x768, .f32⟩
  | .hbm, ⟨40, _⟩ => ⟨S512x32, .f32⟩
  | .hbm, ⟨41, _⟩ => ⟨S512x32x1, .f32⟩
  | .hbm, ⟨42, _⟩ => ⟨S512x32x768, .f32⟩
  | .hbm, ⟨43, _⟩ => ⟨S512x32x768, .f32⟩
  | .hbm, ⟨44, _⟩ => ⟨S_, .f32⟩
  | .hbm, ⟨45, _⟩ => ⟨S512x768, .f32⟩
  | .hbm, ⟨46, _⟩ => ⟨S_, .f32⟩
  | .hbm, ⟨47, _⟩ => ⟨S512x1, .f32⟩
  | .hbm, ⟨48, _⟩ => ⟨S512x768, .f32⟩
  | .hbm, ⟨49, _⟩ => ⟨S512x768, .f32⟩
  | .hbm, ⟨50, _⟩ => ⟨S512x1x768, .f32⟩
  | .hbm, ⟨51, _⟩ => ⟨S512x768, .f32⟩
  | .hbm, ⟨52, _⟩ => ⟨S512x2304, .f32⟩
  | .hbm, ⟨53, _⟩ => ⟨S2304x768, .f32⟩
  | .hbm, ⟨54, _⟩ => ⟨S512x768, .f32⟩
  | .hbm, ⟨55, _⟩ => ⟨S1x768, .f32⟩
  | .hbm, ⟨56, _⟩ => ⟨S512x768, .f32⟩
  | .hbm, ⟨57, _⟩ => ⟨S512x768, .f32⟩
  | .hbm, ⟨58, _⟩ => ⟨S512x768, .f32⟩
  | .hbm, ⟨59, _⟩ => ⟨S_, .f32⟩
  | .hbm, ⟨60, _⟩ => ⟨S512, .f32⟩
  | .hbm, ⟨61, _⟩ => ⟨S512x1, .f32⟩
  | .hbm, ⟨62, _⟩ => ⟨S512x1, .f32⟩
  | .hbm, ⟨63, _⟩ => ⟨S_, .f32⟩
  | .hbm, ⟨64, _⟩ => ⟨S512x1, .f32⟩
  | .hbm, ⟨65, _⟩ => ⟨S512x1, .f32⟩
  | .hbm, ⟨66, _⟩ => ⟨S512x768, .f32⟩
  | .hbm, ⟨67, _⟩ => ⟨S512x768, .f32⟩
  | .hbm, ⟨68, _⟩ => ⟨S_, .i32⟩
  | .hbm, ⟨69, _⟩ => ⟨S512x32, .i32⟩
  | .hbm, ⟨70, _⟩ => ⟨S512x32, .i1⟩
  | .hbm, ⟨71, _⟩ => ⟨S_, .i32⟩
  | .hbm, ⟨72, _⟩ => ⟨S_, .i32⟩
  | .hbm, ⟨73, _⟩ => ⟨S512x32, .i32⟩
  | .hbm, ⟨74, _⟩ => ⟨S512x32, .i32⟩
  | .hbm, ⟨75, _⟩ => ⟨S512x32x1, .i32⟩
  | .hbm, ⟨76, _⟩ => ⟨S_, .i32⟩
  | .hbm, ⟨77, _⟩ => ⟨S512x32x1, .i32⟩
  | .hbm, ⟨78, _⟩ => ⟨S512x32x1, .i1⟩
  | .hbm, ⟨79, _⟩ => ⟨S_, .i32⟩
  | .hbm, ⟨80, _⟩ => ⟨S512x32x1, .i32⟩
  | .hbm, ⟨81, _⟩ => ⟨S512x32x1, .i32⟩
  | .hbm, ⟨82, _⟩ => ⟨S512x32x1, .i32⟩
  | .hbm, ⟨83, _⟩ => ⟨S1, .i32⟩
  | .hbm, ⟨84, _⟩ => ⟨S_, .i32⟩
  | .hbm, ⟨85, _⟩ => ⟨S512x32x1, .i32⟩
  | .hbm, ⟨86, _⟩ => ⟨S512x32x1, .i1⟩
  | .hbm, ⟨87, _⟩ => ⟨S1x1x1, .i32⟩
  | .hbm, ⟨88, _⟩ => ⟨S512x32x1, .i32⟩
  | .hbm, ⟨89, _⟩ => ⟨S512x32x1, .i1⟩
  | .hbm, ⟨90, _⟩ => ⟨S512x32x1, .i1⟩
  | .hbm, ⟨91, _⟩ => ⟨S_, .i1⟩
  | .hbm, ⟨92, _⟩ => ⟨S512x32, .i1⟩
  | .hbm, ⟨93, _⟩ => ⟨S512x32x768, .f32⟩
  | .hbm, ⟨94, _⟩ => ⟨S512x32x768, .i1⟩
  | .hbm, ⟨95, _⟩ => ⟨S_, .f32⟩
  | .hbm, ⟨96, _⟩ => ⟨S512x32x768, .f32⟩
  | .hbm, ⟨97, _⟩ => ⟨S512x32x768, .f32⟩
  | .hbm, ⟨98, _⟩ => ⟨S512x32, .f32⟩
  | .hbm, ⟨99, _⟩ => ⟨S512x32x1, .f32⟩
  | .hbm, ⟨100, _⟩ => ⟨S512x32x768, .f32⟩
  | .hbm, ⟨101, _⟩ => ⟨S512x32x768, .f32⟩
  | .hbm, ⟨102, _⟩ => ⟨S_, .f32⟩
  | .hbm, ⟨103, _⟩ => ⟨S512x768, .f32⟩
  | .hbm, ⟨104, _⟩ => ⟨S_, .f32⟩
  | .hbm, ⟨105, _⟩ => ⟨S512x1, .f32⟩
  | .hbm, ⟨106, _⟩ => ⟨S512x768, .f32⟩
  | .hbm, ⟨107, _⟩ => ⟨S512x768, .f32⟩
  | .hbm, ⟨108, _⟩ => ⟨S512x1x768, .f32⟩
  | .hbm, ⟨109, _⟩ => ⟨S512x768, .f32⟩
  | .hbm, ⟨110, _⟩ => ⟨S512x1536, .f32⟩
  | .hbm, ⟨111, _⟩ => ⟨S1536x768, .f32⟩
  | .hbm, ⟨112, _⟩ => ⟨S512x768, .f32⟩
  | .hbm, ⟨113, _⟩ => ⟨S1x768, .f32⟩
  | .hbm, ⟨114, _⟩ => ⟨S512x768, .f32⟩
  | .hbm, ⟨115, _⟩ => ⟨S512x768, .f32⟩
  | .hbm, ⟨116, _⟩ => ⟨S512x768, .f32⟩
  | .hbm, ⟨117, _⟩ => ⟨S_, .f32⟩
  | .hbm, ⟨118, _⟩ => ⟨S512, .f32⟩
  | .hbm, ⟨119, _⟩ => ⟨S512x1, .f32⟩
  | .hbm, ⟨120, _⟩ => ⟨S512x1, .f32⟩
  | .hbm, ⟨121, _⟩ => ⟨S_, .f32⟩
  | .hbm, ⟨122, _⟩ => ⟨S512x1, .f32⟩
  | .hbm, ⟨123, _⟩ => ⟨S512x1, .f32⟩
  | .hbm, ⟨124, _⟩ => ⟨S512x768, .f32⟩
  | .hbm, ⟨125, _⟩ => ⟨S512x768, .f32⟩
  | _, _ => ⟨S512x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_v5 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_c_1 : Ref sig .tc := ⟨.hbm, 25, rfl⟩
abbrev main_call1_c_2 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_c_3 : Ref sig .tc := ⟨.hbm, 33, rfl⟩
abbrev main_call1_v11 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_cst_1 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_2 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_3 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_c_4 : Ref sig .tc := ⟨.hbm, 68, rfl⟩
abbrev main_v31 : Ref sig .tc := ⟨.hbm, 69, rfl⟩
abbrev main_v32 : Ref sig .tc := ⟨.hbm, 70, rfl⟩
abbrev main_c_5 : Ref sig .tc := ⟨.hbm, 71, rfl⟩
abbrev main_call2_v0 : Ref sig .tc := ⟨.hbm, 72, rfl⟩
abbrev main_call2_v1 : Ref sig .tc := ⟨.hbm, 73, rfl⟩
abbrev main_v33 : Ref sig .tc := ⟨.hbm, 74, rfl⟩
abbrev main_v34 : Ref sig .tc := ⟨.hbm, 75, rfl⟩
abbrev main_call3_c : Ref sig .tc := ⟨.hbm, 76, rfl⟩
abbrev main_call3_v0 : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_c_1 : Ref sig .tc := ⟨.hbm, 83, rfl⟩
abbrev main_call3_c_2 : Ref sig .tc := ⟨.hbm, 84, rfl⟩
abbrev main_call3_v5 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_c_3 : Ref sig .tc := ⟨.hbm, 91, rfl⟩
abbrev main_call3_v11 : Ref sig .tc := ⟨.hbm, 92, rfl⟩
abbrev main_call3_v12 : Ref sig .tc := ⟨.hbm, 93, rfl⟩
abbrev main_call3_v13 : Ref sig .tc := ⟨.hbm, 94, rfl⟩
abbrev main_call3_cst : Ref sig .tc := ⟨.hbm, 95, rfl⟩
abbrev main_call3_v14 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_cst_6 : Ref sig .tc := ⟨.hbm, 102, rfl⟩
abbrev main_v40 : Ref sig .tc := ⟨.hbm, 103, rfl⟩
abbrev main_cst_7 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_8 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_9 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩

abbrev nD : Nat := 1
abbrev τ : Topo := Topo.v7x

variable {F : FTy → Type} [FloatOps F]

class Facts₀ : Prop where
  slices_S512x256x768_S512x1x768_0_0_0 : S512x256x768.Slices ![0, 0, 0] S512x1x768
  shapeCasts_S512x1x768_S512x768 : S512x1x768.ShapeCasts S512x768
  bcast_S_S512x32 : S_.BroadcastsInDim S512x32 (![] : Fin 0 → Fin S512x32.rank)
  bcast_S512x32_S512x32x1_0_1 : S512x32.BroadcastsInDim S512x32x1 (![0, 1] : Fin 2 → Fin S512x32x1.rank)
  bcast_S_S512x32x1 : S_.BroadcastsInDim S512x32x1 (![] : Fin 0 → Fin S512x32x1.rank)
  bcast_S1_S1x1x1_2 : S1.BroadcastsInDim S1x1x1 (![2] : Fin 1 → Fin S1x1x1.rank)
  bcast_S1x1x1_S512x32x1_0_1_2 : S1x1x1.BroadcastsInDim S512x32x1 (![0, 1, 2] : Fin 3 → Fin S512x32x1.rank)
  reducesTo_S512x32x1_S512x32_d2 : S512x32x1.ReducesTo [2] S512x32
  h_S_ : 0 < S_.numel
  bcast_S512x32_S512x32x768_0_1 : S512x32.BroadcastsInDim S512x32x768 (![0, 1] : Fin 2 → Fin S512x32x768.rank)
  bcast_S_S512x32x768 : S_.BroadcastsInDim S512x32x768 (![] : Fin 0 → Fin S512x32x768.rank)
  bcast_S512x32x1_S512x32x768_0_1_2 : S512x32x1.BroadcastsInDim S512x32x768 (![0, 1, 2] : Fin 3 → Fin S512x32x768.rank)
  reducesTo_S512x32x768_S512x768_d1 : S512x32x768.ReducesTo [1] S512x768
  reducesTo_S512x32x1_S512x1_d1 : S512x32x1.ReducesTo [1] S512x1
  bcast_S512x1_S512x768_0_1 : S512x1.BroadcastsInDim S512x768 (![0, 1] : Fin 2 → Fin S512x768.rank)
  concatenates_S512x768_S512x768_S512x768_S512x2304_d1 : Shape.Concatenates [S512x768, S512x768, S512x768] S512x2304 1
  transposes_S768x2304_S2304x768_1_0 : S768x2304.Transposes [1, 0] S2304x768
  bcast_S768_S1x768_1 : S768.BroadcastsInDim S1x768 (![1] : Fin 1 → Fin S1x768.rank)
  bcast_S1x768_S512x768_0_1 : S1x768.BroadcastsInDim S512x768 (![0, 1] : Fin 2 → Fin S512x768.rank)
  reducesTo_S512x768_S512_d1 : S512x768.ReducesTo [1] S512
  bcast_S512_S512x1_0 : S512.BroadcastsInDim S512x1 (![0] : Fin 1 → Fin S512x1.rank)
  bcast_S_S512x1 : S_.BroadcastsInDim S512x1 (![] : Fin 0 → Fin S512x1.rank)
  concatenates_S512x768_S512x768_S512x1536_d1 : Shape.Concatenates [S512x768, S512x768] S512x1536 1
  transposes_S768x1536_S1536x768_1_0 : S768x1536.Transposes [1, 0] S1536x768
  gather_S512x256x768_S512x32x1_S512x32x768_2_1_0_0_1_2_11768_wf : GatherDims.WF S512x256x768 S512x32x1 S512x32x768 [2] [1] [0] [1] [0] 2 ![1, 1, 768]
  dot_S512x2304_S2304x768_S512x768_1_0_0_1_n_n_wf : DotDims.WF S512x2304 S2304x768 S512x768 [1] [0] [0] [1] [] []
  dot_S512x1536_S1536x768_S512x768_1_0_0_1_n_n_wf : DotDims.WF S512x1536 S1536x768 S512x768 [1] [0] [0] [1] [] []

variable [Facts₀]

def gather_S512x256x768_S512x32x1_S512x32x768_2_1_0_0_1_2_11768 : GatherDims S512x256x768 S512x32x1 S512x32x768 where
  offsetDims := [2]
  collapsedSliceDims := [1]
  operandBatchingDims := [0]
  startIndicesBatchingDims := [0]
  startIndexMap := [1]
  indexVectorDim := 2
  sliceSizes := ![1, 1, 768]
  wf := gather_S512x256x768_S512x32x1_S512x32x768_2_1_0_0_1_2_11768_wf
def dot_S512x2304_S2304x768_S512x768_1_0_0_1_n_n : DotDims S512x2304 S2304x768 S512x768 where
  lhsContracting := [1]
  rhsContracting := [0]
  lhsNonContracting := [0]
  rhsNonContracting := [1]
  lhsBatch := []
  rhsBatch := []
  wf := dot_S512x2304_S2304x768_S512x768_1_0_0_1_n_n_wf
def dot_S512x1536_S1536x768_S512x768_1_0_0_1_n_n : DotDims S512x1536 S1536x768 S512x768 where
  lhsContracting := [1]
  rhsContracting := [0]
  lhsNonContracting := [0]
  rhsNonContracting := [1]
  lhsBatch := []
  rhsBatch := []
  wf := dot_S512x1536_S1536x768_S512x768_1_0_0_1_n_n_wf

class Facts : Prop extends Facts₀ where

variable [Facts]
-- ==== Proof.Spec.lean ====
/-
  The mathematics both programs compute, as functions of the argument arrays over the extended reals, index by index.

  A position table `P : [512, 32]` of 32-bit words names, per batch row `b`, up to 32 source rows of a
  `[512, 256, 768]` array `X`; the word `-1` is padding.  The pooled vector of row `b` is the mean of the named
  rows.  The kernel spells it as a dense weighted sum over all 256 source rows, with weight
  `(number of valid positions naming s) / (number of valid positions)`; the reference gathers the named rows and
  divides their masked sum by the same count.  After pooling, both apply an affine map (three, resp. two, stacked
  768-column blocks of a weight matrix) and divide each row by its Euclidean norm (floored at a small constant).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A `[512, 256, 768]` array of extended reals. -/
abbrev A3 := (⟨3, ![512, 256, 768]⟩ : Shape).Idx → EReal
/-- A `[512, 768]` array. -/
abbrev A2 := (⟨2, ![512, 768]⟩ : Shape).Idx → EReal
/-- The `[512, 32]` table of positions. -/
abbrev P2 := (⟨2, ![512, 32]⟩ : Shape).Idx → BitVec 32
/-- A `[512, 256]` array (the dense weights). -/
abbrev Wt := (⟨2, ![512, 256]⟩ : Shape).Idx → EReal
/-- A `[768, 768]` block of weights, and the bias vector. -/
abbrev M2 := (⟨2, ![768, 768]⟩ : Shape).Idx → EReal
abbrev B1 := (⟨1, ![768]⟩ : Shape).Idx → EReal

/-! ## Pooling -/

/-- `1` where position `(b, p)` is not the padding word `-1`, else `0`. -/
def mask (P : P2) (b : Fin 512) (p : Fin 32) : EReal :=
  (((IntOp.cmpi .ne (P (ix2 b p)) 4294967295#32).toNat : ℝ) : EReal)

/-- `1` where position `(b, p)` names source row `s`, else `0`. -/
def hit (P : P2) (b : Fin 512) (p : Fin 32) (s : Fin 256) : EReal :=
  (((IntOp.cmpi .eq (P (ix2 b p)) (BitVec.ofNat 32 s.val)).toNat : ℝ) : EReal)

/-- The number of valid positions of row `b`. -/
def cnt (P : P2) (b : Fin 512) : EReal := ∑ p : Fin 32, mask P b p

/-- The kernel's dense weight of source row `s` in batch row `b`. -/
def weight (P : P2) : Wt := fun i =>
  Ideal.div (∑ p : Fin 32, hit P (i 0) p (i 1) * mask P (i 0) p) (cnt P (i 0))

/-- The kernel's pooled vector: the weighted sum over all source rows. -/
def poolK (X : A3) (w : Wt) : A2 := fun i => ∑ s : Fin 256, X (ix3 (i 0) s (i 1)) * w (ix2 (i 0) s)

/-- Source row `0` of every batch row. -/
def sent (X : A3) : A2 := fun i => X (ix3 (i 0) 0 (i 1))

/-- The reference's position word made safe: padding reads row `0`. -/
def safeIdx (w : BitVec 32) : BitVec 32 := Scalar.select (IntOp.cmpi .ne w 4294967295#32) w 0#32
/-- A negative word counted from the end of the axis (extent 256). -/
def normIdx (w : BitVec 32) : BitVec 32 := Scalar.select (IntOp.cmpi .slt w 0#32) (IntOp.addi w 256#32) w
/-- Whether a word is a row of the axis. -/
def inb (w : BitVec 32) : BitVec 1 := IntOp.andi (IntOp.cmpi .sge w 0#32) (IntOp.cmpi .sle w 255#32)

/-- What the reference's gather takes for position `(b, p)` at column `h`: the named row when it is a row of
    the axis (the gather clamps), the fill value otherwise. -/
def taken (X : A3) (P : P2) (b : Fin 512) (p : Fin 32) (h : Fin 768) : EReal :=
  Scalar.select (inb (normIdx (safeIdx (P (ix2 b p)))))
    (X (ix3 b ⟨min (normIdx (safeIdx (P (ix2 b p)))).toInt.toNat 255, by omega⟩ h))
    (Ideal.ofBits .f32 0x7FC00000#32)

/-- The reference's pooled vector: the masked sum of the taken rows over the number of valid positions. -/
def poolR (X : A3) (P : P2) : A2 := fun i =>
  Ideal.div (∑ p : Fin 32, taken X P (i 0) p (i 1) * mask P (i 0) p) (cnt P (i 0))

/-! ## The affine map and the row normalisation -/

/-- Three stacked blocks: `a · wa + b · wb + c · wc + bias`, the blocks given as `[768 (in), 768 (out)]`. -/
def lin3 (a b c : A2) (wa wb wc : M2) (bias : B1) : A2 := fun i =>
  (((∑ k : Fin 768, a (ix2 (i 0) k) * wa (ix2 k (i 1))) + (∑ k : Fin 768, b (ix2 (i 0) k) * wb (ix2 k (i 1))))
    + (∑ k : Fin 768, c (ix2 (i 0) k) * wc (ix2 k (i 1)))) + bias (ix1 (i 1))

/-- Two stacked blocks. -/
def lin2 (a b : A2) (wa wb : M2) (bias : B1) : A2 := fun i =>
  ((∑ k : Fin 768, a (ix2 (i 0) k) * wa (ix2 k (i 1))) + (∑ k : Fin 768, b (ix2 (i 0) k) * wb (ix2 k (i 1))))
    + bias (ix1 (i 1))

/-- Block `off / 768` of a `[768 (out), n (in)]` weight matrix, transposed to `[768 (in), 768 (out)]`. -/
def blockT {n : Nat} (W : (⟨2, ![768, n]⟩ : Shape).Idx → EReal) (off : Nat) (h : off + 768 ≤ n) : M2 :=
  fun j => W (ix2 (j 1) ⟨off + (j 0).val, by have h0 : (j 0).val < 768 := (j 0).isLt; omega⟩)

/-- The whole contraction over the joined axis: the reference's `cat · Wᵀ + bias`. -/
def linCat {n : Nat} (cat : (⟨2, ![512, n]⟩ : Shape).Idx → EReal) (W : (⟨2, ![768, n]⟩ : Shape).Idx → EReal) (bias : B1) : A2 :=
  fun i => (∑ k : Fin n, cat (ix2 (i 0) k) * W (ix2 (i 1) k)) + bias (ix1 (i 1))

/-- Three `[512, 768]` arrays joined along the columns. -/
def cat3 (a b c : A2) : (⟨2, ![512, 2304]⟩ : Shape).Idx → EReal := fun j =>
  if h₁ : (j 1).val < 768 then a (ix2 (j 0) ⟨(j 1).val, h₁⟩)
  else if h₂ : (j 1).val < 1536 then b (ix2 (j 0) ⟨(j 1).val - 768, by omega⟩)
  else c (ix2 (j 0) ⟨(j 1).val - 1536, by have h1 : (j 1).val < 2304 := (j 1).isLt; omega⟩)

/-- Two `[512, 768]` arrays joined along the columns. -/
def cat2 (a b : A2) : (⟨2, ![512, 1536]⟩ : Shape).Idx → EReal := fun j =>
  if h₁ : (j 1).val < 768 then a (ix2 (j 0) ⟨(j 1).val, h₁⟩)
  else b (ix2 (j 0) ⟨(j 1).val - 768, by have h1 : (j 1).val < 1536 := (j 1).isLt; omega⟩)

/-- The small constant the norm is floored at (one binary word, the same in both programs). -/
def eps : EReal := Ideal.ofBits .f32 0x2B8CBCCC#32

/-- Each row divided by its Euclidean norm, the norm floored at `eps`. -/
def l2n (C : A2) : A2 := fun i =>
  Ideal.div (C i) (max (Ideal.sqrt (∑ k : Fin 768, C (ix2 (i 0) k) * C (ix2 (i 0) k))) eps)

/-! ## The two results, as the kernel and as the reference compute them -/

def outK0 (X0 X1 : A3) (P : P2) (W1 : (⟨2, ![768, 2304]⟩ : Shape).Idx → EReal) (b1 : B1) : A2 :=
  l2n (lin3 (poolK X1 (weight P)) (sent X1) (sent X0)
    (blockT W1 0 (by omega)) (blockT W1 768 (by omega)) (blockT W1 1536 (by omega)) b1)

def outK1 (X2 : A3) (P : P2) (W2 : (⟨2, ![768, 1536]⟩ : Shape).Idx → EReal) (b2 : B1) : A2 :=
  l2n (lin2 (poolK X2 (weight P)) (sent X2) (blockT W2 0 (by omega)) (blockT W2 768 (by omega)) b2)

def outR0 (X0 X1 : A3) (P : P2) (W1 : (⟨2, ![768, 2304]⟩ : Shape).Idx → EReal) (b1 : B1) : A2 :=
  l2n (linCat (cat3 (poolR X1 P) (sent X1) (sent X0)) W1 b1)

def outR1 (X2 : A3) (P : P2) (W2 : (⟨2, ![768, 1536]⟩ : Shape).Idx → EReal) (b2 : B1) : A2 :=
  l2n (linCat (cat2 (poolR X2 P) (sent X2)) W2 b2)

end Cert.Spec

end
-- ==== Proof.Pool.lean ====
/-
  The pooling region's four output arrays as functions of the arrays it is entered with.  Grid point `t` handles batch rows
  `8t … 8t+7`: it writes, for each of the two big arrays, the weighted sum over the 256 source rows of its block (weights
  from the dense weight array) and row 0 of its block.  The blocks of the 64 points tile each `[512, 768]` output, so the
  output arrays are the whole-array functions `poolK` and `sent` of Spec.lean.
-/
import proofs.«400078_j39994735460380_2_alg».proof.Proof.Gen.KernelIdeal.Frame
import proofs.«400078_j39994735460380_2_alg».proof.Proof.Spec
import Idealize.ShloMosaic.Lib.Pipeline.Value
import Idealize.ShloMosaic.PureOps.Ideal.Laws
set_option maxRecDepth 16384

noncomputable section

namespace Cert.KernelIdeal.PoolV

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The pooled payload at row p, column q: the sum over the 256 source rows of block entry times weight. -/
theorem pay_pool (x0 : Vec Ideal S8x256 .f32) (x3 : Vec Ideal S8x256x768 .f32) (p : Fin 8) (q : Fin 768) :
    k0_pay2 x0 x3 (ix2 p q) = ∑ s : Fin 256, x3 (ix3 p s q) * x0 (ix2 p s) := by
  unfold k0_pay2 k0_pay1
  refine (Ideal.multiReduction_add_single _ _ reduces_S8x256x768_S8x768 _ _ (ix2 p q)).trans ?_
  refine Finset.sum_congr rfl fun s _ => ?_
  rw [mulf_apply]
  have hl : reduces_S8x256x768_S8x768.lift (ix2 p q) s = ix3 p s q := by
    funext a; match a with | ⟨0, _⟩ => rfl | ⟨1, _⟩ => rfl | ⟨2, _⟩ => rfl
  rw [hl]
  refine congrArg (fun z => x3 (ix3 p s q) * z) ?_
  refine (broadcastTo_apply _ _ (ix3 p s q) (ix3 p s (0 : Fin 1)) fun a => ?_).trans ?_
  · match a with | ⟨0, _⟩ => rfl | ⟨1, _⟩ => rfl | ⟨2, _⟩ => rfl
  refine (shapeCast_apply _ _ (ix3 p s (0 : Fin 1)) (ix2 p s) ?_).trans ?_
  · rw [Shape.rowMajor_val_two, Shape.rowMajor_val_three]; simp
  rw [shapeCast_self]
  rfl

theorem pay_sent (x3 : Vec Ideal S8x256x768 .f32) (p : Fin 8) (q : Fin 768) :
    k0_pay3 x3 (ix2 p q) = x3 (ix3 p 0 q) := by
  unfold k0_pay3
  refine (shapeCast_apply _ _ (ix2 p q) (ix3 p (0 : Fin 1) q) ?_).trans ?_
  · rw [Shape.rowMajor_val_two, Shape.rowMajor_val_three]; simp
  refine extractStridedSlice_apply _ _ _ _ _ fun a => ?_
  match a with | ⟨0, _⟩ => simp | ⟨1, _⟩ => simp | ⟨2, _⟩ => simp

/-- The same readings at any index of the block. -/
theorem pay_pool_at (x0 : Vec Ideal S8x256 .f32) (x3 : Vec Ideal S8x256x768 .f32) (j : S8x768.Idx) :
    k0_pay2 x0 x3 j = ∑ s : Fin 256, x3 (ix3 (j 0) s (j 1)) * x0 (ix2 (j 0) s) := by
  obtain ⟨p, q, rfl⟩ : ∃ p q, j = ix2 p q := ⟨j 0, j 1, eq_ix2 j⟩
  exact pay_pool x0 x3 p q

theorem pay_sent_at (x3 : Vec Ideal S8x256x768 .f32) (j : S8x768.Idx) :
    k0_pay3 x3 j = x3 (ix3 (j 0) 0 (j 1)) := by
  obtain ⟨p, q, rfl⟩ : ∃ p q, j = ix2 p q := ⟨j 0, j 1, eq_ix2 j⟩
  exact pay_sent x3 p q

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the grid: point t's block of every window starts at batch row 8t and at 0 on the other axes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Point t's block of the first argument, read at x, is the argument at batch row 8t + x₀. -/
theorem iblk_0 (c : Dev nD) (t : Fin cfg0.N) (x : S8x256x768.Idx) (k : S512x256x768.Idx)
    (h0 : (k 0).val = 8 * t.val + (x 0).val) (h1 : (k 1).val = (x 1).val) (h2 : (k 2).val = (x 2).val) :
    (iblk0 V c 0 t : Vec Ideal S8x256x768 .f32) x = (V c main_arg1 : S512x256x768.Idx → EReal) k := by
  obtain ⟨e00, e01, e02, -⟩ := idx_facts t
  unfold iblk0
  rw [View.read_apply]
  show (V c main_arg1 : S512x256x768.Idx → EReal) _ = (V c main_arg1 : S512x256x768.Idx → EReal) _
  refine congrArg (V c main_arg1 : S512x256x768.Idx → EReal) ?_
  funext a
  apply Fin.ext
  match a with
  | ⟨0, _⟩ => show win0_0.index t (0 : Fin 3) * 8 + 1 * (x 0).val = (k 0).val; omega
  | ⟨1, _⟩ => show win0_0.index t (1 : Fin 3) * 256 + 1 * (x 1).val = (k 1).val; omega
  | ⟨2, _⟩ => show win0_0.index t (2 : Fin 3) * 768 + 1 * (x 2).val = (k 2).val; omega

/-- Point t's block of the weights, read at x, is the weights at batch row 8t + x₀. -/
theorem iblk_2 (c : Dev nD) (t : Fin cfg0.N) (x : S8x256.Idx) (k : S512x256.Idx)
    (h0 : (k 0).val = 8 * t.val + (x 0).val) (h1 : (k 1).val = (x 1).val) :
    (iblk0 V c 2 t : Vec Ideal S8x256 .f32) x = (V c main_v18 : S512x256.Idx → EReal) k := by
  obtain ⟨-, -, -, -, -, -, e20, e21, -⟩ := idx_facts t
  unfold iblk0
  rw [View.read_apply]
  show (V c main_v18 : S512x256.Idx → EReal) _ = (V c main_v18 : S512x256.Idx → EReal) _
  refine congrArg (V c main_v18 : S512x256.Idx → EReal) ?_
  funext a
  apply Fin.ext
  match a with
  | ⟨0, _⟩ => show win0_2.index t (0 : Fin 2) * 8 + 1 * (x 0).val = (k 0).val; omega
  | ⟨1, _⟩ => show win0_2.index t (1 : Fin 2) * 256 + 1 * (x 1).val = (k 1).val; omega

/-- Point t's block of the second argument, read at x, is the argument at batch row 8t + x₀. -/
theorem iblk_1 (c : Dev nD) (t : Fin cfg0.N) (x : S8x256x768.Idx) (k : S512x256x768.Idx)
    (h0 : (k 0).val = 8 * t.val + (x 0).val) (h1 : (k 1).val = (x 1).val) (h2 : (k 2).val = (x 2).val) :
    (iblk0 V c 1 t : Vec Ideal S8x256x768 .f32) x = (V c main_arg2 : S512x256x768.Idx → EReal) k := by
  obtain ⟨-, -, -, e10, e11, e12, -⟩ := idx_facts t
  unfold iblk0
  rw [View.read_apply]
  show (V c main_arg2 : S512x256x768.Idx → EReal) _ = (V c main_arg2 : S512x256x768.Idx → EReal) _
  refine congrArg (V c main_arg2 : S512x256x768.Idx → EReal) ?_
  funext a
  apply Fin.ext
  match a with
  | ⟨0, _⟩ => show win0_1.index t (0 : Fin 3) * 8 + 1 * (x 0).val = (k 0).val; omega
  | ⟨1, _⟩ => show win0_1.index t (1 : Fin 3) * 256 + 1 * (x 1).val = (k 1).val; omega
  | ⟨2, _⟩ => show win0_1.index t (2 : Fin 3) * 768 + 1 * (x 2).val = (k 2).val; omega

/-- The second pooled payload and the second row-0 payload are the first ones, of the other block. -/
theorem pay_pool2_at (x0 : Vec Ideal S8x256 .f32) (x4 : Vec Ideal S8x256x768 .f32) (j : S8x768.Idx) :
    k0_pay4 x0 x4 j = ∑ s : Fin 256, x4 (ix3 (j 0) s (j 1)) * x0 (ix2 (j 0) s) := pay_pool_at x0 x4 j

theorem pay_sent2_at (x4 : Vec Ideal S8x256x768 .f32) (j : S8x768.Idx) :
    k0_pay5 x4 j = x4 (ix3 (j 0) 0 (j 1)) := pay_sent_at x4 j

/-- What point t writes back of the pooled output is block t of the pooled array. -/
theorem flushed3 (c : Dev nD) (t : Fin cfg0.N) :
    (dat0 (F := Ideal) V c).flushed 3 t
      = ((cfg0.win 3).blk t).view.read (Elt Ideal) (Cert.Spec.poolK (V c main_arg1) (V c main_v18)) := by
  show (cfg0.win 3).cut (grid0.coords t) ((dat0 (F := Ideal) V c).after 3 t) = _
  rw [after0_3]
  unfold out0_3
  rw [View.canon_unit_zero hz2]
  simp only [View.ld_unit_zero (S := S8x256) hz2, View.ld_unit_zero (S := S8x256x768) hz3]
  obtain ⟨-, -, -, -, -, -, -, -, e30, e31, -⟩ := idx_facts t
  funext j
  refine (pay_pool_at _ _ _).trans ?_
  show _ = Cert.Spec.poolK (V c main_arg1) (V c main_v18) (((cfg0.win 3).blk t).view.emb j)
  unfold Cert.Spec.poolK
  refine Finset.sum_congr rfl fun s _ => ?_
  have c0 : ((((cfg0.win 3).blk t).view.emb j) 0).val = 8 * t.val + (j 0).val := by
    show win0_3.index t (0 : Fin 2) * 8 + 1 * (j 0).val = _; omega
  have c1 : ((((cfg0.win 3).blk t).view.emb j) 1).val = (j 1).val := by
    show win0_3.index t (1 : Fin 2) * 768 + 1 * (j 1).val = _; omega
  refine congrArg₂ (· * ·) (iblk_0 V c t _ _ ?_ ?_ ?_) (iblk_2 V c t _ _ ?_ ?_)
  · exact c0
  · rfl
  · exact c1
  · exact c0
  · rfl

/-- An index of the pooled array is in point t's block iff each coordinate is in the block's range. -/
theorem mem_blk3 (t : Fin cfg0.N) (i : S512x768.Idx) :
    i ∈ ((cfg0.win 3).blk t).view.set ↔ ∀ a : Fin 2, win0_3.index t a * S8x768.size a ≤ (i a).val ∧ (i a).val < win0_3.index t a * S8x768.size a + S8x768.size a := by
  show i ∈ ((View.whole main_v19_0).slice (win0_3.rect t)).set ↔ _
  rw [View.set_slice_whole, Rect.mem_set_unit]
  exact Iff.rfl

/-- Batch row r is in the block of point r / 8. -/
theorem cover3 (i : S512x768.Idx) : ∃ t : Fin cfg0.N, (cfg0.win 3).flush t = true ∧ i ∈ ((cfg0.win 3).blk t).view.set := by
  have hi0 : (i 0).val < 512 := (i 0).isLt
  have hi1 : (i 1).val < 768 := (i 1).isLt
  have hN : (i 0).val / 8 < cfg0.N := by have h64 : cfg0.N = 64 := N_0; omega
  refine ⟨⟨(i 0).val / 8, hN⟩, flush0_3 _, ?_⟩
  rw [mem_blk3]
  obtain ⟨-, -, -, -, -, -, -, -, e30, e31, -⟩ := idx_facts ⟨(i 0).val / 8, hN⟩
  have e30' : win0_3.index ⟨(i 0).val / 8, hN⟩ (0 : Fin 2) = (i 0).val / 8 := e30
  intro a
  match a with
  | ⟨0, _⟩ => show win0_3.index _ (0 : Fin 2) * 8 ≤ (i 0).val ∧ (i 0).val < win0_3.index _ (0 : Fin 2) * 8 + 8; omega
  | ⟨1, _⟩ => show win0_3.index _ (1 : Fin 2) * 768 ≤ (i 1).val ∧ (i 1).val < win0_3.index _ (1 : Fin 2) * 768 + 768; omega

theorem arr0_3 (c : Dev nD) : (dat0 (F := Ideal) V c).arrAt 3 cfg0.N = Cert.Spec.poolK (V c main_arg1) (V c main_v18) := by
  exact (dat0 (F := Ideal) V c).arrAt_eq_of_cover 3 _ (fun t _ => flushed3 V c t) cover3

/-- What point t writes back of the row-0 output is block t of the row-0 array. -/
theorem flushed4 (c : Dev nD) (t : Fin cfg0.N) :
    (dat0 (F := Ideal) V c).flushed 4 t
      = ((cfg0.win 4).blk t).view.read (Elt Ideal) (Cert.Spec.sent (V c main_arg1)) := by
  show (cfg0.win 4).cut (grid0.coords t) ((dat0 (F := Ideal) V c).after 4 t) = _
  rw [after0_4]
  unfold out0_4
  rw [View.canon_unit_zero hz2]
  simp only [View.ld_unit_zero (S := S8x256x768) hz3]
  obtain ⟨-, -, -, -, -, -, -, -, -, -, e40, e41, -⟩ := idx_facts t
  funext j
  refine (pay_sent_at _ _).trans ?_
  show _ = Cert.Spec.sent (V c main_arg1) (((cfg0.win 4).blk t).view.emb j)
  unfold Cert.Spec.sent
  refine iblk_0 V c t _ _ ?_ ?_ ?_
  · show win0_4.index t (0 : Fin 2) * 8 + 1 * (j 0).val = 8 * t.val + (j 0).val; omega
  · rfl
  · show win0_4.index t (1 : Fin 2) * 768 + 1 * (j 1).val = (j 1).val; omega

theorem mem_blk4 (t : Fin cfg0.N) (i : S512x768.Idx) :
    i ∈ ((cfg0.win 4).blk t).view.set ↔ ∀ a : Fin 2, win0_4.index t a * S8x768.size a ≤ (i a).val ∧ (i a).val < win0_4.index t a * S8x768.size a + S8x768.size a := by
  show i ∈ ((View.whole main_v19_1).slice (win0_4.rect t)).set ↔ _
  rw [View.set_slice_whole, Rect.mem_set_unit]
  exact Iff.rfl

theorem cover4 (i : S512x768.Idx) : ∃ t : Fin cfg0.N, (cfg0.win 4).flush t = true ∧ i ∈ ((cfg0.win 4).blk t).view.set := by
  have hi0 : (i 0).val < 512 := (i 0).isLt
  have hi1 : (i 1).val < 768 := (i 1).isLt
  have hN : (i 0).val / 8 < cfg0.N := by have h64 : cfg0.N = 64 := N_0; omega
  refine ⟨⟨(i 0).val / 8, hN⟩, flush0_4 _, ?_⟩
  rw [mem_blk4]
  obtain ⟨-, -, -, -, -, -, -, -, -, -, e40, e41, -⟩ := idx_facts ⟨(i 0).val / 8, hN⟩
  have e40' : win0_4.index ⟨(i 0).val / 8, hN⟩ (0 : Fin 2) = (i 0).val / 8 := e40
  intro a
  match a with
  | ⟨0, _⟩ => show win0_4.index _ (0 : Fin 2) * 8 ≤ (i 0).val ∧ (i 0).val < win0_4.index _ (0 : Fin 2) * 8 + 8; omega
  | ⟨1, _⟩ => show win0_4.index _ (1 : Fin 2) * 768 ≤ (i 1).val ∧ (i 1).val < win0_4.index _ (1 : Fin 2) * 768 + 768; omega

theorem arr0_4 (c : Dev nD) : (dat0 (F := Ideal) V c).arrAt 4 cfg0.N = Cert.Spec.sent (V c main_arg1) := by
  exact (dat0 (F := Ideal) V c).arrAt_eq_of_cover 4 _ (fun t _ => flushed4 V c t) cover4

/-- What point t writes back of the second pooled output is block t of the second pooled array. -/
theorem flushed5 (c : Dev nD) (t : Fin cfg0.N) :
    (dat0 (F := Ideal) V c).flushed 5 t
      = ((cfg0.win 5).blk t).view.read (Elt Ideal) (Cert.Spec.poolK (V c main_arg2) (V c main_v18)) := by
  show (cfg0.win 5).cut (grid0.coords t) ((dat0 (F := Ideal) V c).after 5 t) = _
  rw [after0_5]
  unfold out0_5
  rw [View.canon_unit_zero hz2]
  simp only [View.ld_unit_zero (S := S8x256) hz2, View.ld_unit_zero (S := S8x256x768) hz3]
  obtain ⟨-, -, -, -, -, -, -, -, -, -, -, -, e50, e51, -⟩ := idx_facts t
  funext j
  refine (pay_pool2_at _ _ _).trans ?_
  show _ = Cert.Spec.poolK (V c main_arg2) (V c main_v18) (((cfg0.win 5).blk t).view.emb j)
  unfold Cert.Spec.poolK
  refine Finset.sum_congr rfl fun s _ => ?_
  have c0 : ((((cfg0.win 5).blk t).view.emb j) 0).val = 8 * t.val + (j 0).val := by
    show win0_5.index t (0 : Fin 2) * 8 + 1 * (j 0).val = _; omega
  have c1 : ((((cfg0.win 5).blk t).view.emb j) 1).val = (j 1).val := by
    show win0_5.index t (1 : Fin 2) * 768 + 1 * (j 1).val = _; omega
  refine congrArg₂ (· * ·) (iblk_1 V c t _ _ ?_ ?_ ?_) (iblk_2 V c t _ _ ?_ ?_)
  · exact c0
  · rfl
  · exact c1
  · exact c0
  · rfl
/-- An index of the second pooled array is in point t's block iff each coordinate is in the block's range. -/
theorem mem_blk5 (t : Fin cfg0.N) (i : S512x768.Idx) :
    i ∈ ((cfg0.win 5).blk t).view.set ↔ ∀ a : Fin 2, win0_5.index t a * S8x768.size a ≤ (i a).val ∧ (i a).val < win0_5.index t a * S8x768.size a + S8x768.size a := by
  show i ∈ ((View.whole main_v19_2).slice (win0_5.rect t)).set ↔ _
  rw [View.set_slice_whole, Rect.mem_set_unit]
  exact Iff.rfl

/-- Batch row r is in the block of point r / 8. -/
theorem cover5 (i : S512x768.Idx) : ∃ t : Fin cfg0.N, (cfg0.win 5).flush t = true ∧ i ∈ ((cfg0.win 5).blk t).view.set := by
  have hi0 : (i 0).val < 512 := (i 0).isLt
  have hi1 : (i 1).val < 768 := (i 1).isLt
  have hN : (i 0).val / 8 < cfg0.N := by have h64 : cfg0.N = 64 := N_0; omega
  refine ⟨⟨(i 0).val / 8, hN⟩, flush0_5 _, ?_⟩
  rw [mem_blk5]
  obtain ⟨-, -, -, -, -, -, -, -, -, -, -, -, e50, e51, -⟩ := idx_facts ⟨(i 0).val / 8, hN⟩
  have e50' : win0_5.index ⟨(i 0).val / 8, hN⟩ (0 : Fin 2) = (i 0).val / 8 := e50
  intro a
  match a with
  | ⟨0, _⟩ => show win0_5.index _ (0 : Fin 2) * 8 ≤ (i 0).val ∧ (i 0).val < win0_5.index _ (0 : Fin 2) * 8 + 8; omega
  | ⟨1, _⟩ => show win0_5.index _ (1 : Fin 2) * 768 ≤ (i 1).val ∧ (i 1).val < win0_5.index _ (1 : Fin 2) * 768 + 768; omega

theorem arr0_5 (c : Dev nD) : (dat0 (F := Ideal) V c).arrAt 5 cfg0.N = Cert.Spec.poolK (V c main_arg2) (V c main_v18) := by
  exact (dat0 (F := Ideal) V c).arrAt_eq_of_cover 5 _ (fun t _ => flushed5 V c t) cover5

/-- What point t writes back of the second row-0 output is block t of the second row-0 array. -/
theorem flushed6 (c : Dev nD) (t : Fin cfg0.N) :
    (dat0 (F := Ideal) V c).flushed 6 t
      = ((cfg0.win 6).blk t).view.read (Elt Ideal) (Cert.Spec.sent (V c main_arg2)) := by
  show (cfg0.win 6).cut (grid0.coords t) ((dat0 (F := Ideal) V c).after 6 t) = _
  rw [after0_6]
  unfold out0_6
  rw [View.canon_unit_zero hz2]
  simp only [View.ld_unit_zero (S := S8x256x768) hz3]
  obtain ⟨-, -, -, -, -, -, -, -, -, -, -, -, -, -, e60, e61⟩ := idx_facts t
  funext j
  refine (pay_sent2_at _ _).trans ?_
  show _ = Cert.Spec.sent (V c main_arg2) (((cfg0.win 6).blk t).view.emb j)
  unfold Cert.Spec.sent
  refine iblk_1 V c t _ _ ?_ ?_ ?_
  · show win0_6.index t (0 : Fin 2) * 8 + 1 * (j 0).val = 8 * t.val + (j 0).val; omega
  · rfl
  · show win0_6.index t (1 : Fin 2) * 768 + 1 * (j 1).val = (j 1).val; omega

theorem mem_blk6 (t : Fin cfg0.N) (i : S512x768.Idx) :
    i ∈ ((cfg0.win 6).blk t).view.set ↔ ∀ a : Fin 2, win0_6.index t a * S8x768.size a ≤ (i a).val ∧ (i a).val < win0_6.index t a * S8x768.size a + S8x768.size a := by
  show i ∈ ((View.whole main_v19_3).slice (win0_6.rect t)).set ↔ _
  rw [View.set_slice_whole, Rect.mem_set_unit]
  exact Iff.rfl

theorem cover6 (i : S512x768.Idx) : ∃ t : Fin cfg0.N, (cfg0.win 6).flush t = true ∧ i ∈ ((cfg0.win 6).blk t).view.set := by
  have hi0 : (i 0).val < 512 := (i 0).isLt
  have hi1 : (i 1).val < 768 := (i 1).isLt
  have hN : (i 0).val / 8 < cfg0.N := by have h64 : cfg0.N = 64 := N_0; omega
  refine ⟨⟨(i 0).val / 8, hN⟩, flush0_6 _, ?_⟩
  rw [mem_blk6]
  obtain ⟨-, -, -, -, -, -, -, -, -, -, -, -, -, -, e60, e61⟩ := idx_facts ⟨(i 0).val / 8, hN⟩
  have e60' : win0_6.index ⟨(i 0).val / 8, hN⟩ (0 : Fin 2) = (i 0).val / 8 := e60
  intro a
  match a with
  | ⟨0, _⟩ => show win0_6.index _ (0 : Fin 2) * 8 ≤ (i 0).val ∧ (i 0).val < win0_6.index _ (0 : Fin 2) * 8 + 8; omega
  | ⟨1, _⟩ => show win0_6.index _ (1 : Fin 2) * 768 ≤ (i 1).val ∧ (i 1).val < win0_6.index _ (1 : Fin 2) * 768 + 768; omega

theorem arr0_6 (c : Dev nD) : (dat0 (F := Ideal) V c).arrAt 6 cfg0.N = Cert.Spec.sent (V c main_arg2) := by
  exact (dat0 (F := Ideal) V c).arrAt_eq_of_cover 6 _ (fun t _ => flushed6 V c t) cover6

end Cert.KernelIdeal.PoolV

end
-- ==== Proof.LinNorm.lean ====
/-
  The second region's two output arrays as functions of the arrays it is entered with.  Grid point `t` handles batch rows
  `256t … 256t+255`: each output row is the sum of the row blocks' products with the whole `[768, 768]` weight blocks plus
  the bias, divided by its Euclidean norm floored at a small constant.  A row lies inside one block, and the two points'
  blocks tile each `[512, 768]` output, so the output arrays are `l2n (lin3 …)` and `l2n (lin2 …)` of Spec.lean.
-/
import proofs.«400078_j39994735460380_2_alg».proof.Proof.Gen.KernelIdeal.Frame
import proofs.«400078_j39994735460380_2_alg».proof.Proof.Spec
import Idealize.ShloMosaic.Lib.Pipeline.Value
import Idealize.ShloMosaic.Lib.ValueLayout
import Idealize.ShloMosaic.PureOps.Ideal.Laws
set_option maxRecDepth 16384

noncomputable section

namespace Cert.KernelIdeal.LinV

open Idealize.ShloMosaic Idealize.ShloMosaic.TcCoe Idealize.SL.Sem Idealize.ShloMosaic.ValueIdx
open Idealize.ShloMosaic.Pipeline (Dat Cfg Window)
open Cert.KernelIdeal Cert.KernelIdeal.Gen

/-! ## The product of a row block with a weight block, read at an index -/

theorem lhs_mm_0 (i : S256x768.Idx) (q : dot_S256x768_S768x768_S256x768_1_0_0_1_n_n.contr.Idx) :
    (dot_S256x768_S768x768_S256x768_1_0_0_1_n_n.lhsIdx i q 0).val = (i 0).val := by
  unfold DotDims.lhsIdx
  rw [dif_neg (show ¬(0 : Fin S256x768.rank) ∈ dot_S256x768_S768x768_S256x768_1_0_0_1_n_n.lhsBatch by decide), dif_pos (show (0 : Fin S256x768.rank) ∈ dot_S256x768_S768x768_S256x768_1_0_0_1_n_n.lhsNonContracting by decide)]
  rfl
theorem lhs_mm_1 (i : S256x768.Idx) (q : dot_S256x768_S768x768_S256x768_1_0_0_1_n_n.contr.Idx) :
    (dot_S256x768_S768x768_S256x768_1_0_0_1_n_n.lhsIdx i q 1).val = (q ⟨0, by decide⟩).val :=
  dot_S256x768_S768x768_S256x768_1_0_0_1_n_n.lhsIdx_val_of_single rfl i q
theorem rhs_mm_0 (i : S256x768.Idx) (q : dot_S256x768_S768x768_S256x768_1_0_0_1_n_n.contr.Idx) :
    (dot_S256x768_S768x768_S256x768_1_0_0_1_n_n.rhsIdx i q 0).val = (q ⟨0, by decide⟩).val :=
  dot_S256x768_S768x768_S256x768_1_0_0_1_n_n.rhsIdx_val_of_single rfl i q
theorem rhs_mm_1 (i : S256x768.Idx) (q : dot_S256x768_S768x768_S256x768_1_0_0_1_n_n.contr.Idx) :
    (dot_S256x768_S768x768_S256x768_1_0_0_1_n_n.rhsIdx i q 1).val = (i 1).val := by
  unfold DotDims.rhsIdx
  rw [dif_neg (show ¬(1 : Fin S768x768.rank) ∈ dot_S256x768_S768x768_S256x768_1_0_0_1_n_n.rhsBatch by decide), dif_pos (show (1 : Fin S768x768.rank) ∈ dot_S256x768_S768x768_S256x768_1_0_0_1_n_n.rhsNonContracting by decide)]
  rfl

/-- A `[256,768] × [768,768]` product into the zero accumulator, at `(p, q)`: the sum over the shared axis. -/
theorem mm_apply (a : FVec Ideal S256x768 .bf16) (w : FVec Ideal S768x768 .bf16) (p : Fin 256) (q : Fin 768) :
    matmul dot_S256x768_S768x768_S256x768_1_0_0_1_n_n none a w (constant (F := Ideal) S256x768 .f32 0x00000000#32) (ix2 p q)
      = ∑ k : Fin 768, a (ix2 p k) * w (ix2 k q) := by
  simp only [matmul]
  rw [Ideal.matmul_constant_zero_apply, ← Equiv.sum_comp (ValueIdx.contrEquiv1 dot_S256x768_S768x768_S256x768_1_0_0_1_n_n 768 rfl rfl).symm]
  refine Finset.sum_congr rfl fun k _ => ?_
  have hk := ValueIdx.contrEquiv1_symm_val dot_S256x768_S768x768_S256x768_1_0_0_1_n_n 768 rfl rfl k
  have el : dot_S256x768_S768x768_S256x768_1_0_0_1_n_n.lhsIdx (ix2 p q) ((ValueIdx.contrEquiv1 dot_S256x768_S768x768_S256x768_1_0_0_1_n_n 768 rfl rfl).symm k) = ix2 p k := funext fun x => Fin.ext (by
    match x with
    | ⟨0, _⟩ => exact lhs_mm_0 _ _
    | ⟨1, _⟩ => exact (lhs_mm_1 _ _).trans hk)
  have er : dot_S256x768_S768x768_S256x768_1_0_0_1_n_n.rhsIdx (ix2 p q) ((ValueIdx.contrEquiv1 dot_S256x768_S768x768_S256x768_1_0_0_1_n_n 768 rfl rfl).symm k) = ix2 k q := funext fun x => Fin.ext (by
    match x with
    | ⟨0, _⟩ => exact (rhs_mm_0 _ _).trans hk
    | ⟨1, _⟩ => exact rhs_mm_1 _ _)
  rw [el, er]

/-! ## The column forms of a kept reduced axis -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of a `[256, 768]` block, at row `p`. -/
theorem rowsum_apply (x : FVec Ideal S256x768 .f32) (h : S256x768.Reduces [1] S256) (hφ : FKind.Formats .f32)
    (hacc : (0x00000000#32 : BitVec 32) = 0x00000000#32) (p : Fin 256) :
    multiReduction (F := Ideal) .add [1] S256 x 0x00000000#32 h hφ hacc (ix1 p) = ∑ k : Fin 768, x (ix2 p k) := by
  refine (Ideal.multiReduction_add_single x 0x00000000#32 h hφ hacc (ix1 p)).trans ?_
  refine Finset.sum_congr rfl fun k _ => congrArg x ?_
  funext d; apply Fin.ext
  match d with
  | ⟨0, _⟩ => rfl
  | ⟨1, _⟩ => rfl

/-! ## The body's values at an index of the block -/

/-- The bias vector laid along the rows of a `[256, 768]` block. -/
theorem bias_apply (v : FVec Ideal S768 .f32) (p : Fin 256) (q : Fin 768) :
    broadcastTo S256x768 (shapeCast S1x768 v Facts₀.shapeCasts_S768_S1x768) Facts₀.broadcasts_S1x768_S256x768 (ix2 p q) = v (ix1 q) := by
  rw [broadcastTo_1b_ab_apply, shapeCast_a_1a_apply]

/-- Row `p` of a block divided by its Euclidean norm floored at the small constant, at column `q`. -/
theorem norm_apply (C : FVec Ideal S256x768 .f32) (p : Fin 256) (q : Fin 768) :
    divf C (broadcastTo S256x768 (maximumf (sqrt (shapeCast S256x1 (multiReduction (F := Ideal) .add [1] S256 (mulf C C) 0x00000000#32 Facts₀.reduces_S256x768_S256 (.inl rfl) rfl) Facts₀.shapeCasts_S256_S256x1)) (broadcast S256x1 (Scalar.ofBits (F := Ideal) .f32 0x2B8CBCCC#32))) Facts₀.broadcasts_S256x1_S256x768) (ix2 p q)
      = Ideal.div (C (ix2 p q)) (max (Ideal.sqrt (∑ k : Fin 768, C (ix2 p k) * C (ix2 p k))) Cert.Spec.eps) := by
  rw [divf_apply, broadcastTo_a1_ab_apply, maximumf_apply, broadcast_apply]
  refine congrArg (Ideal.div (C (ix2 p q))) (congrArg (fun z => max z Cert.Spec.eps) ?_)
  show Ideal.sqrt (shapeCast S256x1 _ Facts₀.shapeCasts_S256_S256x1 (ix2 p (0 : Fin 1))) = _
  rw [shapeCast_a_a1_apply, rowsum_apply]
  rfl

/-- The three-block affine value of row `p` at column `q`, from the blocks the body loads. -/
def rowLin3 (a b c : S256x768.Idx → EReal) (wa wb wc : S768x768.Idx → EReal) (bias : S768.Idx → EReal) (p : Fin 256) (q : Fin 768) : EReal :=
  (((∑ k : Fin 768, a (ix2 p k) * wa (ix2 k q)) + (∑ k : Fin 768, b (ix2 p k) * wb (ix2 k q)))
    + (∑ k : Fin 768, c (ix2 p k) * wc (ix2 k q))) + bias (ix1 q)

/-- The two-block affine value of row `p` at column `q`. -/
def rowLin2 (a b : S256x768.Idx → EReal) (wa wb : S768x768.Idx → EReal) (bias : S768.Idx → EReal) (p : Fin 256) (q : Fin 768) : EReal :=
  ((∑ k : Fin 768, a (ix2 p k) * wa (ix2 k q)) + (∑ k : Fin 768, b (ix2 p k) * wb (ix2 k q))) + bias (ix1 q)

/-- The first result's payload at `(p, q)`. -/
theorem pay2_apply (v0 v3 v6 : Vec Ideal S256x768 .f32) (v9 v12 v16 : Vec Ideal S768x768 .bf16) (v20 : Vec Ideal S768 .f32)
    (p : Fin 256) (q : Fin 768) :
    k1_pay2 (F := Ideal) v0 v3 v6 v9 v12 v16 v20 (ix2 p q)
      = Ideal.div (rowLin3 v0 v3 v6 v9 v12 v16 v20 p q)
          (max (Ideal.sqrt (∑ k : Fin 768, rowLin3 v0 v3 v6 v9 v12 v16 v20 p k * rowLin3 v0 v3 v6 v9 v12 v16 v20 p k)) Cert.Spec.eps) := by
  unfold k1_pay2
  simp only [shapeCast_self]
  refine (norm_apply _ p q).trans ?_
  have hL : ∀ k : Fin 768, addf (addf (addf
        (matmul dot_S256x768_S768x768_S256x768_1_0_0_1_n_n none (truncf .bf16 v0 Facts₀.bitsLt_bf16_f32) v9 (constant (F := Ideal) S256x768 .f32 0x00000000#32))
        (matmul dot_S256x768_S768x768_S256x768_1_0_0_1_n_n none (truncf .bf16 v3 Facts₀.bitsLt_bf16_f32) v12 (constant (F := Ideal) S256x768 .f32 0x00000000#32)))
        (matmul dot_S256x768_S768x768_S256x768_1_0_0_1_n_n none (truncf .bf16 v6 Facts₀.bitsLt_bf16_f32) v16 (constant (F := Ideal) S256x768 .f32 0x00000000#32)))
        (broadcastTo S256x768 (shapeCast S1x768 v20 Facts₀.shapeCasts_S768_S1x768) Facts₀.broadcasts_S1x768_S256x768) (ix2 p k)
      = rowLin3 v0 v3 v6 v9 v12 v16 v20 p k := fun k => by
    rw [addf_apply, addf_apply, addf_apply, mm_apply, mm_apply, mm_apply, bias_apply]
    rfl
  simp only [hL]

/-- The second result's payload at `(p, q)`. -/
theorem pay1_apply (v33 v36 : Vec Ideal S256x768 .f32) (v39 v42 : Vec Ideal S768x768 .bf16) (v46 : Vec Ideal S768 .f32)
    (p : Fin 256) (q : Fin 768) :
    k1_pay1 (F := Ideal) (k1_pay3 (F := Ideal) v33) v36 v39 v42 v46 (ix2 p q)
      = Ideal.div (rowLin2 v33 v36 v39 v42 v46 p q)
          (max (Ideal.sqrt (∑ k : Fin 768, rowLin2 v33 v36 v39 v42 v46 p k * rowLin2 v33 v36 v39 v42 v46 p k)) Cert.Spec.eps) := by
  unfold k1_pay1 k1_pay3
  simp only [shapeCast_self]
  refine (norm_apply _ p q).trans ?_
  have hL : ∀ k : Fin 768, addf (addf
        (matmul dot_S256x768_S768x768_S256x768_1_0_0_1_n_n none (truncf .bf16 v33 Facts₀.bitsLt_bf16_f32) v39 (constant (F := Ideal) S256x768 .f32 0x00000000#32))
        (matmul dot_S256x768_S768x768_S256x768_1_0_0_1_n_n none (truncf .bf16 v36 Facts₀.bitsLt_bf16_f32) v42 (constant (F := Ideal) S256x768 .f32 0x00000000#32)))
        (broadcastTo S256x768 (shapeCast S1x768 v46 Facts₀.shapeCasts_S768_S1x768) Facts₀.broadcasts_S1x768_S256x768) (ix2 p k)
      = rowLin2 v33 v36 v39 v42 v46 p k := fun k => by
    rw [addf_apply, addf_apply, mm_apply, mm_apply, bias_apply]
    rfl
  simp only [hL]

/-! ## A point's block against the whole arrays -/

/-- Row `r * 256 + p` of the three-block result, from blocks that are rows `r * 256 …` of the row arrays and the whole
    of the weight arrays. -/
theorem point3 (A B C : Cert.Spec.A2) (WA WB WC : Cert.Spec.M2) (bias : Cert.Spec.B1)
    (x0 x1 x2 : Vec Ideal S256x768 .f32) (x3 x4 x5 : Vec Ideal S768x768 .bf16) (x6 : Vec Ideal S768 .f32) (r : ℕ)
    (h0 : ∀ (y : S256x768.Idx) (z : S512x768.Idx), (z 0).val = r * 256 + (y 0).val → (z 1).val = (y 1).val → x0 y = A z)
    (h1 : ∀ (y : S256x768.Idx) (z : S512x768.Idx), (z 0).val = r * 256 + (y 0).val → (z 1).val = (y 1).val → x1 y = B z)
    (h2 : ∀ (y : S256x768.Idx) (z : S512x768.Idx), (z 0).val = r * 256 + (y 0).val → (z 1).val = (y 1).val → x2 y = C z)
    (h3 : ∀ y : S768x768.Idx, x3 y = WA y) (h4 : ∀ y : S768x768.Idx, x4 y = WB y) (h5 : ∀ y : S768x768.Idx, x5 y = WC y)
    (h6 : ∀ y : S768.Idx, x6 y = bias y)
    (j : S256x768.Idx) (i : S512x768.Idx) (hi0 : (i 0).val = r * 256 + (j 0).val) (hi1 : (i 1).val = (j 1).val) :
    k1_pay2 (F := Ideal) x0 x1 x2 x3 x4 x5 x6 j = Cert.Spec.l2n (Cert.Spec.lin3 A B C WA WB WC bias) i := by
  obtain ⟨p, q, rfl⟩ : ∃ (p : Fin 256) (q : Fin 768), j = ix2 p q := ⟨j 0, j 1, eq_ix2 j⟩
  obtain ⟨P, Q, rfl⟩ : ∃ (P : Fin 512) (Q : Fin 768), i = ix2 P Q := ⟨i 0, i 1, eq_ix2 i⟩
  have hP : P.val = r * 256 + p.val := hi0
  have hQ : Q = q := Fin.ext hi1
  subst hQ
  have hrow : ∀ k : Fin 768, rowLin3 x0 x1 x2 x3 x4 x5 x6 p k = Cert.Spec.lin3 A B C WA WB WC bias (ix2 P k) := fun k => by
    unfold rowLin3 Cert.Spec.lin3
    simp only [h3, h4, h5, h6, fun k' : Fin 768 => h0 (ix2 p k') (ix2 P k') hP rfl, fun k' : Fin 768 => h1 (ix2 p k') (ix2 P k') hP rfl,
      fun k' : Fin 768 => h2 (ix2 p k') (ix2 P k') hP rfl]
  rw [pay2_apply]
  simp only [hrow]
  rfl

/-- The same for the two-block result. -/
theorem point2 (A B : Cert.Spec.A2) (WA WB : Cert.Spec.M2) (bias : Cert.Spec.B1)
    (x7 x8 : Vec Ideal S256x768 .f32) (x9 x10 : Vec Ideal S768x768 .bf16) (x11 : Vec Ideal S768 .f32) (r : ℕ)
    (h0 : ∀ (y : S256x768.Idx) (z : S512x768.Idx), (z 0).val = r * 256 + (y 0).val → (z 1).val = (y 1).val → x7 y = A z)
    (h1 : ∀ (y : S256x768.Idx) (z : S512x768.Idx), (z 0).val = r * 256 + (y 0).val → (z 1).val = (y 1).val → x8 y = B z)
    (h3 : ∀ y : S768x768.Idx, x9 y = WA y) (h4 : ∀ y : S768x768.Idx, x10 y = WB y)
    (h6 : ∀ y : S768.Idx, x11 y = bias y)
    (j : S256x768.Idx) (i : S512x768.Idx) (hi0 : (i 0).val = r * 256 + (j 0).val) (hi1 : (i 1).val = (j 1).val) :
    k1_pay1 (F := Ideal) (k1_pay3 (F := Ideal) x7) x8 x9 x10 x11 j = Cert.Spec.l2n (Cert.Spec.lin2 A B WA WB bias) i := by
  obtain ⟨p, q, rfl⟩ : ∃ (p : Fin 256) (q : Fin 768), j = ix2 p q := ⟨j 0, j 1, eq_ix2 j⟩
  obtain ⟨P, Q, rfl⟩ : ∃ (P : Fin 512) (Q : Fin 768), i = ix2 P Q := ⟨i 0, i 1, eq_ix2 i⟩
  have hP : P.val = r * 256 + p.val := hi0
  have hQ : Q = q := Fin.ext hi1
  subst hQ
  have hrow : ∀ k : Fin 768, rowLin2 x7 x8 x9 x10 x11 p k = Cert.Spec.lin2 A B WA WB bias (ix2 P k) := fun k => by
    unfold rowLin2 Cert.Spec.lin2
    simp only [h3, h4, h6, fun k' : Fin 768 => h0 (ix2 p k') (ix2 P k') hP rfl, fun k' : Fin 768 => h1 (ix2 p k') (ix2 P k') hP rfl]
  rw [pay1_apply]
  simp only [hrow]
  rfl

/-! ## The windows' blocks read off the arrays -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- Window 0's block at a point is the rows of its array that the point's output block covers. -/
theorem rows0 (c : Dev nD) (t : Fin cfg1.N) (y : S256x768.Idx) (z : S512x768.Idx)
    (hz0 : (z 0).val = win1_12.index t (0 : Fin 2) * 256 + (y 0).val) (hz1 : (z 1).val = (y 1).val) :
    iblk1 V c 0 t y = V c main_v19_0 z := by
  obtain ⟨ea, eb⟩ := (by decide +kernel : ∀ t : Fin grid1.N, win1_0.index t (0 : Fin 2) = win1_12.index t (0 : Fin 2) ∧ win1_0.index t (1 : Fin 2) = 0) t
  show V c main_v19_0 (((cfg1.win 0).blk t).view.emb y) = V c main_v19_0 z
  refine congrArg (V c main_v19_0) (funext fun a => Fin.ext ?_)
  match a with
  | ⟨0, _⟩ => show win1_0.index t (0 : Fin 2) * 256 + 1 * (y 0).val = (z 0).val; omega
  | ⟨1, _⟩ => show win1_0.index t (1 : Fin 2) * 768 + 1 * (y 1).val = (z 1).val; omega

/-- Window 1's block at a point is the rows of its array that the point's output block covers. -/
theorem rows1 (c : Dev nD) (t : Fin cfg1.N) (y : S256x768.Idx) (z : S512x768.Idx)
    (hz0 : (z 0).val = win1_12.index t (0 : Fin 2) * 256 + (y 0).val) (hz1 : (z 1).val = (y 1).val) :
    iblk1 V c 1 t y = V c main_v19_1 z := by
  obtain ⟨ea, eb⟩ := (by decide +kernel : ∀ t : Fin grid1.N, win1_1.index t (0 : Fin 2) = win1_12.index t (0 : Fin 2) ∧ win1_1.index t (1 : Fin 2) = 0) t
  show V c main_v19_1 (((cfg1.win 1).blk t).view.emb y) = V c main_v19_1 z
  refine congrArg (V c main_v19_1) (funext fun a => Fin.ext ?_)
  match a with
  | ⟨0, _⟩ => show win1_1.index t (0 : Fin 2) * 256 + 1 * (y 0).val = (z 0).val; omega
  | ⟨1, _⟩ => show win1_1.index t (1 : Fin 2) * 768 + 1 * (y 1).val = (z 1).val; omega

/-- Window 2's block at a point is the rows of its array that the point's output block covers. -/
theorem rows2 (c : Dev nD) (t : Fin cfg1.N) (y : S256x768.Idx) (z : S512x768.Idx)
    (hz0 : (z 0).val = win1_12.index t (0 : Fin 2) * 256 + (y 0).val) (hz1 : (z 1).val = (y 1).val) :
    iblk1 V c 2 t y = V c main_v21 z := by
  obtain ⟨ea, eb⟩ := (by decide +kernel : ∀ t : Fin grid1.N, win1_2.index t (0 : Fin 2) = win1_12.index t (0 : Fin 2) ∧ win1_2.index t (1 : Fin 2) = 0) t
  show V c main_v21 (((cfg1.win 2).blk t).view.emb y) = V c main_v21 z
  refine congrArg (V c main_v21) (funext fun a => Fin.ext ?_)
  match a with
  | ⟨0, _⟩ => show win1_2.index t (0 : Fin 2) * 256 + 1 * (y 0).val = (z 0).val; omega
  | ⟨1, _⟩ => show win1_2.index t (1 : Fin 2) * 768 + 1 * (y 1).val = (z 1).val; omega

/-- Window 7's block at a point is the rows of its array that the point's output block covers. -/
theorem rows7 (c : Dev nD) (t : Fin cfg1.N) (y : S256x768.Idx) (z : S512x768.Idx)
    (hz0 : (z 0).val = win1_13.index t (0 : Fin 2) * 256 + (y 0).val) (hz1 : (z 1).val = (y 1).val) :
    iblk1 V c 7 t y = V c main_v19_2 z := by
  obtain ⟨ea, eb⟩ := (by decide +kernel : ∀ t : Fin grid1.N, win1_7.index t (0 : Fin 2) = win1_13.index t (0 : Fin 2) ∧ win1_7.index t (1 : Fin 2) = 0) t
  show V c main_v19_2 (((cfg1.win 7).blk t).view.emb y) = V c main_v19_2 z
  refine congrArg (V c main_v19_2) (funext fun a => Fin.ext ?_)
  match a with
  | ⟨0, _⟩ => show win1_7.index t (0 : Fin 2) * 256 + 1 * (y 0).val = (z 0).val; omega
  | ⟨1, _⟩ => show win1_7.index t (1 : Fin 2) * 768 + 1 * (y 1).val = (z 1).val; omega

/-- Window 8's block at a point is the rows of its array that the point's output block covers. -/
theorem rows8 (c : Dev nD) (t : Fin cfg1.N) (y : S256x768.Idx) (z : S512x768.Idx)
    (hz0 : (z 0).val = win1_13.index t (0 : Fin 2) * 256 + (y 0).val) (hz1 : (z 1).val = (y 1).val) :
    iblk1 V c 8 t y = V c main_v19_3 z := by
  obtain ⟨ea, eb⟩ := (by decide +kernel : ∀ t : Fin grid1.N, win1_8.index t (0 : Fin 2) = win1_13.index t (0 : Fin 2) ∧ win1_8.index t (1 : Fin 2) = 0) t
  show V c main_v19_3 (((cfg1.win 8).blk t).view.emb y) = V c main_v19_3 z
  refine congrArg (V c main_v19_3) (funext fun a => Fin.ext ?_)
  match a with
  | ⟨0, _⟩ => show win1_8.index t (0 : Fin 2) * 256 + 1 * (y 0).val = (z 0).val; omega
  | ⟨1, _⟩ => show win1_8.index t (1 : Fin 2) * 768 + 1 * (y 1).val = (z 1).val; omega

/-- Window 3's block is the whole of its array at every point. -/
theorem whole3 (c : Dev nD) (t : Fin cfg1.N) (y : S768x768.Idx) : iblk1 V c 3 t y = V c main_v24 y := by
  obtain ⟨ea, eb⟩ := (by decide +kernel : ∀ t : Fin grid1.N, win1_3.index t (0 : Fin 2) = 0 ∧ win1_3.index t (1 : Fin 2) = 0) t
  show V c main_v24 (((cfg1.win 3).blk t).view.emb y) = V c main_v24 y
  refine congrArg (V c main_v24) (funext fun a => Fin.ext ?_)
  match a with
  | ⟨0, _⟩ => show win1_3.index t (0 : Fin 2) * 768 + 1 * (y 0).val = (y 0).val; omega
  | ⟨1, _⟩ => show win1_3.index t (1 : Fin 2) * 768 + 1 * (y 1).val = (y 1).val; omega

/-- Window 4's block is the whole of its array at every point. -/
theorem whole4 (c : Dev nD) (t : Fin cfg1.N) (y : S768x768.Idx) : iblk1 V c 4 t y = V c main_v26 y := by
  obtain ⟨ea, eb⟩ := (by decide +kernel : ∀ t : Fin grid1.N, win1_4.index t (0 : Fin 2) = 0 ∧ win1_4.index t (1 : Fin 2) = 0) t
  show V c main_v26 (((cfg1.win 4).blk t).view.emb y) = V c main_v26 y
  refine congrArg (V c main_v26) (funext fun a => Fin.ext ?_)
  match a with
  | ⟨0, _⟩ => show win1_4.index t (0 : Fin 2) * 768 + 1 * (y 0).val = (y 0).val; omega
  | ⟨1, _⟩ => show win1_4.index t (1 : Fin 2) * 768 + 1 * (y 1).val = (y 1).val; omega

/-- Window 5's block is the whole of its array at every point. -/
theorem whole5 (c : Dev nD) (t : Fin cfg1.N) (y : S768x768.Idx) : iblk1 V c 5 t y = V c main_v28 y := by
  obtain ⟨ea, eb⟩ := (by decide +kernel : ∀ t : Fin grid1.N, win1_5.index t (0 : Fin 2) = 0 ∧ win1_5.index t (1 : Fin 2) = 0) t
  show V c main_v28 (((cfg1.win 5).blk t).view.emb y) = V c main_v28 y
  refine congrArg (V c main_v28) (funext fun a => Fin.ext ?_)
  match a with
  | ⟨0, _⟩ => show win1_5.index t (0 : Fin 2) * 768 + 1 * (y 0).val = (y 0).val; omega
  | ⟨1, _⟩ => show win1_5.index t (1 : Fin 2) * 768 + 1 * (y 1).val = (y 1).val; omega

/-- Window 9's block is the whole of its array at every point. -/
theorem whole9 (c : Dev nD) (t : Fin cfg1.N) (y : S768x768.Idx) : iblk1 V c 9 t y = V c main_v31 y := by
  obtain ⟨ea, eb⟩ := (by decide +kernel : ∀ t : Fin grid1.N, win1_9.index t (0 : Fin 2) = 0 ∧ win1_9.index t (1 : Fin 2) = 0) t
  show V c main_v31 (((cfg1.win 9).blk t).view.emb y) = V c main_v31 y
  refine congrArg (V c main_v31) (funext fun a => Fin.ext ?_)
  match a with
  | ⟨0, _⟩ => show win1_9.index t (0 : Fin 2) * 768 + 1 * (y 0).val = (y 0).val; omega
  | ⟨1, _⟩ => show win1_9.index t (1 : Fin 2) * 768 + 1 * (y 1).val = (y 1).val; omega

/-- Window 10's block is the whole of its array at every point. -/
theorem whole10 (c : Dev nD) (t : Fin cfg1.N) (y : S768x768.Idx) : iblk1 V c 10 t y = V c main_v33 y := by
  obtain ⟨ea, eb⟩ := (by decide +kernel : ∀ t : Fin grid1.N, win1_10.index t (0 : Fin 2) = 0 ∧ win1_10.index t (1 : Fin 2) = 0) t
  show V c main_v33 (((cfg1.win 10).blk t).view.emb y) = V c main_v33 y
  refine congrArg (V c main_v33) (funext fun a => Fin.ext ?_)
  match a with
  | ⟨0, _⟩ => show win1_10.index t (0 : Fin 2) * 768 + 1 * (y 0).val = (y 0).val; omega
  | ⟨1, _⟩ => show win1_10.index t (1 : Fin 2) * 768 + 1 * (y 1).val = (y 1).val; omega

/-- Window 6's block is the whole of its vector at every point. -/
theorem whole6 (c : Dev nD) (t : Fin cfg1.N) (y : S768.Idx) : iblk1 V c 6 t y = V c main_arg5 y := by
  have ea := (by decide +kernel : ∀ t : Fin grid1.N, win1_6.index t (0 : Fin 1) = 0) t
  show V c main_arg5 (((cfg1.win 6).blk t).view.emb y) = V c main_arg5 y
  refine congrArg (V c main_arg5) (funext fun a => Fin.ext ?_)
  match a with
  | ⟨0, _⟩ => show win1_6.index t (0 : Fin 1) * 768 + 1 * (y 0).val = (y 0).val; omega

/-- Window 11's block is the whole of its vector at every point. -/
theorem whole11 (c : Dev nD) (t : Fin cfg1.N) (y : S768.Idx) : iblk1 V c 11 t y = V c main_arg7 y := by
  have ea := (by decide +kernel : ∀ t : Fin grid1.N, win1_11.index t (0 : Fin 1) = 0) t
  show V c main_arg7 (((cfg1.win 11).blk t).view.emb y) = V c main_arg7 y
  refine congrArg (V c main_arg7) (funext fun a => Fin.ext ?_)
  match a with
  | ⟨0, _⟩ => show win1_11.index t (0 : Fin 1) * 768 + 1 * (y 0).val = (y 0).val; omega

/-! ## Output window 12 -/

/-- The output's block index stays on the one column of blocks, and its row of blocks is in range. -/
theorem idx_out12 : ∀ t : Fin cfg1.N, win1_12.index t (1 : Fin 2) = 0 ∧ win1_12.index t (0 : Fin 2) ≤ 1 :=
  (by decide +kernel : ∀ t : Fin grid1.N, _)

/-- Every row of blocks is some point's. -/
theorem idx_onto12 : ∀ q0 : Fin 2, ∃ t : Fin cfg1.N, win1_12.index t (0 : Fin 2) = q0.val :=
  (by decide +kernel : ∀ q0 : Fin 2, ∃ t : Fin grid1.N, win1_12.index t (0 : Fin 2) = q0.val)

/-- What a point writes back is its block of the normalised affine value of the whole arrays. -/
theorem flushed12_eq (c : Dev nD) (t : Fin cfg1.N) :
    (dat1 (F := Ideal) V c).flushed 12 t = ((cfg1.win 12).blk t).view.read (Elt Ideal) (Cert.Spec.l2n (Cert.Spec.lin3 (V c main_v19_0) (V c main_v19_1) (V c main_v21) (V c main_v24) (V c main_v26) (V c main_v28) (V c main_arg5))) := by
  show (cfg1.win 12).cut (grid1.coords t) ((dat1 V c).after 12 t) = _
  rw [after1_12]
  unfold out1_12
  rw [View.canon_unit_zero zeros2]
  simp only [View.ld_unit_zero (S := S256x768) zeros2, View.ld_unit_zero (S := S768x768) zeros2, View.ld_unit_zero (S := S768) zeros1]
  obtain ⟨eb, ea⟩ := idx_out12 t
  funext j
  show k1_pay2 (F := Ideal) (iblk1 V c 0 t) (iblk1 V c 1 t) (iblk1 V c 2 t) (iblk1 V c 3 t) (iblk1 V c 4 t) (iblk1 V c 5 t) (iblk1 V c 6 t) j = (Cert.Spec.l2n (Cert.Spec.lin3 (V c main_v19_0) (V c main_v19_1) (V c main_v21) (V c main_v24) (V c main_v26) (V c main_v28) (V c main_arg5))) (((cfg1.win 12).blk t).view.emb j)
  refine point3 _ _ _ _ _ _ _ _ _ _ _ _ _ _ (win1_12.index t (0 : Fin 2)) (rows0 V c t) (rows1 V c t) (rows2 V c t) (whole3 V c t) (whole4 V c t) (whole5 V c t) (whole6 V c t) j _ ?_ ?_
  · show win1_12.index t (0 : Fin 2) * 256 + 1 * (j 0).val = win1_12.index t (0 : Fin 2) * 256 + (j 0).val; omega
  · show win1_12.index t (1 : Fin 2) * 768 + 1 * (j 1).val = (j 1).val; omega

/-- An index of the array is in a point's block iff each coordinate is in the block's range on its axis. -/
theorem mem_blk12 (t : Fin cfg1.N) (i : S512x768.Idx) :
    i ∈ ((cfg1.win 12).blk t).view.set ↔ ∀ a : Fin 2, win1_12.index t a * S256x768.size a ≤ (i a).val ∧ (i a).val < win1_12.index t a * S256x768.size a + S256x768.size a := by
  show i ∈ ((View.whole main_v34_0).slice (win1_12.rect t)).set ↔ _
  rw [View.set_slice_whole, Rect.mem_set_unit]
  exact Iff.rfl

/-- Every index of the array is in some point's block: row `r` in that of the point with block row `r / 256`. -/
theorem cover12 (i : S512x768.Idx) : ∃ t : Fin cfg1.N, (cfg1.win 12).flush t = true ∧ i ∈ ((cfg1.win 12).blk t).view.set := by
  have hi0 : (i 0).val < 512 := (i 0).isLt
  have hi1 : (i 1).val < 768 := (i 1).isLt
  obtain ⟨t, ht⟩ := idx_onto12 ⟨(i 0).val / 256, by omega⟩
  have ht' : win1_12.index t (0 : Fin 2) = (i 0).val / 256 := ht
  obtain ⟨eb, ea⟩ := idx_out12 t
  refine ⟨t, flush1_12 t, ?_⟩
  rw [mem_blk12]
  intro a
  match a with
  | ⟨0, _⟩ => show win1_12.index t (0 : Fin 2) * 256 ≤ (i 0).val ∧ (i 0).val < win1_12.index t (0 : Fin 2) * 256 + 256; omega
  | ⟨1, _⟩ => show win1_12.index t (1 : Fin 2) * 768 ≤ (i 1).val ∧ (i 1).val < win1_12.index t (1 : Fin 2) * 768 + 768; omega

/-! ## Output window 13 -/

/-- The output's block index stays on the one column of blocks, and its row of blocks is in range. -/
theorem idx_out13 : ∀ t : Fin cfg1.N, win1_13.index t (1 : Fin 2) = 0 ∧ win1_13.index t (0 : Fin 2) ≤ 1 :=
  (by decide +kernel : ∀ t : Fin grid1.N, _)

/-- Every row of blocks is some point's. -/
theorem idx_onto13 : ∀ q0 : Fin 2, ∃ t : Fin cfg1.N, win1_13.index t (0 : Fin 2) = q0.val :=
  (by decide +kernel : ∀ q0 : Fin 2, ∃ t : Fin grid1.N, win1_13.index t (0 : Fin 2) = q0.val)

/-- What a point writes back is its block of the normalised affine value of the whole arrays. -/
theorem flushed13_eq (c : Dev nD) (t : Fin cfg1.N) :
    (dat1 (F := Ideal) V c).flushed 13 t = ((cfg1.win 13).blk t).view.read (Elt Ideal) (Cert.Spec.l2n (Cert.Spec.lin2 (V c main_v19_2) (V c main_v19_3) (V c main_v31) (V c main_v33) (V c main_arg7))) := by
  show (cfg1.win 13).cut (grid1.coords t) ((dat1 V c).after 13 t) = _
  rw [after1_13]
  unfold out1_13
  rw [View.canon_unit_zero zeros2]
  simp only [View.ld_unit_zero (S := S256x768) zeros2, View.ld_unit_zero (S := S768x768) zeros2, View.ld_unit_zero (S := S768) zeros1]
  obtain ⟨eb, ea⟩ := idx_out13 t
  funext j
  show k1_pay1 (F := Ideal) (k1_pay3 (F := Ideal) (iblk1 V c 7 t)) (iblk1 V c 8 t) (iblk1 V c 9 t) (iblk1 V c 10 t) (iblk1 V c 11 t) j = (Cert.Spec.l2n (Cert.Spec.lin2 (V c main_v19_2) (V c main_v19_3) (V c main_v31) (V c main_v33) (V c main_arg7))) (((cfg1.win 13).blk t).view.emb j)
  refine point2 _ _ _ _ _ _ _ _ _ _ (win1_13.index t (0 : Fin 2)) (rows7 V c t) (rows8 V c t) (whole9 V c t) (whole10 V c t) (whole11 V c t) j _ ?_ ?_
  · show win1_13.index t (0 : Fin 2) * 256 + 1 * (j 0).val = win1_13.index t (0 : Fin 2) * 256 + (j 0).val; omega
  · show win1_13.index t (1 : Fin 2) * 768 + 1 * (j 1).val = (j 1).val; omega

/-- An index of the array is in a point's block iff each coordinate is in the block's range on its axis. -/
theorem mem_blk13 (t : Fin cfg1.N) (i : S512x768.Idx) :
    i ∈ ((cfg1.win 13).blk t).view.set ↔ ∀ a : Fin 2, win1_13.index t a * S256x768.size a ≤ (i a).val ∧ (i a).val < win1_13.index t a * S256x768.size a + S256x768.size a := by
  show i ∈ ((View.whole main_v34_1).slice (win1_13.rect t)).set ↔ _
  rw [View.set_slice_whole, Rect.mem_set_unit]
  exact Iff.rfl

/-- Every index of the array is in some point's block: row `r` in that of the point with block row `r / 256`. -/
theorem cover13 (i : S512x768.Idx) : ∃ t : Fin cfg1.N, (cfg1.win 13).flush t = true ∧ i ∈ ((cfg1.win 13).blk t).view.set := by
  have hi0 : (i 0).val < 512 := (i 0).isLt
  have hi1 : (i 1).val < 768 := (i 1).isLt
  obtain ⟨t, ht⟩ := idx_onto13 ⟨(i 0).val / 256, by omega⟩
  have ht' : win1_13.index t (0 : Fin 2) = (i 0).val / 256 := ht
  obtain ⟨eb, ea⟩ := idx_out13 t
  refine ⟨t, flush1_13 t, ?_⟩
  rw [mem_blk13]
  intro a
  match a with
  | ⟨0, _⟩ => show win1_13.index t (0 : Fin 2) * 256 ≤ (i 0).val ∧ (i 0).val < win1_13.index t (0 : Fin 2) * 256 + 256; omega
  | ⟨1, _⟩ => show win1_13.index t (1 : Fin 2) * 768 ≤ (i 1).val ∧ (i 1).val < win1_13.index t (1 : Fin 2) * 768 + 768; omega

theorem arr1_12 (c : Dev nD) : (dat1 (F := Ideal) V c).arrAt 12 cfg1.N
    = Cert.Spec.l2n (Cert.Spec.lin3 (V c main_v19_0) (V c main_v19_1) (V c main_v21) (V c main_v24) (V c main_v26) (V c main_v28) (V c main_arg5)) :=
  (dat1 (F := Ideal) V c).arrAt_eq_of_cover 12 _ (fun t _ => flushed12_eq V c t) cover12

theorem arr1_13 (c : Dev nD) : (dat1 (F := Ideal) V c).arrAt 13 cfg1.N
    = Cert.Spec.l2n (Cert.Spec.lin2 (V c main_v19_2) (V c main_v19_3) (V c main_v31) (V c main_v33) (V c main_arg7)) :=
  (dat1 (F := Ideal) V c).arrAt_eq_of_cover 13 _ (fun t _ => flushed13_eq V c t) cover13

end Cert.KernelIdeal.LinV

end
-- ==== Proof.HostK.lean ====
/-
  What the host operations around the two regions leave in the buffers the regions read: the dense weights (per batch row
  and source row, the number of valid positions naming the row over the number of valid positions), row 0 of the first
  argument, and the transposed 768-row blocks of the two weight matrices; the arguments and the first region's outputs
  pass through unchanged.
-/
import proofs.«400078_j39994735460380_2_alg».proof.Proof.Gen.KernelIdeal.Frame
import proofs.«400078_j39994735460380_2_alg».proof.Proof.Spec
import Idealize.ShloMosaic.Lib.Pipeline.Value
import Idealize.ShloMosaic.Lib.StableHlo.Run
import Idealize.ShloMosaic.Lib.IdealHost
set_option maxRecDepth 16384

noncomputable section

namespace Cert.KernelIdeal.HostV

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (m : (ℓ : Loc nD τ sig) → Buf (Elt Ideal) ℓ) (ρ : Dev nD → PrngReg)

/-! Region 0 is entered with the two big arguments as launched and the dense weights computed from the positions. -/

/-- No host operation before region 0 writes an argument: it still holds the launch contents. -/
theorem W1_unwritten_arg1 (c : Dev nD) : W1 m ρ c (Proc.devRef .tc main_arg1) = W0 m ρ c (Proc.devRef .tc main_arg1) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_unwritten_arg2 (c : Dev nD) : W1 m ρ c (Proc.devRef .tc main_arg2) = W0 m ρ c (Proc.devRef .tc main_arg2) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V1_arg1 (c : Dev nD) : V1 m ρ c main_arg1 = m ((c : Thread nD τ).loc main_arg1) :=
  (W1_unwritten_arg1 m ρ c).trans rfl
theorem V1_arg2 (c : Dev nD) : V1 m ρ c main_arg2 = m ((c : Thread nD τ).loc main_arg2) :=
  (W1_unwritten_arg2 m ρ c).trans rfl

/-! ### The dense weights, as the first host stretch computes them from the positions -/

section Weight
variable (P : IVec S512x32 32)

/-- Where a position is not the padding word. -/
def wvalid : IVec S512x32 1 :=
  cmpi .ne P (broadcastInDim S512x32 ![] bcast_S_S512x32 (constantI S_ 32 4294967295#32))
/-- Where a position names a source row. -/
def wnames : IVec S512x32x256 1 :=
  cmpi .eq
    (broadcastInDim S512x32x256 ![0, 1, 2] bcast_S512x32x1_S512x32x256_0_1_2
      (broadcastInDim S512x32x1 ![0, 1] bcast_S512x32_S512x32x1_0_1 P))
    (broadcastInDim S512x32x256 ![0, 1, 2] bcast_S1x1x256_S512x32x256_0_1_2
      (broadcastInDim S1x1x256 ![2] bcast_S256_S1x1x256_2 (iotaInDim S256 32 0)))
/-- The products summed over the positions. -/
def wterms : FVec Ideal S512x32x256 .f32 :=
  mulf (uitofp (F := Ideal) .f32 (wnames P))
    (broadcastInDim S512x32x256 ![0, 1, 2] bcast_S512x32x1_S512x32x256_0_1_2
      (broadcastInDim S512x32x1 ![0, 1] bcast_S512x32_S512x32x1_0_1 (uitofp (F := Ideal) .f32 (wvalid P))))
def wnumer : FVec Ideal S512x256 .f32 :=
  Host.reduceAdd (F := Ideal) (wterms P) (constant (F := Ideal) S_ .f32 0x00000000#32) reducesTo_S512x32x256_S512x256_d1 h_S_
def wcount : FVec Ideal S512 .f32 :=
  Host.reduceAdd (F := Ideal) (uitofp (F := Ideal) .f32 (wvalid P)) (constant (F := Ideal) S_ .f32 0x00000000#32) reducesTo_S512x32_S512_d1 h_S_
def wdense : FVec Ideal S512x256 .f32 :=
  Host.divf (F := Ideal) (wnumer P)
    (broadcastInDim S512x256 ![0, 1] bcast_S512x1_S512x256_0_1 (broadcastInDim S512x1 ![0] bcast_S512_S512x1_0 (wcount P)))

/-- A per-(row, position) array spread along the source rows reads its own (row, position) entry. -/
theorem spread_rows {α : Type} (Y : S512x32.Idx → α) (a : Fin 512) (p : Fin 32) (s : Fin 256) :
    broadcastInDim S512x32x256 ![0, 1, 2] bcast_S512x32x1_S512x32x256_0_1_2
      (broadcastInDim S512x32x1 ![0, 1] bcast_S512x32_S512x32x1_0_1 Y) (ix3 a p s) = Y (ix2 a p) := by
  refine (broadcastInDim_apply _ bcast_S512x32x1_S512x32x256_0_1_2 _ (ix3 a p s) (ix3 (n0 := 512) (n1 := 32) (n2 := 1) a p 0) (fun d => match d with
    | ⟨0, _⟩ => by show a.val = if (512 : Nat) = 1 then 0 else a.val; rw [if_neg (by decide)]
    | ⟨1, _⟩ => by show p.val = if (32 : Nat) = 1 then 0 else p.val; rw [if_neg (by decide)]
    | ⟨2, _⟩ => by show 0 = if (1 : Nat) = 1 then 0 else s.val; rw [if_pos rfl])).trans ?_
  exact broadcastInDim_apply _ bcast_S512x32_S512x32x1_0_1 Y _ (ix2 a p) (fun d => match d with
    | ⟨0, _⟩ => by show a.val = if (512 : Nat) = 1 then 0 else a.val; rw [if_neg (by decide)]
    | ⟨1, _⟩ => by show p.val = if (32 : Nat) = 1 then 0 else p.val; rw [if_neg (by decide)])

/-- A per-source-row array spread along the rows and the positions reads its own source-row entry. -/
theorem spread_src {α : Type} (Z : S256.Idx → α) (a : Fin 512) (p : Fin 32) (s : Fin 256) :
    broadcastInDim S512x32x256 ![0, 1, 2] bcast_S1x1x256_S512x32x256_0_1_2
      (broadcastInDim S1x1x256 ![2] bcast_S256_S1x1x256_2 Z) (ix3 a p s) = Z (ix1 s) := by
  refine (broadcastInDim_apply _ bcast_S1x1x256_S512x32x256_0_1_2 _ (ix3 a p s) (ix3 (n0 := 1) (n1 := 1) (n2 := 256) 0 0 s) (fun d => match d with
    | ⟨0, _⟩ => by show 0 = if (1 : Nat) = 1 then 0 else a.val; rw [if_pos rfl]
    | ⟨1, _⟩ => by show 0 = if (1 : Nat) = 1 then 0 else p.val; rw [if_pos rfl]
    | ⟨2, _⟩ => by show s.val = if (256 : Nat) = 1 then 0 else s.val; rw [if_neg (by decide)])).trans ?_
  exact broadcastInDim_apply _ bcast_S256_S1x1x256_2 Z _ (ix1 s) (fun d => match d with
    | ⟨0, _⟩ => by show s.val = if (256 : Nat) = 1 then 0 else s.val; rw [if_neg (by decide)])

/-- A per-row array spread along the source rows reads its own row entry. -/
theorem spread_cols {α : Type} (Z : S512.Idx → α) (i : S512x256.Idx) :
    broadcastInDim S512x256 ![0, 1] bcast_S512x1_S512x256_0_1
      (broadcastInDim S512x1 ![0] bcast_S512_S512x1_0 Z) i = Z (ix1 (i 0)) := by
  refine (broadcastInDim_apply _ bcast_S512x1_S512x256_0_1 _ i (ix2 (n0 := 512) (n1 := 1) (i 0) 0) (fun d => match d with
    | ⟨0, _⟩ => by show (i 0).val = if (512 : Nat) = 1 then 0 else (i 0).val; rw [if_neg (by decide)]
    | ⟨1, _⟩ => by show 0 = if (1 : Nat) = 1 then 0 else (i 1).val; rw [if_pos rfl])).trans ?_
  exact broadcastInDim_apply _ bcast_S512_S512x1_0 Z _ (ix1 (i 0)) (fun d => match d with
    | ⟨0, _⟩ => by show (i 0).val = if (512 : Nat) = 1 then 0 else (i 0).val; rw [if_neg (by decide)])

/-- The validity flag of a position, as a number, is the specification's mask. -/
theorem wvalid_apply (a : Fin 512) (p : Fin 32) :
    uitofp (F := Ideal) .f32 (wvalid P) (ix2 a p) = Cert.Spec.mask P a p := rfl

/-- One product: whether the position names the source row, times whether it is valid. -/
theorem wterms_apply (a : Fin 512) (p : Fin 32) (s : Fin 256) :
    wterms P (ix3 a p s) = Cert.Spec.hit P a p s * Cert.Spec.mask P a p := by
  show (((IntOp.cmpi .eq
        (broadcastInDim S512x32x256 ![0, 1, 2] bcast_S512x32x1_S512x32x256_0_1_2
          (broadcastInDim S512x32x1 ![0, 1] bcast_S512x32_S512x32x1_0_1 P) (ix3 a p s))
        (broadcastInDim S512x32x256 ![0, 1, 2] bcast_S1x1x256_S512x32x256_0_1_2
          (broadcastInDim S1x1x256 ![2] bcast_S256_S1x1x256_2 (iotaInDim S256 32 0)) (ix3 a p s))).toNat : ℝ) : EReal)
      * broadcastInDim S512x32x256 ![0, 1, 2] bcast_S512x32x1_S512x32x256_0_1_2
          (broadcastInDim S512x32x1 ![0, 1] bcast_S512x32_S512x32x1_0_1 (uitofp (F := Ideal) .f32 (wvalid P))) (ix3 a p s) = _
  rw [spread_rows, spread_src, spread_rows, wvalid_apply]
  rfl

theorem wnumer_apply (i : S512x256.Idx) :
    wnumer P i = ∑ p : Fin 32, Cert.Spec.hit P (i 0) p (i 1) * Cert.Spec.mask P (i 0) p := by
  have hR : S512x32x256.Reduces [1] S512x256 := by decide
  unfold wnumer
  rw [hostReduceAdd_apply, Ideal.hostReduceAdd_single reducesTo_S512x32x256_S512x256_d1 hR]
  show Ideal.ofBits .f32 0x00000000#32 + _ = _
  rw [Ideal.ofBits_zero_f32, zero_add]
  refine Finset.sum_congr rfl fun p _ => ?_
  rw [show hR.lift i p = ix3 (i 0) p (i 1) from
    funext fun d => Fin.ext (by match d with | ⟨0, _⟩ => rfl | ⟨1, _⟩ => rfl | ⟨2, _⟩ => rfl)]
  exact wterms_apply P (i 0) p (i 1)

theorem wcount_apply (b : S512.Idx) : wcount P b = Cert.Spec.cnt P (b 0) := by
  have hR : S512x32.Reduces [1] S512 := by decide
  unfold wcount
  rw [hostReduceAdd_apply, Ideal.hostReduceAdd_single reducesTo_S512x32_S512_d1 hR]
  show Ideal.ofBits .f32 0x00000000#32 + _ = _
  rw [Ideal.ofBits_zero_f32, zero_add]
  unfold Cert.Spec.cnt
  refine Finset.sum_congr rfl fun p _ => ?_
  rw [show hR.lift b p = ix2 (b 0) p from
    funext fun d => Fin.ext (by match d with | ⟨0, _⟩ => rfl | ⟨1, _⟩ => rfl)]
  exact wvalid_apply P (b 0) p

theorem wdense_apply (i : S512x256.Idx) : wdense P i = Cert.Spec.weight P i := by
  show Ideal.div (wnumer P i)
    (broadcastInDim S512x256 ![0, 1] bcast_S512x1_S512x256_0_1 (broadcastInDim S512x1 ![0] bcast_S512_S512x1_0 (wcount P)) i) = _
  rw [wnumer_apply, spread_cols, wcount_apply]
  rfl

end Weight

/-- The first host stretch, run over any buffer contents, leaves in its last result the dense weights of the positions
    it started with. -/
theorem after_hostOps0_v18 (F0 : Valuation τ sig (Elt Ideal)) :
    (StableHlo.after hostOps0 F0 (Proc.devRef .tc main_v18) : S512x256.Idx → EReal)
      = wdense (F0 (Proc.devRef .tc main_arg3)) := by
  dsimp only [hostOps0]; after_results; rfl

theorem V1_weight (c : Dev nD) : V1 m ρ c main_v18 = Cert.Spec.weight (m ((c : Thread nD τ).loc main_arg3)) :=
  (after_hostOps0_v18 (W0 m ρ c)).trans (funext fun i => wdense_apply _ i)

/-! Region 1 is entered with region 0's four outputs as region 0 left them, and the host's slices of the arguments. -/

/-- An argument that neither the first host stretch nor region 0 writes still holds the launch contents when the
    second host stretch starts. -/
theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg0) := rfl
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg4) := rfl
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg5) := rfl
theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg6) := rfl
theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg7) := rfl

theorem V3_v19_0 (c : Dev nD) : V3 m ρ c main_v19_0 = (dat0 (F := Ideal) (V1 m ρ) c).arrAt 3 cfg0.N :=
  calc V3 m ρ c main_v19_0
    _ = W2 m ρ c (Proc.devRef .tc main_v19_0) := StableHlo.after_of_forall_not_mem (b := Proc.devRef .tc main_v19_0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = (dat0 (F := Ideal) (V1 m ρ) c).arrAt 3 cfg0.N := W2_arr m ρ c 3
theorem V3_v19_1 (c : Dev nD) : V3 m ρ c main_v19_1 = (dat0 (F := Ideal) (V1 m ρ) c).arrAt 4 cfg0.N :=
  calc V3 m ρ c main_v19_1
    _ = W2 m ρ c (Proc.devRef .tc main_v19_1) := StableHlo.after_of_forall_not_mem (b := Proc.devRef .tc main_v19_1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = (dat0 (F := Ideal) (V1 m ρ) c).arrAt 4 cfg0.N := W2_arr m ρ c 4
theorem V3_v19_2 (c : Dev nD) : V3 m ρ c main_v19_2 = (dat0 (F := Ideal) (V1 m ρ) c).arrAt 5 cfg0.N :=
  calc V3 m ρ c main_v19_2
    _ = W2 m ρ c (Proc.devRef .tc main_v19_2) := StableHlo.after_of_forall_not_mem (b := Proc.devRef .tc main_v19_2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = (dat0 (F := Ideal) (V1 m ρ) c).arrAt 5 cfg0.N := W2_arr m ρ c 5
theorem V3_v19_3 (c : Dev nD) : V3 m ρ c main_v19_3 = (dat0 (F := Ideal) (V1 m ρ) c).arrAt 6 cfg0.N :=
  calc V3 m ρ c main_v19_3
    _ = W2 m ρ c (Proc.devRef .tc main_v19_3) := StableHlo.after_of_forall_not_mem (b := Proc.devRef .tc main_v19_3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = (dat0 (F := Ideal) (V1 m ρ) c).arrAt 6 cfg0.N := W2_arr m ρ c 6

/-- Source row 0 of every batch row, as the host spells it: a unit slice along the source rows, the unit axis dropped. -/
theorem sent_read (X : FVec Ideal S512x256x768 .f32) (i : S512x768.Idx) :
    shapeCast S512x768 (extractStridedSlice S512x1x768 ![0, 0, 0] X slices_S512x256x768_S512x1x768_0_0_0)
      shapeCasts_S512x1x768_S512x768 i = Cert.Spec.sent X i := by
  refine (shapeCast_apply _ shapeCasts_S512x1x768_S512x768 i (ix3 (n0 := 512) (n1 := 1) (n2 := 768) (i 0) 0 (i 1)) ?_).trans ?_
  · rewrite [Shape.rowMajor_val_three, Shape.rowMajor_val_two]
    show ((i 0).val * 1 + 0) * 768 + (i 1).val = (i 0).val * 768 + (i 1).val
    omega
  · exact extractStridedSlice_apply ![0, 0, 0] X slices_S512x256x768_S512x1x768_0_0_0 _
      (ix3 (n0 := 512) (n1 := 256) (n2 := 768) (i 0) 0 (i 1)) (fun a => match a with
        | ⟨0, _⟩ => by show (i 0).val = 0 + (i 0).val; omega
        | ⟨1, _⟩ => rfl
        | ⟨2, _⟩ => by show (i 1).val = 0 + (i 1).val; omega)

theorem V3_v21 (c : Dev nD) : V3 m ρ c main_v21 = Cert.Spec.sent (m ((c : Thread nD τ).loc main_arg0)) := by
  have e : (V3 m ρ c main_v21 : S512x768.Idx → EReal)
      = shapeCast S512x768 (extractStridedSlice S512x1x768 ![0, 0, 0]
          (W2 m ρ c (Proc.devRef .tc main_arg0) : FVec Ideal S512x256x768 .f32) slices_S512x256x768_S512x1x768_0_0_0)
          shapeCasts_S512x1x768_S512x768 := by
    dsimp only [V3, W3, hostOps1]; after_results; rfl
  refine e.trans ?_
  rw [W2_arg0 m ρ c]
  exact funext fun i => sent_read _ i

/-- A 768-row block of the transposed weight matrix, narrowed to the 16-bit format (the identity over the extended
    reals), is that block of the matrix read with its two coordinates exchanged. -/
theorem blockT4_read (X : FVec Ideal S768x2304 .f32) (off : Nat) (h : off + 768 ≤ 2304)
    (hs : S2304x768.Slices ![off, 0] S768x768) (j : S768x768.Idx) :
    truncf (F := Ideal) .bf16 (extractStridedSlice S768x768 ![off, 0] (transpose S2304x768 [1, 0] X transposes_S768x2304_S2304x768_1_0) hs) bitsLt_bf16_f32 j
      = Cert.Spec.blockT X off h j := by
  have h0 : (j 0).val < 768 := (j 0).isLt
  show extractStridedSlice S768x768 ![off, 0] (transpose S2304x768 [1, 0] X transposes_S768x2304_S2304x768_1_0) hs j = _
  refine (extractStridedSlice_apply ![off, 0] _ hs j (ix2 (n0 := 2304) (n1 := 768) ⟨off + (j 0).val, by omega⟩ (j 1)) (fun a => match a with
    | ⟨0, _⟩ => rfl
    | ⟨1, _⟩ => by show (j 1).val = 0 + (j 1).val; omega)).trans ?_
  exact transpose_apply [1, 0] X transposes_S768x2304_S2304x768_1_0 _ (ix2 (n0 := 768) (n1 := 2304) (j 1) ⟨off + (j 0).val, by omega⟩) (fun b => match b with
    | ⟨0, _⟩ => rfl
    | ⟨1, _⟩ => rfl)

theorem blockT6_read (X : FVec Ideal S768x1536 .f32) (off : Nat) (h : off + 768 ≤ 1536)
    (hs : S1536x768.Slices ![off, 0] S768x768) (j : S768x768.Idx) :
    truncf (F := Ideal) .bf16 (extractStridedSlice S768x768 ![off, 0] (transpose S1536x768 [1, 0] X transposes_S768x1536_S1536x768_1_0) hs) bitsLt_bf16_f32 j
      = Cert.Spec.blockT X off h j := by
  have h0 : (j 0).val < 768 := (j 0).isLt
  show extractStridedSlice S768x768 ![off, 0] (transpose S1536x768 [1, 0] X transposes_S768x1536_S1536x768_1_0) hs j = _
  refine (extractStridedSlice_apply ![off, 0] _ hs j (ix2 (n0 := 1536) (n1 := 768) ⟨off + (j 0).val, by omega⟩ (j 1)) (fun a => match a with
    | ⟨0, _⟩ => rfl
    | ⟨1, _⟩ => by show (j 1).val = 0 + (j 1).val; omega)).trans ?_
  exact transpose_apply [1, 0] X transposes_S768x1536_S1536x768_1_0 _ (ix2 (n0 := 768) (n1 := 1536) (j 1) ⟨off + (j 0).val, by omega⟩) (fun b => match b with
    | ⟨0, _⟩ => rfl
    | ⟨1, _⟩ => rfl)

theorem V3_v24 (c : Dev nD) : V3 m ρ c main_v24 = Cert.Spec.blockT (m ((c : Thread nD τ).loc main_arg4)) 0 (by omega) := by
  have e : (V3 m ρ c main_v24 : S768x768.Idx → EReal)
      = truncf (F := Ideal) .bf16 (extractStridedSlice S768x768 ![0, 0] (transpose S2304x768 [1, 0]
          (W2 m ρ c (Proc.devRef .tc main_arg4) : FVec Ideal S768x2304 .f32) transposes_S768x2304_S2304x768_1_0) slices_S2304x768_S768x768_0_0) bitsLt_bf16_f32 := by
    dsimp only [V3, W3, hostOps1]; after_results
  refine e.trans ?_
  rw [W2_arg4 m ρ c]
  exact funext fun j => blockT4_read _ 0 (by omega) slices_S2304x768_S768x768_0_0 j

theorem V3_v26 (c : Dev nD) : V3 m ρ c main_v26 = Cert.Spec.blockT (m ((c : Thread nD τ).loc main_arg4)) 768 (by omega) := by
  have e : (V3 m ρ c main_v26 : S768x768.Idx → EReal)
      = truncf (F := Ideal) .bf16 (extractStridedSlice S768x768 ![768, 0] (transpose S2304x768 [1, 0]
          (W2 m ρ c (Proc.devRef .tc main_arg4) : FVec Ideal S768x2304 .f32) transposes_S768x2304_S2304x768_1_0) slices_S2304x768_S768x768_768_0) bitsLt_bf16_f32 := by
    dsimp only [V3, W3, hostOps1]; after_results
  refine e.trans ?_
  rw [W2_arg4 m ρ c]
  exact funext fun j => blockT4_read _ 768 (by omega) slices_S2304x768_S768x768_768_0 j

theorem V3_v28 (c : Dev nD) : V3 m ρ c main_v28 = Cert.Spec.blockT (m ((c : Thread nD τ).loc main_arg4)) 1536 (by omega) := by
  have e : (V3 m ρ c main_v28 : S768x768.Idx → EReal)
      = truncf (F := Ideal) .bf16 (extractStridedSlice S768x768 ![1536, 0] (transpose S2304x768 [1, 0]
          (W2 m ρ c (Proc.devRef .tc main_arg4) : FVec Ideal S768x2304 .f32) transposes_S768x2304_S2304x768_1_0) slices_S2304x768_S768x768_1536_0) bitsLt_bf16_f32 := by
    dsimp only [V3, W3, hostOps1]; after_results
  refine e.trans ?_
  rw [W2_arg4 m ρ c]
  exact funext fun j => blockT4_read _ 1536 (by omega) slices_S2304x768_S768x768_1536_0 j

theorem V3_v31 (c : Dev nD) : V3 m ρ c main_v31 = Cert.Spec.blockT (m ((c : Thread nD τ).loc main_arg6)) 0 (by omega) := by
  have e : (V3 m ρ c main_v31 : S768x768.Idx → EReal)
      = truncf (F := Ideal) .bf16 (extractStridedSlice S768x768 ![0, 0] (transpose S1536x768 [1, 0]
          (W2 m ρ c (Proc.devRef .tc main_arg6) : FVec Ideal S768x1536 .f32) transposes_S768x1536_S1536x768_1_0) slices_S1536x768_S768x768_0_0) bitsLt_bf16_f32 := by
    dsimp only [V3, W3, hostOps1]; after_results
  refine e.trans ?_
  rw [W2_arg6 m ρ c]
  exact funext fun j => blockT6_read _ 0 (by omega) slices_S1536x768_S768x768_0_0 j

theorem V3_v33 (c : Dev nD) : V3 m ρ c main_v33 = Cert.Spec.blockT (m ((c : Thread nD τ).loc main_arg6)) 768 (by omega) := by
  have e : (V3 m ρ c main_v33 : S768x768.Idx → EReal)
      = truncf (F := Ideal) .bf16 (extractStridedSlice S768x768 ![768, 0] (transpose S1536x768 [1, 0]
          (W2 m ρ c (Proc.devRef .tc main_arg6) : FVec Ideal S768x1536 .f32) transposes_S768x1536_S1536x768_1_0) slices_S1536x768_S768x768_768_0) bitsLt_bf16_f32 := by
    dsimp only [V3, W3, hostOps1]; after_results
  refine e.trans ?_
  rw [W2_arg6 m ρ c]
  exact funext fun j => blockT6_read _ 768 (by omega) slices_S1536x768_S768x768_768_0 j

theorem V3_arg5 (c : Dev nD) : V3 m ρ c main_arg5 = m ((c : Thread nD τ).loc main_arg5) :=
  (StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg5 m ρ c)
theorem V3_arg7 (c : Dev nD) : V3 m ρ c main_arg7 = m ((c : Thread nD τ).loc main_arg7) :=
  (StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg7 m ρ c)

end Cert.KernelIdeal.HostV

end
-- ==== Proof.KernelValue.lean ====
/-
  The kernel program's two results as the functions of Spec.lean: the run of its two regions among the host operations,
  each region's output arrays read as functions of the arrays it is entered with, composed back to the arguments.
-/
import proofs.«400078_j39994735460380_2_alg».proof.Proof.RunK
import proofs.«400078_j39994735460380_2_alg».proof.Proof.Pool
import proofs.«400078_j39994735460380_2_alg».proof.Proof.LinNorm
import proofs.«400078_j39994735460380_2_alg».proof.Proof.HostK

set_option maxRecDepth 16384

noncomputable section

namespace Cert.KernelIdeal.KV

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The first result: region 1's first output array, which is the normalised affine map of region 0's pooled and
    row-0 arrays of the second argument, the row-0 slice of the first, and the weight blocks. -/
theorem out0 (c : Dev nD) : W4 m ρ c (Proc.devRef .tc main_v34_0)
    = Cert.Spec.outK0 (m ((c : Thread nD τ).loc main_arg0)) (m ((c : Thread nD τ).loc main_arg1))
        (m ((c : Thread nD τ).loc main_arg3)) (m ((c : Thread nD τ).loc main_arg4)) (m ((c : Thread nD τ).loc main_arg5)) := by
  refine (W4_arr m ρ c 12).trans ?_
  rw [Cert.KernelIdeal.LinV.arr1_12 (V3 m ρ) c]
  rw [Cert.KernelIdeal.HostV.V3_v19_0, Cert.KernelIdeal.HostV.V3_v19_1, Cert.KernelIdeal.HostV.V3_v21,
    Cert.KernelIdeal.HostV.V3_v24, Cert.KernelIdeal.HostV.V3_v26, Cert.KernelIdeal.HostV.V3_v28, Cert.KernelIdeal.HostV.V3_arg5]
  rw [Cert.KernelIdeal.PoolV.arr0_3 (V1 m ρ) c, Cert.KernelIdeal.PoolV.arr0_4 (V1 m ρ) c]
  rw [Cert.KernelIdeal.HostV.V1_arg1, Cert.KernelIdeal.HostV.V1_weight]
  rfl

/-- The second result, likewise from the third argument and the second weight matrix. -/
theorem out1 (c : Dev nD) : W4 m ρ c (Proc.devRef .tc main_v34_1)
    = Cert.Spec.outK1 (m ((c : Thread nD τ).loc main_arg2)) (m ((c : Thread nD τ).loc main_arg3))
        (m ((c : Thread nD τ).loc main_arg6)) (m ((c : Thread nD τ).loc main_arg7)) := by
  refine (W4_arr m ρ c 13).trans ?_
  rw [Cert.KernelIdeal.LinV.arr1_13 (V3 m ρ) c]
  rw [Cert.KernelIdeal.HostV.V3_v19_2, Cert.KernelIdeal.HostV.V3_v19_3,
    Cert.KernelIdeal.HostV.V3_v31, Cert.KernelIdeal.HostV.V3_v33, Cert.KernelIdeal.HostV.V3_arg7]
  rw [Cert.KernelIdeal.PoolV.arr0_5 (V1 m ρ) c, Cert.KernelIdeal.PoolV.arr0_6 (V1 m ρ) c]
  rw [Cert.KernelIdeal.HostV.V1_arg2, Cert.KernelIdeal.HostV.V1_weight]
  rfl

/-- The kernel program's run with its results named: every weakly fair execution ends with the two result arrays at
    `outK0` / `outK1` of the argument arrays and the arguments unchanged. -/
theorem run : θ_run defs (onTc (τ := τ) (main (F := Ideal))) ⟨m, fun _ => 0, ρ⟩ (fun r => ∀ c : Dev nD,
      r.2.mem ((c.tc : Thread nD τ).loc main_v34_0)
        = Cert.Spec.outK0 (m ((c.tc : Thread nD τ).loc main_arg0)) (m ((c.tc : Thread nD τ).loc main_arg1))
            (m ((c.tc : Thread nD τ).loc main_arg3)) (m ((c.tc : Thread nD τ).loc main_arg4)) (m ((c.tc : Thread nD τ).loc main_arg5))
      ∧ r.2.mem ((c.tc : Thread nD τ).loc main_v34_1)
        = Cert.Spec.outK1 (m ((c.tc : Thread nD τ).loc main_arg2)) (m ((c.tc : Thread nD τ).loc main_arg3))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (out0 m ρ c), (h c).2.1.trans (out1 m ρ c), (h c).2.2⟩)
    (Cert.KernelIdeal.GenR.run_results m ρ)

end Cert.KernelIdeal.KV

end
-- ==== Proof.LibNary3.lean ====
/-
  A host operation over a literal family of THREE operand buffers (a three-piece concatenate): its result with each
  operand's contents at its own buffer, so that the operands' contents can be rewritten further.
-/
import Idealize.ShloMosaic.Lib.StableHlo.Run

namespace Idealize.ShloMosaic.StableHlo

open Idealize.ShloMosaic

variable {nD : Nat} {τ : Topo} {sig : RefSig} {Val : EltTy → Type}
variable {x a b y : Ref sig .tc}

/-- The result buffer of an operation reading three buffers `![x, a, b]` holds the operation's function of the three
    buffers' contents, each named by its own buffer (`Fin.cons` at the positions 0, 1, 2) rather than through the family
    under a binder. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result buffer's pattern un-indexed, for use as a simp lemma. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo
-- ==== Proof.RefPool.lean ====
/-
  The reference's pooling read index by index: the masked mean of the gathered rows (Spec.lean `poolR`), and the
  row-0 slices (`sent`).
-/
import proofs.«400078_j39994735460380_2_alg».proof.Proof.RefRead
import proofs.«400078_j39994735460380_2_alg».proof.Proof.Spec
import Idealize.ShloMosaic.PureOps.Ideal.Laws

noncomputable section

namespace Cert.ReferenceIdeal.RefPool

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.ReadP

/-- The batched gather read at an index: row `b` of the operand at the start index `idx[b, p, 0]`, read signed and clamped
    into the axis, column `h`. -/
theorem gather_apply (x : (⟨S512x256x768, .f32⟩ : BufTy).Contents (Elt Ideal)) (idx : IVec S512x32x1 32) (b : Fin 512) (p : Fin 32) (h : Fin 768) :
    Host.gather gather_S512x256x768_S512x32x1_S512x32x768_2_1_0_0_1_2_11768 x idx (ix3 b p h)
      = x (ix3 b ⟨min (idx (ix3 b p 0)).toInt.toNat 255, by omega⟩ h) := by
  unfold Host.gather
  refine congrArg x ?_
  funext a
  refine Fin.ext ?_
  match a with
  | ⟨0, _⟩ =>
    -- the batching axis: the result's batch coordinate paired with it
    show gather_S512x256x768_S512x32x1_S512x32x768_2_1_0_0_1_2_11768.start (ix3 b p h) idx (0 : Fin 3)
        + gather_S512x256x768_S512x32x1_S512x32x768_2_1_0_0_1_2_11768.batchCoord (ix3 b p h) (0 : Fin 3)
        + gather_S512x256x768_S512x32x1_S512x32x768_2_1_0_0_1_2_11768.offCoord (ix3 b p h) (0 : Fin 3) = b.val
    rw [GatherDims.start_batching _ _ _ _ (List.mem_singleton.mpr rfl),
      GatherDims.offCoord_eq_zero _ _ _ (fun hm => ((GatherDims.mem_sKept _ _).mp hm).2 (List.mem_singleton.mpr rfl))]
    simp only [Nat.zero_add, Nat.add_zero]
    unfold GatherDims.batchCoord
    rw [dif_pos (show (0 : Fin 3) ∈ gather_S512x256x768_S512x32x1_S512x32x768_2_1_0_0_1_2_11768.operandBatchingDims from
      List.mem_singleton.mpr rfl)]
    rfl
  | ⟨1, _⟩ =>
    -- the collapsed axis: the clamped start index
    show gather_S512x256x768_S512x32x1_S512x32x768_2_1_0_0_1_2_11768.start (ix3 b p h) idx (1 : Fin 3)
        + gather_S512x256x768_S512x32x1_S512x32x768_2_1_0_0_1_2_11768.batchCoord (ix3 b p h) (1 : Fin 3)
        + gather_S512x256x768_S512x32x1_S512x32x768_2_1_0_0_1_2_11768.offCoord (ix3 b p h) (1 : Fin 3)
        = min (idx (ix3 b p 0)).toInt.toNat 255
    rw [GatherDims.batchCoord_eq_zero _ _ _ (by decide),
      GatherDims.offCoord_eq_zero _ _ _ (fun hm => ((GatherDims.mem_sKept _ _).mp hm).1 (List.mem_singleton.mpr rfl))]
    simp only [Nat.add_zero]
    unfold GatherDims.start
    rw [dif_pos (show (1 : Fin 3) ∈ gather_S512x256x768_S512x32x1_S512x32x768_2_1_0_0_1_2_11768.startIndexMap from
      List.mem_singleton.mpr rfl)]
    have hsi : gather_S512x256x768_S512x32x1_S512x32x768_2_1_0_0_1_2_11768.siIdx (ix3 b p h)
        ⟨List.idxOf (1 : Fin 3) gather_S512x256x768_S512x32x1_S512x32x768_2_1_0_0_1_2_11768.startIndexMap,
          List.idxOf_lt_length_iff.2 (List.mem_singleton.mpr rfl)⟩ = ix3 b p 0 := by
      funext c; refine Fin.ext ?_
      match c with
      | ⟨0, _⟩ => rfl
      | ⟨1, _⟩ => rfl
      | ⟨2, _⟩ => rfl
    rw [hsi]
    rfl
  | ⟨2, _⟩ =>
    -- the offset axis: the result's column
    show gather_S512x256x768_S512x32x1_S512x32x768_2_1_0_0_1_2_11768.start (ix3 b p h) idx (2 : Fin 3)
        + gather_S512x256x768_S512x32x1_S512x32x768_2_1_0_0_1_2_11768.batchCoord (ix3 b p h) (2 : Fin 3)
        + gather_S512x256x768_S512x32x1_S512x32x768_2_1_0_0_1_2_11768.offCoord (ix3 b p h) (2 : Fin 3) = h.val
    rw [GatherDims.batchCoord_eq_zero _ _ _ (by decide)]
    unfold GatherDims.start
    rw [dif_neg (by decide)]
    unfold GatherDims.offCoord
    rw [dif_pos ((GatherDims.mem_sKept _ _).mpr ⟨by decide, by decide⟩)]
    simp only [Nat.zero_add, Nat.add_zero]
    rfl

/-- A conjunction from the bit `1` over a unit axis is the element. -/
theorem andRed_apply (x : IVec S512x32x1 1) (b : Fin 512) (p : Fin 32) :
    Host.reduce IntOp.andi x (constantI S_ 1 1#1) reducesTo_S512x32x1_S512x32_d2 h_S_ (ix2 b p) = x (ix3 b p 0) := by
  have hR : S512x32x1.Reduces [2] S512x32 := by decide
  rw [Host.reduce_eq_fold_single IntOp.andi x _ reducesTo_S512x32x1_S512x32_d2 hR h_S_]
  show Finset.fold IntOp.andi (1#1) (fun k : Fin 1 => x (hR.lift (ix2 b p) k)) (Finset.univ : Finset (Fin 1)) = _
  rw [Finset.univ_unique, Finset.fold_singleton]
  show IntOp.andi (x (hR.lift (ix2 b p) (0 : Fin 1))) 1#1 = _
  have hl : hR.lift (ix2 b p) (0 : Fin 1) = ix3 b p 0 := by
    funext c; refine Fin.ext ?_
    match c with
    | ⟨0, _⟩ => rfl
    | ⟨1, _⟩ => rfl
    | ⟨2, _⟩ => rfl
  rw [hl]
  generalize x (ix3 b p 0) = w
  unfold IntOp.andi
  rcases BitVec.eq_zero_or_eq_one w with rfl | rfl <;> decide

/-- The gather read at an index whose start word is known. -/
theorem gather_apply_of (x : (⟨S512x256x768, .f32⟩ : BufTy).Contents (Elt Ideal)) (idx : IVec S512x32x1 32) (b : Fin 512) (p : Fin 32) (h : Fin 768)
    (w : BitVec 32) (hw : idx (ix3 b p 0) = w) :
    Host.gather gather_S512x256x768_S512x32x1_S512x32x768_2_1_0_0_1_2_11768 x idx (ix3 b p h)
      = x (ix3 b ⟨min w.toInt.toNat 255, by omega⟩ h) := by
  subst hw
  exact gather_apply x idx b p h

section Processed
variable (x1 : (⟨S512x256x768, .f32⟩ : BufTy).Contents (Elt Ideal)) (x3 : (⟨S512x32, .i32⟩ : BufTy).Contents (Elt Ideal))

/-- The validity bit of position `(b, p)`. -/
theorem val_main_v3_at (b : Fin 512) (p : Fin 32) :
    val_main_v3 (F := Ideal) x3 (ix2 b p) = IntOp.cmpi .ne (x3 (ix2 b p)) 4294967295#32 := by
  rw [val_main_v3_apply, val_main_v2_apply, val_main_c_apply]

/-- The position word made safe. -/
theorem val_main_v4_at (b : Fin 512) (p : Fin 32) :
    val_main_v4 (F := Ideal) x3 (ix2 b p) = Cert.Spec.safeIdx (x3 (ix2 b p)) := by
  rw [val_main_v4_apply, val_main_v3_at, val_main_call0_v1_apply, val_main_call0_v0_apply, val_main_c_0_apply]
  rfl

theorem val_main_v5_at (b : Fin 512) (p : Fin 32) :
    val_main_v5 (F := Ideal) x3 (ix3 b p (0 : Fin 1)) = Cert.Spec.safeIdx (x3 (ix2 b p)) := by
  rw [val_main_v5_apply]
  have e : idx_main_v5 (ix3 b p (0 : Fin 1)) = ix2 b p :=
    funext fun a => Fin.ext (by match a with | ⟨0, _⟩ => rfl | ⟨1, _⟩ => rfl)
  rw [e, val_main_v4_at]

/-- The start word of the gather: the safe word counted from the end of the axis when negative. -/
theorem val_main_call1_v4_at (b : Fin 512) (p : Fin 32) :
    val_main_call1_v4 (F := Ideal) x3 (ix3 b p (0 : Fin 1)) = Cert.Spec.normIdx (Cert.Spec.safeIdx (x3 (ix2 b p))) := by
  rw [val_main_call1_v4_apply, val_main_call1_v1_apply, val_main_call1_v3_apply, val_main_v5_at, val_main_call1_v0_apply, val_main_call1_c_apply,
    val_main_call1_v2_apply, val_main_call1_c_0_apply]
  rfl

/-- Whether the start word is a row of the axis. -/
theorem val_main_call1_v10_at (b : Fin 512) (p : Fin 32) :
    val_main_call1_v10 (F := Ideal) x3 (ix3 b p (0 : Fin 1)) = Cert.Spec.inb (Cert.Spec.normIdx (Cert.Spec.safeIdx (x3 (ix2 b p)))) := by
  rw [val_main_call1_v10_apply, val_main_call1_v6_apply, val_main_call1_v9_apply, val_main_call1_v4_at, val_main_call1_v5_apply, val_main_call1_c_2_apply,
    val_main_call1_v8_apply, val_main_call1_v7_apply, val_main_call1_c_1_apply]
  rfl

theorem val_main_call1_v11_at (b : Fin 512) (p : Fin 32) :
    val_main_call1_v11 (F := Ideal) x3 (ix2 b p) = Cert.Spec.inb (Cert.Spec.normIdx (Cert.Spec.safeIdx (x3 (ix2 b p)))) := by
  unfold val_main_call1_v11
  exact (andRed_apply _ b p).trans (val_main_call1_v10_at x3 b p)

/-- What the gather-and-select takes for position `(b, p)` at column `h`. -/
theorem val_main_v6_at (b : Fin 512) (p : Fin 32) (h : Fin 768) :
    val_main_v6 (F := Ideal) x1 x3 (ix3 b p h) = Cert.Spec.taken x1 x3 b p h := by
  rw [val_main_v6_apply, val_main_call1_v13_apply]
  have e : idx_main_call1_v13 (ix3 b p h) = ix2 b p :=
    funext fun a => Fin.ext (by match a with | ⟨0, _⟩ => rfl | ⟨1, _⟩ => rfl)
  rw [e, val_main_call1_v11_at, val_main_call1_v14_apply, val_main_call1_cst_apply]
  unfold val_main_call1_v12
  rw [gather_apply_of x1 _ b p h _ (val_main_call1_v4_at x3 b p)]
  rfl

/-- The mask of position `(b, p)`, spread over the columns. -/
theorem val_main_v9_at (b : Fin 512) (p : Fin 32) (h : Fin 768) :
    val_main_v9 (F := Ideal) x3 (ix3 b p h) = Cert.Spec.mask x3 b p := by
  rw [val_main_v9_apply, val_main_v8_apply, val_main_v7_apply]
  have e : idx_main_v8 (idx_main_v9 (ix3 b p h)) = ix2 b p :=
    funext fun a => Fin.ext (by match a with | ⟨0, _⟩ => rfl | ⟨1, _⟩ => rfl)
  rw [e, val_main_v3_at]
  rfl

end Processed

theorem pooled_proc (x1 : (⟨S512x256x768, .f32⟩ : BufTy).Contents (Elt Ideal)) (x3 : (⟨S512x32, .i32⟩ : BufTy).Contents (Elt Ideal)) : val_main_v14 (F := Ideal) x1 x3 = Cert.Spec.poolR x1 x3 := by
  funext i
  obtain ⟨b, h, rfl⟩ : ∃ (b : Fin 512) (h : Fin 768), i = ix2 b h := ⟨i 0, i 1, eq_ix2 i⟩
  rw [val_main_v14_apply, val_main_v11_apply, val_main_v13_apply, val_main_v12_apply, val_main_cst_apply, val_main_cst_1_apply]
  show Ideal.div (Ideal.ofBits .f32 0x00000000#32 + ∑ k : Fin 32, val_main_v10 (F := Ideal) x1 x3 (idx_main_v11 (ix2 b h) k))
      (Ideal.ofBits .f32 0x00000000#32 + ∑ k : Fin 32, val_main_v8 (F := Ideal) x3 (idx_main_v12 (idx_main_v13 (ix2 b h)) k))
    = Ideal.div (∑ p : Fin 32, Cert.Spec.taken x1 x3 b p h * Cert.Spec.mask x3 b p) (∑ p : Fin 32, Cert.Spec.mask x3 b p)
  rw [Ideal.ofBits_zero_f32, zero_add, zero_add]
  refine congrArg₂ Ideal.div (Finset.sum_congr rfl fun k _ => ?_) (Finset.sum_congr rfl fun k _ => ?_)
  · have e : idx_main_v11 (ix2 b h) k = ix3 b k h :=
      funext fun a => Fin.ext (by match a with | ⟨0, _⟩ => rfl | ⟨1, _⟩ => rfl | ⟨2, _⟩ => rfl)
    rw [e, val_main_v10_apply, val_main_v6_at, val_main_v9_at]
    rfl
  · rw [val_main_v8_apply, val_main_v7_apply]
    have e : idx_main_v8 (idx_main_v12 (idx_main_v13 (ix2 b h)) k) = ix2 b k :=
      funext fun a => Fin.ext (by match a with | ⟨0, _⟩ => rfl | ⟨1, _⟩ => rfl)
    rw [e, val_main_v3_at]
    rfl

section Micro
variable (x2 : (⟨S512x256x768, .f32⟩ : BufTy).Contents (Elt Ideal)) (x3 : (⟨S512x32, .i32⟩ : BufTy).Contents (Elt Ideal))

/-- The validity bit of position `(b, p)`. -/
theorem val_main_v32_at (b : Fin 512) (p : Fin 32) :
    val_main_v32 (F := Ideal) x3 (ix2 b p) = IntOp.cmpi .ne (x3 (ix2 b p)) 4294967295#32 := by
  rw [val_main_v32_apply, val_main_v31_apply, val_main_c_4_apply]

/-- The position word made safe. -/
theorem val_main_v33_at (b : Fin 512) (p : Fin 32) :
    val_main_v33 (F := Ideal) x3 (ix2 b p) = Cert.Spec.safeIdx (x3 (ix2 b p)) := by
  rw [val_main_v33_apply, val_main_v32_at, val_main_call2_v1_apply, val_main_call2_v0_apply, val_main_c_5_apply]
  rfl

theorem val_main_v34_at (b : Fin 512) (p : Fin 32) :
    val_main_v34 (F := Ideal) x3 (ix3 b p (0 : Fin 1)) = Cert.Spec.safeIdx (x3 (ix2 b p)) := by
  rw [val_main_v34_apply]
  have e : idx_main_v34 (ix3 b p (0 : Fin 1)) = ix2 b p :=
    funext fun a => Fin.ext (by match a with | ⟨0, _⟩ => rfl | ⟨1, _⟩ => rfl)
  rw [e, val_main_v33_at]

/-- The start word of the gather: the safe word counted from the end of the axis when negative. -/
theorem val_main_call3_v4_at (b : Fin 512) (p : Fin 32) :
    val_main_call3_v4 (F := Ideal) x3 (ix3 b p (0 : Fin 1)) = Cert.Spec.normIdx (Cert.Spec.safeIdx (x3 (ix2 b p))) := by
  rw [val_main_call3_v4_apply, val_main_call3_v1_apply, val_main_call3_v3_apply, val_main_v34_at, val_main_call3_v0_apply, val_main_call3_c_apply,
    val_main_call3_v2_apply, val_main_call3_c_0_apply]
  rfl

/-- Whether the start word is a row of the axis. -/
theorem val_main_call3_v10_at (b : Fin 512) (p : Fin 32) :
    val_main_call3_v10 (F := Ideal) x3 (ix3 b p (0 : Fin 1)) = Cert.Spec.inb (Cert.Spec.normIdx (Cert.Spec.safeIdx (x3 (ix2 b p)))) := by
  rw [val_main_call3_v10_apply, val_main_call3_v6_apply, val_main_call3_v9_apply, val_main_call3_v4_at, val_main_call3_v5_apply, val_main_call3_c_2_apply,
    val_main_call3_v8_apply, val_main_call3_v7_apply, val_main_call3_c_1_apply]
  rfl

theorem val_main_call3_v11_at (b : Fin 512) (p : Fin 32) :
    val_main_call3_v11 (F := Ideal) x3 (ix2 b p) = Cert.Spec.inb (Cert.Spec.normIdx (Cert.Spec.safeIdx (x3 (ix2 b p)))) := by
  unfold val_main_call3_v11
  exact (andRed_apply _ b p).trans (val_main_call3_v10_at x3 b p)

/-- What the gather-and-select takes for position `(b, p)` at column `h`. -/
theorem val_main_v35_at (b : Fin 512) (p : Fin 32) (h : Fin 768) :
    val_main_v35 (F := Ideal) x2 x3 (ix3 b p h) = Cert.Spec.taken x2 x3 b p h := by
  rw [val_main_v35_apply, val_main_call3_v13_apply]
  have e : idx_main_call3_v13 (ix3 b p h) = ix2 b p :=
    funext fun a => Fin.ext (by match a with | ⟨0, _⟩ => rfl | ⟨1, _⟩ => rfl)
  rw [e, val_main_call3_v11_at, val_main_call3_v14_apply, val_main_call3_cst_apply]
  unfold val_main_call3_v12
  rw [gather_apply_of x2 _ b p h _ (val_main_call3_v4_at x3 b p)]
  rfl

/-- The mask of position `(b, p)`, spread over the columns. -/
theorem val_main_v38_at (b : Fin 512) (p : Fin 32) (h : Fin 768) :
    val_main_v38 (F := Ideal) x3 (ix3 b p h) = Cert.Spec.mask x3 b p := by
  rw [val_main_v38_apply, val_main_v37_apply, val_main_v36_apply]
  have e : idx_main_v37 (idx_main_v38 (ix3 b p h)) = ix2 b p :=
    funext fun a => Fin.ext (by match a with | ⟨0, _⟩ => rfl | ⟨1, _⟩ => rfl)
  rw [e, val_main_v32_at]
  rfl

end Micro

theorem pooled_micro (x2 : (⟨S512x256x768, .f32⟩ : BufTy).Contents (Elt Ideal)) (x3 : (⟨S512x32, .i32⟩ : BufTy).Contents (Elt Ideal)) : val_main_v43 (F := Ideal) x2 x3 = Cert.Spec.poolR x2 x3 := by
  funext i
  obtain ⟨b, h, rfl⟩ : ∃ (b : Fin 512) (h : Fin 768), i = ix2 b h := ⟨i 0, i 1, eq_ix2 i⟩
  rw [val_main_v43_apply, val_main_v40_apply, val_main_v42_apply, val_main_v41_apply, val_main_cst_6_apply, val_main_cst_7_apply]
  show Ideal.div (Ideal.ofBits .f32 0x00000000#32 + ∑ k : Fin 32, val_main_v39 (F := Ideal) x2 x3 (idx_main_v40 (ix2 b h) k))
      (Ideal.ofBits .f32 0x00000000#32 + ∑ k : Fin 32, val_main_v37 (F := Ideal) x3 (idx_main_v41 (idx_main_v42 (ix2 b h)) k))
    = Ideal.div (∑ p : Fin 32, Cert.Spec.taken x2 x3 b p h * Cert.Spec.mask x3 b p) (∑ p : Fin 32, Cert.Spec.mask x3 b p)
  rw [Ideal.ofBits_zero_f32, zero_add, zero_add]
  refine congrArg₂ Ideal.div (Finset.sum_congr rfl fun k _ => ?_) (Finset.sum_congr rfl fun k _ => ?_)
  · have e : idx_main_v40 (ix2 b h) k = ix3 b k h :=
      funext fun a => Fin.ext (by match a with | ⟨0, _⟩ => rfl | ⟨1, _⟩ => rfl | ⟨2, _⟩ => rfl)
    rw [e, val_main_v39_apply, val_main_v35_at, val_main_v38_at]
    rfl
  · rw [val_main_v37_apply, val_main_v36_apply]
    have e : idx_main_v37 (idx_main_v41 (idx_main_v42 (ix2 b h)) k) = ix2 b k :=
      funext fun a => Fin.ext (by match a with | ⟨0, _⟩ => rfl | ⟨1, _⟩ => rfl)
    rw [e, val_main_v32_at]
    rfl

theorem sent_phys (x0 : (⟨S512x256x768, .f32⟩ : BufTy).Contents (Elt Ideal)) : val_main_v1 (F := Ideal) x0 = Cert.Spec.sent x0 := by
  funext i
  rw [val_main_v1_apply, val_main_v0_apply]
  show x0 _ = x0 _
  refine congrArg x0 ?_
  have h0 : (i 0).val < 512 := (i 0).isLt
  have h1 : (i 1).val < 768 := (i 1).isLt
  funext a
  refine Fin.ext ?_
  match a with
  | ⟨0, _⟩ => show ((i 0).val * 768 + (i 1).val) / 768 = (i 0).val; omega
  | ⟨1, _⟩ => rfl
  | ⟨2, _⟩ => show ((i 0).val * 768 + (i 1).val) % 768 = (i 1).val; omega

theorem sent_proc (x1 : (⟨S512x256x768, .f32⟩ : BufTy).Contents (Elt Ideal)) : val_main_v16 (F := Ideal) x1 = Cert.Spec.sent x1 := by
  funext i
  rw [val_main_v16_apply, val_main_v15_apply]
  show x1 _ = x1 _
  refine congrArg x1 ?_
  have h0 : (i 0).val < 512 := (i 0).isLt
  have h1 : (i 1).val < 768 := (i 1).isLt
  funext a
  refine Fin.ext ?_
  match a with
  | ⟨0, _⟩ => show ((i 0).val * 768 + (i 1).val) / 768 = (i 0).val; omega
  | ⟨1, _⟩ => rfl
  | ⟨2, _⟩ => show ((i 0).val * 768 + (i 1).val) % 768 = (i 1).val; omega

theorem sent_micro (x2 : (⟨S512x256x768, .f32⟩ : BufTy).Contents (Elt Ideal)) : val_main_v45 (F := Ideal) x2 = Cert.Spec.sent x2 := by
  funext i
  rw [val_main_v45_apply, val_main_v44_apply]
  show x2 _ = x2 _
  refine congrArg x2 ?_
  have h0 : (i 0).val < 512 := (i 0).isLt
  have h1 : (i 1).val < 768 := (i 1).isLt
  funext a
  refine Fin.ext ?_
  match a with
  | ⟨0, _⟩ => show ((i 0).val * 768 + (i 1).val) / 768 = (i 0).val; omega
  | ⟨1, _⟩ => rfl
  | ⟨2, _⟩ => show ((i 0).val * 768 + (i 1).val) % 768 = (i 1).val; omega

end Cert.ReferenceIdeal.RefPool

end
-- ==== Proof.RefLin.lean ====
/-
  The reference's affine map over the joined columns and its row normalisation, read index by index (Spec.lean
  `linCat`, `cat3`, `cat2`, `l2n`), as functions of the pooled and row-0 stages.
-/
import proofs.«400078_j39994735460380_2_alg».proof.Proof.RefRead
import proofs.«400078_j39994735460380_2_alg».proof.Proof.Spec
import Idealize.ShloMosaic.PureOps.Ideal.Laws

noncomputable section

namespace Cert.ReferenceIdeal.RefLin

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.ReadP

/-- Three `[512, 768]` arrays joined along the columns, read at an index: the block the column falls in, at the
    column less the widths of the blocks before it. -/
theorem cat3_read (a b c : Cert.Spec.A2) (j : S512x2304.Idx) :
    concatenate S512x2304 1 [⟨S512x768, a⟩, ⟨S512x768, b⟩, ⟨S512x768, c⟩]
      concatenates_S512x768_S512x768_S512x768_S512x2304_d1 j = Cert.Spec.cat3 a b c j := by
  have hj : (j 1).val < 2304 := (j 1).isLt
  unfold Cert.Spec.cat3
  by_cases h₁ : (j 1).val < 768
  · rw [dif_pos h₁]
    exact concatenate_apply_piece 1 _ _ j 0 (by simp) S512x768 a rfl rfl 0 rfl (ix2 (j 0) ⟨(j 1).val, h₁⟩)
      (fun d hd => by match d with | ⟨0, _⟩ => rfl | ⟨1, _⟩ => exact absurd (Fin.ext rfl) hd)
      (by show 0 + (j 1).val = (j 1).val; omega)
  · rw [dif_neg h₁]
    by_cases h₂ : (j 1).val < 1536
    · rw [dif_pos h₂]
      exact concatenate_apply_piece 1 _ _ j 1 (by simp) S512x768 b rfl rfl 768 rfl
        (ix2 (j 0) ⟨(j 1).val - 768, by omega⟩)
        (fun d hd => by match d with | ⟨0, _⟩ => rfl | ⟨1, _⟩ => exact absurd (Fin.ext rfl) hd)
        (by show 768 + ((j 1).val - 768) = (j 1).val; omega)
    · rw [dif_neg h₂]
      exact concatenate_apply_piece 1 _ _ j 2 (by simp) S512x768 c rfl rfl 1536 rfl
        (ix2 (j 0) ⟨(j 1).val - 1536, by omega⟩)
        (fun d hd => by match d with | ⟨0, _⟩ => rfl | ⟨1, _⟩ => exact absurd (Fin.ext rfl) hd)
        (by show 1536 + ((j 1).val - 1536) = (j 1).val; omega)

/-- Two `[512, 768]` arrays joined along the columns, read at an index. -/
theorem cat2_read (a b : Cert.Spec.A2) (j : S512x1536.Idx) :
    concatenate S512x1536 1 [⟨S512x768, a⟩, ⟨S512x768, b⟩]
      concatenates_S512x768_S512x768_S512x1536_d1 j = Cert.Spec.cat2 a b j := by
  have hj : (j 1).val < 1536 := (j 1).isLt
  unfold Cert.Spec.cat2
  by_cases h₁ : (j 1).val < 768
  · rw [dif_pos h₁]
    exact concatenate_apply_piece 1 _ _ j 0 (by simp) S512x768 a rfl rfl 0 rfl (ix2 (j 0) ⟨(j 1).val, h₁⟩)
      (fun d hd => by match d with | ⟨0, _⟩ => rfl | ⟨1, _⟩ => exact absurd (Fin.ext rfl) hd)
      (by show 0 + (j 1).val = (j 1).val; omega)
  · rw [dif_neg h₁]
    exact concatenate_apply_piece 1 _ _ j 1 (by simp) S512x768 b rfl rfl 768 rfl
      (ix2 (j 0) ⟨(j 1).val - 768, by omega⟩)
      (fun d hd => by match d with | ⟨0, _⟩ => rfl | ⟨1, _⟩ => exact absurd (Fin.ext rfl) hd)
      (by show 768 + ((j 1).val - 768) = (j 1).val; omega)

/-- The first result before normalisation: the joined columns contracted with the weights, plus the bias. -/
theorem v22_of (x0 x1 : (⟨S512x256x768, .f32⟩ : BufTy).Contents (Elt Ideal)) (x3 : (⟨S512x32, .i32⟩ : BufTy).Contents (Elt Ideal)) (x4 : (⟨S768x2304, .f32⟩ : BufTy).Contents (Elt Ideal)) (x5 : (⟨S768, .f32⟩ : BufTy).Contents (Elt Ideal)) :
    val_main_v22 (F := Ideal) x0 x1 x3 x4 x5
      = Cert.Spec.linCat (Cert.Spec.cat3 (val_main_v14 (F := Ideal) x1 x3) (val_main_v16 (F := Ideal) x1) (val_main_v1 (F := Ideal) x0)) x4 x5 := by
  funext i
  rw [val_main_v22_apply, val_main_v19_apply, val_main_v21_apply, val_main_v20_apply, Ideal.addf_def]
  unfold Cert.Spec.linCat
  refine congrArg₂ (· + ·) (Finset.sum_congr rfl fun k _ => ?_) ?_
  · rw [val_main_v18_apply]
    refine congrArg₂ (· * ·) ?_ ?_
    · unfold val_main_v17
      refine (cat3_read _ _ _ _).trans (congrArg _ ?_)
      exact funext fun d => Fin.ext (by match d with | ⟨0, _⟩ => rfl | ⟨1, _⟩ => rfl)
    · exact congrArg x4 (funext fun d => Fin.ext (by match d with | ⟨0, _⟩ => rfl | ⟨1, _⟩ => rfl))
  · exact congrArg x5 (funext fun d => Fin.ext (by match d with | ⟨0, _⟩ => rfl))

/-- The second result before normalisation. -/
theorem v51_of (x2 : (⟨S512x256x768, .f32⟩ : BufTy).Contents (Elt Ideal)) (x3 : (⟨S512x32, .i32⟩ : BufTy).Contents (Elt Ideal)) (x6 : (⟨S768x1536, .f32⟩ : BufTy).Contents (Elt Ideal)) (x7 : (⟨S768, .f32⟩ : BufTy).Contents (Elt Ideal)) :
    val_main_v51 (F := Ideal) x2 x3 x6 x7
      = Cert.Spec.linCat (Cert.Spec.cat2 (val_main_v43 (F := Ideal) x2 x3) (val_main_v45 (F := Ideal) x2)) x6 x7 := by
  funext i
  rw [val_main_v51_apply, val_main_v48_apply, val_main_v50_apply, val_main_v49_apply, Ideal.addf_def]
  unfold Cert.Spec.linCat
  refine congrArg₂ (· + ·) (Finset.sum_congr rfl fun k _ => ?_) ?_
  · rw [val_main_v47_apply]
    refine congrArg₂ (· * ·) ?_ ?_
    · unfold val_main_v46
      refine (cat2_read _ _ _).trans (congrArg _ ?_)
      exact funext fun d => Fin.ext (by match d with | ⟨0, _⟩ => rfl | ⟨1, _⟩ => rfl)
    · exact congrArg x6 (funext fun d => Fin.ext (by match d with | ⟨0, _⟩ => rfl | ⟨1, _⟩ => rfl))
  · exact congrArg x7 (funext fun d => Fin.ext (by match d with | ⟨0, _⟩ => rfl))

theorem out0_of (x0 x1 : (⟨S512x256x768, .f32⟩ : BufTy).Contents (Elt Ideal)) (x3 : (⟨S512x32, .i32⟩ : BufTy).Contents (Elt Ideal)) (x4 : (⟨S768x2304, .f32⟩ : BufTy).Contents (Elt Ideal)) (x5 : (⟨S768, .f32⟩ : BufTy).Contents (Elt Ideal)) :
    val_main_v30 (F := Ideal) x0 x1 x3 x4 x5
      = Cert.Spec.l2n (Cert.Spec.linCat (Cert.Spec.cat3 (val_main_v14 (F := Ideal) x1 x3) (val_main_v16 (F := Ideal) x1) (val_main_v1 (F := Ideal) x0)) x4 x5) := by
  have h22 := v22_of x0 x1 x3 x4 x5
  funext i
  rw [val_main_v30_apply, val_main_v29_apply, val_main_v28_apply, val_main_v27_apply, val_main_cst_3_apply,
    val_main_v26_apply, val_main_v25_apply, val_main_v24_apply, val_main_cst_2_apply]
  simp only [val_main_v23_apply]
  rw [h22]
  generalize Cert.Spec.linCat _ x4 x5 = C
  rw [Ideal.hostDivf_def, Ideal.maximumf_def, Ideal.hostUnary_sqrt_def, Ideal.ofBits_def, Ideal.ofBits_def,
    Ideal.ofBits_zero_f32, zero_add]
  simp only [Ideal.mulf_def]
  unfold Cert.Spec.l2n Cert.Spec.eps
  refine congrArg (fun s => Ideal.div (C i) (max (Ideal.sqrt s) _)) (Finset.sum_congr rfl fun k _ => ?_)
  have e : idx_main_v24 (idx_main_v25 (idx_main_v29 i)) k = ix2 (i 0) k :=
    funext fun d => Fin.ext (by match d with | ⟨0, _⟩ => rfl | ⟨1, _⟩ => rfl)
  exact congrArg (fun t => C t * C t) e

theorem out1_of (x2 : (⟨S512x256x768, .f32⟩ : BufTy).Contents (Elt Ideal)) (x3 : (⟨S512x32, .i32⟩ : BufTy).Contents (Elt Ideal)) (x6 : (⟨S768x1536, .f32⟩ : BufTy).Contents (Elt Ideal)) (x7 : (⟨S768, .f32⟩ : BufTy).Contents (Elt Ideal)) :
    val_main_v59 (F := Ideal) x2 x3 x6 x7
      = Cert.Spec.l2n (Cert.Spec.linCat (Cert.Spec.cat2 (val_main_v43 (F := Ideal) x2 x3) (val_main_v45 (F := Ideal) x2)) x6 x7) := by
  have h51 := v51_of x2 x3 x6 x7
  funext i
  rw [val_main_v59_apply, val_main_v58_apply, val_main_v57_apply, val_main_v56_apply, val_main_cst_9_apply,
    val_main_v55_apply, val_main_v54_apply, val_main_v53_apply, val_main_cst_8_apply]
  simp only [val_main_v52_apply]
  rw [h51]
  generalize Cert.Spec.linCat _ x6 x7 = C
  rw [Ideal.hostDivf_def, Ideal.maximumf_def, Ideal.hostUnary_sqrt_def, Ideal.ofBits_def, Ideal.ofBits_def,
    Ideal.ofBits_zero_f32, zero_add]
  simp only [Ideal.mulf_def]
  unfold Cert.Spec.l2n Cert.Spec.eps
  refine congrArg (fun s => Ideal.div (C i) (max (Ideal.sqrt s) _)) (Finset.sum_congr rfl fun k _ => ?_)
  have e : idx_main_v53 (idx_main_v54 (idx_main_v58 i)) k = ix2 (i 0) k :=
    funext fun d => Fin.ext (by match d with | ⟨0, _⟩ => rfl | ⟨1, _⟩ => rfl)
  exact congrArg (fun t => C t * C t) e

end Cert.ReferenceIdeal.RefLin

end
-- ==== Proof.RefValue.lean ====
/-
  The reference program's two results as the functions of Spec.lean: its run (the read-back of its host operations) composed
  with the reading of each operation at an index.
-/
import proofs.«400078_j39994735460380_2_alg».proof.Proof.RefRun
import proofs.«400078_j39994735460380_2_alg».proof.Proof.RefPool
import proofs.«400078_j39994735460380_2_alg».proof.Proof.RefLin

noncomputable section

namespace Cert.ReferenceIdeal.RefV

open Cert.ReferenceIdeal Cert.ReferenceIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The first result's stage: the normalised contraction of the joined pooled, row-0 and row-0 arrays against the first
    weight matrix. -/
theorem res0 (x0 x1 : (⟨S512x256x768, .f32⟩ : BufTy).Contents (Elt Ideal)) (x3 : (⟨S512x32, .i32⟩ : BufTy).Contents (Elt Ideal))
    (x4 : (⟨S768x2304, .f32⟩ : BufTy).Contents (Elt Ideal)) (x5 : (⟨S768, .f32⟩ : BufTy).Contents (Elt Ideal)) :
    Cert.ReferenceIdeal.ReadP.val_main_v30 (F := Ideal) x0 x1 x3 x4 x5 = Cert.Spec.outR0 x0 x1 x3 x4 x5 := by
  rw [Cert.ReferenceIdeal.RefLin.out0_of, Cert.ReferenceIdeal.RefPool.pooled_proc,
    Cert.ReferenceIdeal.RefPool.sent_proc, Cert.ReferenceIdeal.RefPool.sent_phys]
  rfl

/-- The second result's stage, likewise over two joined arrays and the second weight matrix. -/
theorem res1 (x2 : (⟨S512x256x768, .f32⟩ : BufTy).Contents (Elt Ideal)) (x3 : (⟨S512x32, .i32⟩ : BufTy).Contents (Elt Ideal))
    (x6 : (⟨S768x1536, .f32⟩ : BufTy).Contents (Elt Ideal)) (x7 : (⟨S768, .f32⟩ : BufTy).Contents (Elt Ideal)) :
    Cert.ReferenceIdeal.ReadP.val_main_v59 (F := Ideal) x2 x3 x6 x7 = Cert.Spec.outR1 x2 x3 x6 x7 := by
  rw [Cert.ReferenceIdeal.RefLin.out1_of, Cert.ReferenceIdeal.RefPool.pooled_micro, Cert.ReferenceIdeal.RefPool.sent_micro]
  rfl

/-- The reference's run with its results named. -/
theorem run : θ_run defs (onTc (τ := τ) (main (F := Ideal))) ⟨m, fun _ => 0, ρ⟩ (fun r => ∀ c : Dev nD,
      r.2.mem ((c.tc : Thread nD τ).loc main_v30)
        = Cert.Spec.outR0 (m ((c.tc : Thread nD τ).loc main_arg0)) (m ((c.tc : Thread nD τ).loc main_arg1))
            (m ((c.tc : Thread nD τ).loc main_arg3)) (m ((c.tc : Thread nD τ).loc main_arg4)) (m ((c.tc : Thread nD τ).loc main_arg5))
      ∧ r.2.mem ((c.tc : Thread nD τ).loc main_v59)
        = Cert.Spec.outR1 (m ((c.tc : Thread nD τ).loc main_arg2)) (m ((c.tc : Thread nD τ).loc main_arg3))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (res0 _ _ _ _ _), (h c).2.1.trans (res1 _ _ _ _), (h c).2.2⟩)
    (Cert.ReferenceIdeal.ValueP.run (F := Ideal) m ρ)

end Cert.ReferenceIdeal.RefV

end
-- ==== Proof.PoolLaw.lean ====
/-
  The pooling law: a dense weighted sum over all source rows against the masked mean of the gathered rows (Spec.lean).
-/
import proofs.«400078_j39994735460380_2_alg».proof.Proof.Spec
import Idealize.ShloMosaic.Lib.StableHlo.Predicate

noncomputable section

namespace Cert.Spec

open Idealize.ShloMosaic Idealize.ShloMosaic.ValueIdx
open Idealize.ShloMosaic.StableHlo.Predicate

/-- A position word is admissible: the padding word `-1`, or the number of a source row (below 256). -/
def Adm (w : BitVec 32) : Prop := w = 4294967295#32 ∨ ∃ k : Fin 256, w = BitVec.ofNat 32 k.val

/-! ## Sums of coerced reals -/

/-- The coercion of the reals into the extended reals commutes with finite sums. -/
theorem coe_sum {ι : Type} (S : Finset ι) (f : ι → ℝ) :
    ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]

/-! ## Words -/

/-- The bit of an equality test, as a number. -/
theorem cmpi_eq_toNat (a b : BitVec 32) : (IntOp.cmpi .eq a b).toNat = if a = b then 1 else 0 := by
  by_cases h : a = b <;> simp [IntOp.cmpi, h]

/-- The bit of an inequality test, as a number. -/
theorem cmpi_ne_toNat (a b : BitVec 32) : (IntOp.cmpi .ne a b).toNat = if a = b then 0 else 1 := by
  by_cases h : a = b <;> simp [IntOp.cmpi, h]

/-- The source row the reference reads for a position word: the word made safe, counted from the front, clamped. -/
def rowOf (w : BitVec 32) : Fin 256 := ⟨min (normIdx (safeIdx w)).toInt.toNat 255, by omega⟩

theorem ne_pad_small {w : BitVec 32} (hw : w.toNat < 256) : IntOp.cmpi .ne w 4294967295#32 = 1#1 := by
  have hne : w ≠ 4294967295#32 := by
    intro h; rw [h] at hw; exact absurd hw (by decide)
  show BitVec.ofBool (w != 4294967295#32) = 1#1
  exact (ofBool_eq_one_iff _).mpr (bne_iff_ne.mpr hne)

theorem safeIdx_small {w : BitVec 32} (hw : w.toNat < 256) : safeIdx w = w := by
  rw [safeIdx, ne_pad_small hw]; rfl

theorem normIdx_small {w : BitVec 32} (hw : w.toNat < 256) : normIdx w = w := by
  have h : ¬ IntOp.cmpi .slt w 0#32 = 1#1 := by
    rw [slt_iff_toNat (by omega) (by decide)]
    exact Nat.not_lt_zero _
  rw [normIdx, Scalar.select]; exact if_neg h

theorem inb_small {w : BitVec 32} (hw : w.toNat < 256) : inb w = 1#1 := by
  have h1 : IntOp.cmpi .sge w 0#32 = 1#1 := (sge_iff_toNat (by omega) (by decide)).mpr (Nat.zero_le _)
  have h2 : IntOp.cmpi .sle w 255#32 = 1#1 :=
    (sle_iff_toNat (by omega) (by decide)).mpr (by show w.toNat ≤ 255; omega)
  rw [inb, h1, h2]; rfl

theorem rowOf_small {w : BitVec 32} (hw : w.toNat < 256) : (rowOf w).val = w.toNat := by
  show min (normIdx (safeIdx w)).toInt.toNat 255 = w.toNat
  rw [safeIdx_small hw, normIdx_small hw, toInt_eq_toNat_of_lt (by omega), Int.toNat_natCast]
  omega

theorem toNat_ofNat_row (k : Fin 256) : (BitVec.ofNat 32 k.val).toNat = k.val := by
  rw [BitVec.toNat_ofNat]; exact Nat.mod_eq_of_lt (by have := k.isLt; omega)

/-- The row a padding word reads is a row of the axis (row 0). -/
theorem inb_pad : inb (normIdx (safeIdx 4294967295#32)) = 1#1 := by decide

/-- For an admissible word, the row read is a row of the axis. -/
theorem inb_adm {w : BitVec 32} (hw : Adm w) : inb (normIdx (safeIdx w)) = 1#1 := by
  rcases hw with rfl | ⟨k, rfl⟩
  · exact inb_pad
  · have hk : (BitVec.ofNat 32 k.val).toNat < 256 := by rw [toNat_ofNat_row]; exact k.isLt
    rw [safeIdx_small hk, normIdx_small hk]; exact inb_small hk

/-- For an admissible word, "names row s and is valid" is "the row read is s, and is valid". -/
theorem hit_adm {w : BitVec 32} (hw : Adm w) (s : Fin 256) :
    ((IntOp.cmpi .eq w (BitVec.ofNat 32 s.val)).toNat : ℝ) * ((IntOp.cmpi .ne w 4294967295#32).toNat : ℝ)
      = if rowOf w = s then ((IntOp.cmpi .ne w 4294967295#32).toNat : ℝ) else 0 := by
  rcases hw with rfl | ⟨k, rfl⟩
  · rw [cmpi_ne_toNat, if_pos rfl]; simp
  · have hk : (BitVec.ofNat 32 k.val).toNat < 256 := by rw [toNat_ofNat_row]; exact k.isLt
    have hrow : rowOf (BitVec.ofNat 32 k.val) = k := Fin.ext (by rw [rowOf_small hk, toNat_ofNat_row])
    rw [hrow, cmpi_eq_toNat]
    by_cases hks : k = s
    · subst hks; simp
    · have hne : ¬ BitVec.ofNat 32 k.val = BitVec.ofNat 32 s.val := by
        intro h
        have h' := congrArg BitVec.toNat h
        rw [toNat_ofNat_row, toNat_ofNat_row] at h'
        exact hks (Fin.ext h')
      rw [if_neg hne, if_neg hks]; simp

/-! ## The exchange of the two sums, over the reals -/

/-- A dense weighted sum with weights "the valid positions naming s, over c" is the masked sum of the named values over c. -/
theorem real_pool (x : Fin 256 → ℝ) (nm : Fin 32 → Fin 256) (m : Fin 32 → ℝ) (c : ℝ) :
    ∑ s : Fin 256, x s * ((∑ p : Fin 32, (if nm p = s then m p else 0)) * (1 / c))
      = (∑ p : Fin 32, x (nm p) * m p) * (1 / c) := by
  simp_rw [← mul_assoc, ← Finset.sum_mul]
  congr 1
  simp_rw [Finset.mul_sum]
  rw [Finset.sum_comm]
  refine Finset.sum_congr rfl fun p _ => ?_
  simp [mul_ite, Finset.sum_ite_eq]

/-! ## One batch row and one column -/

theorem pool_row (X : A3) (P : P2) (x : (⟨3, ![512, 256, 768]⟩ : Shape).Idx → ℝ) (hx : ∀ i, X i = ((x i : ℝ) : EReal))
    (b : Fin 512) (h : Fin 768) (hP : ∀ p : Fin 32, Adm (P (ix2 b p)))
    (hne : ∃ p : Fin 32, P (ix2 b p) ≠ 4294967295#32) :
    (∑ s : Fin 256, X (ix3 b s h) * Ideal.div (∑ p : Fin 32, hit P b p s * mask P b p) (cnt P b))
      = Ideal.div (∑ p : Fin 32, taken X P b p h * mask P b p) (cnt P b) := by
  -- the mask as a real, the row each position reads, the count
  let m : Fin 32 → ℝ := fun p => ((IntOp.cmpi .ne (P (ix2 b p)) 4294967295#32).toNat : ℝ)
  let nm : Fin 32 → Fin 256 := fun p => rowOf (P (ix2 b p))
  let c : ℝ := ∑ p : Fin 32, m p
  have hmask : ∀ p, mask P b p = ((m p : ℝ) : EReal) := fun p => rfl
  have hcnt : cnt P b = ((c : ℝ) : EReal) := by
    rw [cnt, coe_sum]; exact Finset.sum_congr rfl (fun p _ => hmask p)
  have hc : c ≠ 0 := by
    obtain ⟨p0, hp0⟩ := hne
    have h1 : m p0 = 1 := by
      show ((IntOp.cmpi .ne (P (ix2 b p0)) 4294967295#32).toNat : ℝ) = 1
      rw [cmpi_ne_toNat, if_neg hp0]; simp
    have h2 : m p0 ≤ c :=
      Finset.single_le_sum (f := m) (fun p _ => Nat.cast_nonneg _) (Finset.mem_univ p0)
    intro h0
    rw [h0, h1] at h2
    linarith
  have htm : ∀ p, taken X P b p h * mask P b p = ((x (ix3 b (nm p) h) * m p : ℝ) : EReal) := by
    intro p
    have ht : taken X P b p h = X (ix3 b (nm p) h) := by
      show Scalar.select (inb (normIdx (safeIdx (P (ix2 b p))))) (X (ix3 b (nm p) h)) _ = _
      rw [inb_adm (hP p)]; rfl
    rw [ht, hmask, hx, ← EReal.coe_mul]
  have hhit : ∀ p s, hit P b p s * mask P b p = (((if nm p = s then m p else 0) : ℝ) : EReal) := by
    intro p s
    rw [hmask]
    show ((((IntOp.cmpi .eq (P (ix2 b p)) (BitVec.ofNat 32 s.val)).toNat : ℝ) : EReal)) * ((m p : ℝ) : EReal) = _
    rw [← EReal.coe_mul]
    exact congrArg _ (hit_adm (hP p) s)
  have hL : ∀ s : Fin 256, X (ix3 b s h) * Ideal.div (∑ p : Fin 32, hit P b p s * mask P b p) (cnt P b)
      = ((x (ix3 b s h) * ((∑ p : Fin 32, (if nm p = s then m p else 0)) * (1 / c)) : ℝ) : EReal) := by
    intro s
    rw [hcnt, Ideal.div_coe hc, hx, Finset.sum_congr rfl (fun p _ => hhit p s), ← coe_sum, ← EReal.coe_mul,
      ← EReal.coe_mul]
  have hR : Ideal.div (∑ p : Fin 32, taken X P b p h * mask P b p) (cnt P b)
      = (((∑ p : Fin 32, x (ix3 b (nm p) h) * m p) * (1 / c) : ℝ) : EReal) := by
    rw [hcnt, Ideal.div_coe hc, Finset.sum_congr rfl (fun p _ => htm p), ← coe_sum, ← EReal.coe_mul]
  rw [Finset.sum_congr rfl (fun s _ => hL s), ← coe_sum, hR]
  exact congrArg _ (real_pool (fun s => x (ix3 b s h)) nm m c)

/-- THE POOLING LAW.  For a finite array, admissible positions and at least one valid position per batch row, the
    kernel's dense weighted sum is the reference's masked mean of the gathered rows. -/
theorem pool_eq (X : A3) (P : P2) (hX : ∀ i, ∃ r : ℝ, X i = (r : EReal))
    (hP : ∀ (b : Fin 512) (p : Fin 32), Adm (P (ix2 b p)))
    (hne : ∀ b : Fin 512, ∃ p : Fin 32, P (ix2 b p) ≠ 4294967295#32) :
    poolK X (weight P) = poolR X P := by
  choose x hx using hX
  funext i
  exact pool_row X P x hx (i 0) (i 1) (hP (i 0)) (hne (i 0))

end Cert.Spec

end
-- ==== Proof.CatLaw.lean ====
/-
  A contraction over a joined axis is the sum of the contractions over the joined pieces (Spec.lean).
-/
import proofs.«400078_j39994735460380_2_alg».proof.Proof.Spec

noncomputable section

namespace Cert.Spec

open Idealize.ShloMosaic Idealize.ShloMosaic.ValueIdx

/-! ## A sum over a joined range is the sum of the sums over the pieces -/

/-- A sum over `2304 = 768 + 768 + 768` terms, split into its three consecutive thirds. -/
theorem sum_split3 {M : Type*} [AddCommMonoid M] (f : Fin 2304 → M) :
    ∑ k : Fin 2304, f k
      = ((∑ k : Fin 768, f ⟨k.val, by omega⟩) + (∑ k : Fin 768, f ⟨768 + k.val, by omega⟩))
        + (∑ k : Fin 768, f ⟨1536 + k.val, by omega⟩) := by
  have h1 : ∑ k : Fin 2304, f k = ∑ k : Fin (768 + 768 + 768), f k := rfl
  rw [h1, Fin.sum_univ_add, Fin.sum_univ_add]
  rfl

/-- A sum over `1536 = 768 + 768` terms, split into its two halves. -/
theorem sum_split2 {M : Type*} [AddCommMonoid M] (f : Fin 1536 → M) :
    ∑ k : Fin 1536, f k
      = (∑ k : Fin 768, f ⟨k.val, by omega⟩) + (∑ k : Fin 768, f ⟨768 + k.val, by omega⟩) := by
  have h1 : ∑ k : Fin 1536, f k = ∑ k : Fin (768 + 768), f k := rfl
  rw [h1, Fin.sum_univ_add]
  rfl

/-! ## The joined arrays and the weight blocks at one index -/

/-- Column `m = off + k` of the weight matrix is row `k` of the transposed block at offset `off`. -/
theorem blockT_at {n : Nat} (W : (⟨2, ![768, n]⟩ : Shape).Idx → EReal) (off : Nat) (h : off + 768 ≤ n)
    (k q : Fin 768) (m : Fin n) (hm : m.val = off + k.val) :
    blockT W off h (ix2 k q) = W (ix2 q m) := by
  show W (ix2 q ⟨off + k.val, _⟩) = W (ix2 q m)
  exact congrArg (fun x => W (ix2 q x)) (Fin.ext hm.symm)

/-- The three-fold join reads its first array on the first third of the columns. -/
theorem cat3_lo (a b c : A2) (r : Fin 512) (k : Fin 768) (m : Fin 2304) (hm : m.val = k.val) :
    cat3 a b c (ix2 r m) = a (ix2 r k) := by
  have hk : k.val < 768 := k.isLt
  have h₁ : m.val < 768 := by omega
  refine (dif_pos h₁).trans ?_
  exact congrArg (fun x => a (ix2 r x)) (Fin.ext hm)

/-- The three-fold join reads its second array on the second third of the columns. -/
theorem cat3_mid (a b c : A2) (r : Fin 512) (k : Fin 768) (m : Fin 2304) (hm : m.val = 768 + k.val) :
    cat3 a b c (ix2 r m) = b (ix2 r k) := by
  have hk : k.val < 768 := k.isLt
  have h₁ : ¬ m.val < 768 := by omega
  have h₂ : m.val < 1536 := by omega
  refine (dif_neg h₁).trans ((dif_pos h₂).trans ?_)
  refine congrArg (fun x => b (ix2 r x)) (Fin.ext ?_)
  show m.val - 768 = k.val
  omega

/-- The three-fold join reads its third array on the last third of the columns. -/
theorem cat3_hi (a b c : A2) (r : Fin 512) (k : Fin 768) (m : Fin 2304) (hm : m.val = 1536 + k.val) :
    cat3 a b c (ix2 r m) = c (ix2 r k) := by
  have hk : k.val < 768 := k.isLt
  have h₁ : ¬ m.val < 768 := by omega
  have h₂ : ¬ m.val < 1536 := by omega
  refine (dif_neg h₁).trans ((dif_neg h₂).trans ?_)
  refine congrArg (fun x => c (ix2 r x)) (Fin.ext ?_)
  show m.val - 1536 = k.val
  omega

/-- The two-fold join reads its first array on the first half of the columns. -/
theorem cat2_lo (a b : A2) (r : Fin 512) (k : Fin 768) (m : Fin 1536) (hm : m.val = k.val) :
    cat2 a b (ix2 r m) = a (ix2 r k) := by
  have hk : k.val < 768 := k.isLt
  have h₁ : m.val < 768 := by omega
  refine (dif_pos h₁).trans ?_
  exact congrArg (fun x => a (ix2 r x)) (Fin.ext hm)

/-- The two-fold join reads its second array on the second half of the columns. -/
theorem cat2_hi (a b : A2) (r : Fin 512) (k : Fin 768) (m : Fin 1536) (hm : m.val = 768 + k.val) :
    cat2 a b (ix2 r m) = b (ix2 r k) := by
  have hk : k.val < 768 := k.isLt
  have h₁ : ¬ m.val < 768 := by omega
  refine (dif_neg h₁).trans ?_
  refine congrArg (fun x => b (ix2 r x)) (Fin.ext ?_)
  show m.val - 768 = k.val
  omega

/-! ## The two laws -/

/-- The contraction over three joined blocks is the sum of the three blocks' contractions. -/
theorem linCat_cat3 (a b c : A2) (W : (⟨2, ![768, 2304]⟩ : Shape).Idx → EReal) (bias : B1) :
    linCat (cat3 a b c) W bias
      = lin3 a b c (blockT W 0 (by omega)) (blockT W 768 (by omega)) (blockT W 1536 (by omega)) bias := by
  funext i
  unfold linCat lin3
  refine congrArg (fun x => x + bias (ix1 (i 1))) ?_
  rw [sum_split3]
  refine congrArg₂ (fun x y => x + y) (congrArg₂ (fun x y => x + y) ?_ ?_) ?_
  · refine Finset.sum_congr rfl fun k _ => ?_
    rw [cat3_lo a b c (i 0) k ⟨k.val, by omega⟩ rfl,
      blockT_at W 0 (by omega) k (i 1) ⟨k.val, by omega⟩ (Nat.zero_add _).symm]
  · refine Finset.sum_congr rfl fun k _ => ?_
    rw [cat3_mid a b c (i 0) k ⟨768 + k.val, by omega⟩ rfl,
      blockT_at W 768 (by omega) k (i 1) ⟨768 + k.val, by omega⟩ rfl]
  · refine Finset.sum_congr rfl fun k _ => ?_
    rw [cat3_hi a b c (i 0) k ⟨1536 + k.val, by omega⟩ rfl,
      blockT_at W 1536 (by omega) k (i 1) ⟨1536 + k.val, by omega⟩ rfl]

/-- The contraction over two joined blocks is the sum of the two blocks' contractions. -/
theorem linCat_cat2 (a b : A2) (W : (⟨2, ![768, 1536]⟩ : Shape).Idx → EReal) (bias : B1) :
    linCat (cat2 a b) W bias = lin2 a b (blockT W 0 (by omega)) (blockT W 768 (by omega)) bias := by
  funext i
  unfold linCat lin2
  refine congrArg (fun x => x + bias (ix1 (i 1))) ?_
  rw [sum_split2]
  refine congrArg₂ (fun x y => x + y) ?_ ?_
  · refine Finset.sum_congr rfl fun k _ => ?_
    rw [cat2_lo a b (i 0) k ⟨k.val, by omega⟩ rfl,
      blockT_at W 0 (by omega) k (i 1) ⟨k.val, by omega⟩ (Nat.zero_add _).symm]
  · refine Finset.sum_congr rfl fun k _ => ?_
    rw [cat2_hi a b (i 0) k ⟨768 + k.val, by omega⟩ rfl,
      blockT_at W 768 (by omega) k (i 1) ⟨768 + k.val, by omega⟩ rfl]

end Cert.Spec

end
-- ==== Proof.SpecLaws.lean ====
/-
  The two results agree: the pooling law and the split of the joined contraction (PoolLaw.lean, CatLaw.lean).
-/
import proofs.«400078_j39994735460380_2_alg».proof.Proof.PoolLaw
import proofs.«400078_j39994735460380_2_alg».proof.Proof.CatLaw

noncomputable section

namespace Cert.Spec

open Idealize.ShloMosaic Idealize.ShloMosaic.ValueIdx

theorem outK0_eq_outR0 (X0 X1 : A3) (P : P2) (W1 : (⟨2, ![768, 2304]⟩ : Shape).Idx → EReal) (b1 : B1)
    (hX : ∀ i, ∃ r : ℝ, X1 i = (r : EReal)) (hP : ∀ (b : Fin 512) (p : Fin 32), Adm (P (ix2 b p)))
    (hne : ∀ b : Fin 512, ∃ p : Fin 32, P (ix2 b p) ≠ 4294967295#32) :
    outK0 X0 X1 P W1 b1 = outR0 X0 X1 P W1 b1 := by
  unfold outK0 outR0
  rw [linCat_cat3, pool_eq X1 P hX hP hne]

theorem outK1_eq_outR1 (X2 : A3) (P : P2) (W2 : (⟨2, ![768, 1536]⟩ : Shape).Idx → EReal) (b2 : B1)
    (hX : ∀ i, ∃ r : ℝ, X2 i = (r : EReal)) (hP : ∀ (b : Fin 512) (p : Fin 32), Adm (P (ix2 b p)))
    (hne : ∀ b : Fin 512, ∃ p : Fin 32, P (ix2 b p) ≠ 4294967295#32) :
    outK1 X2 P W2 b2 = outR1 X2 P W2 b2 := by
  unfold outK1 outR1
  rw [linCat_cat2, pool_eq X2 P hX hP hne]

end Cert.Spec

end
-- ==== Proof.PreFacts.lean ====
/-
  What the precondition says of the arguments: the two pooled arrays are finite, every position word is the padding
  word or a row number, and every batch row has a valid position.
-/
import proofs.«400078_j39994735460380_2_alg».proof.Defs
import proofs.«400078_j39994735460380_2_alg».proof.Proof.PoolLaw
import Idealize.ShloMosaic.Lib.ReduceAll
import Idealize.ShloMosaic.Lib.StableHlo.Predicate

noncomputable section

namespace Cert.PreFacts

open Idealize.ShloMosaic Idealize.ShloMosaic.ValueIdx

variable [Cert.Pre_finite_inputs.Facts]

/-- The scalar shape has one index. -/
instance : Subsingleton Cert.Pre_finite_inputs.S_.Idx := ⟨fun a b => funext fun d => d.elim0⟩

/-- The word 0x7F800000 denotes +∞. -/
theorem inf_word : Ideal.ofBits .f32 0x7F800000#32 = (⊤ : EReal) := by simp [Ideal.ofBits, Ideal.ieee]

/-- An extended real whose absolute value is below +∞ is a real. -/
theorem real_of_abs_lt (x : EReal) (hx : Ideal.cmp .olt (max x (-x)) (Ideal.ofBits .f32 0x7F800000#32) = 1#1) :
    ∃ r : ℝ, x = (r : EReal) := by
  rw [inf_word] at hx
  unfold Ideal.cmp at hx
  induction x using EReal.rec with
  | bot => simp at hx
  | top => simp at hx
  | coe r => exact ⟨r, rfl⟩

/-- A word that is at least -1 and below 256, signed, is the padding word or a row number. -/
theorem adm_of (w : BitVec 32) (h1 : IntOp.cmpi .sge w 4294967295#32 = 1#1) (h2 : IntOp.cmpi .slt w 256#32 = 1#1) :
    Cert.Spec.Adm w := by
  unfold IntOp.cmpi at h1 h2
  rw [StableHlo.Predicate.ofBool_eq_one_iff] at h1 h2
  simp only [BitVec.slt, BitVec.sle, decide_eq_true_eq] at h1 h2
  have e1 : (4294967295#32 : BitVec 32).toInt = -1 := by decide
  have e2 : (256#32 : BitVec 32).toInt = 256 := by decide
  rw [e1] at h1
  rw [e2] at h2
  have h32 := w.isLt
  by_cases hm : w.toInt = -1
  · left
    exact BitVec.eq_of_toInt_eq (by rw [hm, e1])
  · right
    have hn : w.toNat < 256 := by
      unfold BitVec.toInt at h1 h2 hm
      split at h2 <;> omega
    refine ⟨⟨w.toNat, hn⟩, ?_⟩
    apply BitVec.eq_of_toNat_eq
    simp only [BitVec.toNat_ofNat]
    omega

/-- The conjunction of two one-bit arrays is 1 at an index exactly when both are. -/
theorem andi_apply_eq_one {s : Shape} (a b : IVec s 1) (i : s.Idx) :
    Idealize.ShloMosaic.andi a b i = 1#1 ↔ a i = 1#1 ∧ b i = 1#1 := IntOp.andi_eq_one

/-- The two spellings of a rectangle's index from its coordinates agree. -/
theorem ij_eq_ix2 {n m : Nat} (p : Fin n) (q : Fin m) : StableHlo.Predicate.ij p q = ix2 p q := by
  funext d
  match d with
  | ⟨0, _⟩ => rfl
  | ⟨1, _⟩ => rfl

/-- Two words whose inequality test is 1 differ. -/
theorem ne_of_cmpi_ne (a b : BitVec 32) (hab : IntOp.cmpi .ne a b = 1#1) : a ≠ b := by
  unfold IntOp.cmpi at hab
  rw [StableHlo.Predicate.ofBool_eq_one_iff] at hab
  simpa using hab

/-- A row of a [512 × 32] mask whose count of set bits is at least one has a set bit. -/
theorem exists_of_count (mask : IVec ⟨2, ![512, 32]⟩ 1) (hw : 1 < 32)
    (hr : (⟨2, ![512, 32]⟩ : Shape).ReducesTo [1] ⟨1, ![512]⟩) {u : Shape} (hu : 0 < u.numel)
    (j : (⟨1, ![512]⟩ : Shape).Idx)
    (hc : IntOp.cmpi .sge (Host.reduce IntOp.addi (extui 32 mask hw) (constantI u 32 0#32) hr hu j) 1#32 = 1#1) :
    ∃ q : Fin 32, mask (ix2 (j 0) q) = 1#1 := by
  classical
  have hcnt := StableHlo.Predicate.toNat_reduce_count_cols (n := 512) (m := 32) (by norm_num) mask hw hr hu j
  have hle : (Finset.univ.filter (fun q : Fin 32 => mask (StableHlo.Predicate.ij (j 0) q) = 1#1)).card ≤ 32 := by
    simpa using Finset.card_le_univ (Finset.univ.filter (fun q : Fin 32 => mask (StableHlo.Predicate.ij (j 0) q) = 1#1))
  generalize Host.reduce IntOp.addi (extui 32 mask hw) (constantI u 32 0#32) hr hu j = c at hc hcnt
  have h1 : (1#32 : BitVec 32).toNat ≤ c.toNat :=
    (StableHlo.Predicate.sge_iff_toNat (a := c) (b := 1#32) (by omega) (by decide)).1 hc
  have e1 : (1#32 : BitVec 32).toNat = 1 := by decide
  have hpos : 0 < (Finset.univ.filter (fun q : Fin 32 => mask (StableHlo.Predicate.ij (j 0) q) = 1#1)).card := by omega
  obtain ⟨q, hq⟩ := Finset.card_pos.1 hpos
  exact ⟨q, (congrArg mask (ij_eq_ix2 (n := 512) (m := 32) (j 0) q)).symm.trans (Finset.mem_filter.1 hq).2⟩

/-- The precondition, as a statement about eight argument arrays at the ideal values. -/
theorem of_fn
    (x0 x1 x2 : FVec Ideal Cert.Pre_finite_inputs.S512x256x768 .f32) (x3 : IVec Cert.Pre_finite_inputs.S512x32 32)
    (x4 : FVec Ideal Cert.Pre_finite_inputs.S768x2304 .f32) (x5 : FVec Ideal Cert.Pre_finite_inputs.S768 .f32)
    (x6 : FVec Ideal Cert.Pre_finite_inputs.S768x1536 .f32) (x7 : FVec Ideal Cert.Pre_finite_inputs.S768 .f32)
    (h : Cert.Pre_finite_inputs.fn (F := Ideal) x0 x1 x2 x3 x4 x5 x6 x7 = fun _ => 1#1) :
    (∀ i, ∃ r : ℝ, x1 i = (r : EReal)) ∧ (∀ i, ∃ r : ℝ, x2 i = (r : EReal))
      ∧ (∀ (b : Fin 512) (p : Fin 32), Cert.Spec.Adm (x3 (ix2 b p)))
      ∧ (∀ b : Fin 512, ∃ p : Fin 32, x3 (ix2 b p) ≠ 4294967295#32) := by
  have h0 := congrFun h ValueIdx.ix0
  dsimp only [Cert.Pre_finite_inputs.fn, Cert.Pre_finite_inputs.fn_part1, Cert.Pre_finite_inputs.fn_part2] at h0
  simp only [andi_apply_eq_one] at h0
  obtain ⟨⟨⟨⟨⟨⟨⟨⟨⟨-, h1⟩, h2⟩, -⟩, -⟩, -⟩, -⟩, h3a⟩, h3b⟩, h3c⟩ := h0
  have e1 := Host.reduce_andi_all _ _ _ _ _ h1
  have e2 := Host.reduce_andi_all _ _ _ _ _ h2
  have e3a := Host.reduce_andi_all _ _ _ _ _ h3a
  have e3b := Host.reduce_andi_all _ _ _ _ _ h3b
  have e3c := Host.reduce_andi_all _ _ _ _ _ h3c
  refine ⟨fun i => real_of_abs_lt (x1 i) (e1 i), fun i => real_of_abs_lt (x2 i) (e2 i),
    fun b p => adm_of (x3 (ix2 b p)) (e3a (ix2 b p)) (e3b (ix2 b p)), fun b => ?_⟩
  obtain ⟨q, hq⟩ := exists_of_count _ _ _ _ (ix1 b) (e3c (ix1 b))
  exact ⟨q, ne_of_cmpi_ne _ _ hq⟩

end Cert.PreFacts

end
-- ==== Proof.lean ====
/-
  The certificate's claim.  A position table names, per batch row, up to 32 source rows of two [512, 256, 768] arrays
  (the word -1 is padding); each array's named rows are averaged, joined with row 0 of the arrays, mapped through an
  affine layer and divided by the row's Euclidean norm.  The kernel program pools by a dense weighted sum over all source
  rows (weight = valid positions naming the row over valid positions) in one grid pass and applies the layer block by block
  in a second; the reference gathers the named rows and contracts the joined columns at once.  Over the extended reals the
  two agree when the pooled arrays are finite, every position is -1 or a row number, and every batch row has a valid
  position: the dense sum is the masked mean (PoolLaw.lean), and a contraction over joined columns is the sum of the
  blocks' contractions (CatLaw.lean).  The three programs' runs end with the arguments unchanged: the generated frames for the
  kernel program at both instances, the read-back run for the reference.  The ideal pass rewrote nothing, so the
  idealization claim is trivial.
-/
import proofs.«400078_j39994735460380_2_alg».proof.Defs
import proofs.«400078_j39994735460380_2_alg».proof.Proof.Gen.Kernel
import proofs.«400078_j39994735460380_2_alg».proof.Proof.Gen.Kernel.Frame
import proofs.«400078_j39994735460380_2_alg».proof.Proof.Gen.KernelIdeal
import proofs.«400078_j39994735460380_2_alg».proof.Proof.Gen.KernelIdeal.Frame
import proofs.«400078_j39994735460380_2_alg».proof.Proof.Gen.ReferenceIdeal
import proofs.«400078_j39994735460380_2_alg».proof.Proof.Gen.Pre_finite_inputs
import proofs.«400078_j39994735460380_2_alg».proof.Proof.KernelValue
import proofs.«400078_j39994735460380_2_alg».proof.Proof.RefValue
import proofs.«400078_j39994735460380_2_alg».proof.Proof.SpecLaws
import proofs.«400078_j39994735460380_2_alg».proof.Proof.PreFacts
import Idealize.ShloMosaic.Adequacy
import Idealize.ShloMosaic.Init

noncomputable section

namespace Cert.Proof

open Idealize.ShloMosaic Idealize.SL.Sem

/-- The kernel program as printed runs and keeps its arguments: the generated frame of its two regions. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its read-back run with the results dropped. -/
theorem frame_ri : Cert.frame_ReferenceIdeal := fun m ρ _ =>
  (θ_run Cert.ReferenceIdeal.defs _ _).mono (fun _ h c => (h c).2.2) (Cert.ReferenceIdeal.RefV.run m ρ)

/-- Both programs end with the same two arrays: the kernel's at `outK0` / `outK1`, the reference's at `outR0` / `outR1` of
    arguments that agree, and under the precondition these are one function. -/
theorem algebraic : Cert.algebraic_KernelIdeal_ReferenceIdeal := by
  intro m ρ m' ρ' hpre hagree
  refine ⟨_, _, Cert.KernelIdeal.KV.run m ρ, ?_⟩
  refine (θ_run Cert.ReferenceIdeal.defs _ _).mono (fun r h c => ?_) (Cert.ReferenceIdeal.RefV.run m' ρ')
  obtain ⟨h0, h1, hargs⟩ := h c
  obtain ⟨a0, a1, a2, a3, a4, a5, a6, a7⟩ := hagree c
  obtain ⟨f1, f2, fP, fne⟩ := Cert.PreFacts.of_fn _ _ _ _ _ _ _ _ (hpre c)
  refine ⟨h0.trans ?_, h1.trans ?_, hargs⟩
  · rw [a0, a1, a3, a4, a5]
    exact (Cert.Spec.outK0_eq_outR0 _ _ _ _ _ f1 fP fne).symm
  · rw [a2, a3, a6, a7]
    exact (Cert.Spec.outK1_eq_outR1 _ _ _ _ f2 fP fne).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
